-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x16 : Shape := ⟨2, ![4096, 16]⟩
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part2 {F : FTy → Type} [FloatOps F] (main_arg8 : FVec F S2x256x256 .f32) (main_arg9 : FVec F S2x256 .f32) (main_v33 : IVec S_ 1) : IVec S_ 1 :=
  let main_v34 : FVec F S2x256x256 .f32 := Host.absf main_arg8
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg9
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S2x256x256 .f32) (main_arg8 : FVec F S2x256x256 .f32) (main_arg9 : FVec F S2x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x256x256 .f32 := Host.absf main_arg7
  let main_cst_10 : FVec F S_ .f32 := constant S_ .f32 0x7F800000#32
  let main_v30 : FVec F S2x256x256 .f32 := broadcastInDim S2x256x256 ![] bcast_S_S2x256x256 main_cst_10
  let main_v31 : IVec S2x256x256 1 := cmpf .olt main_v29 main_v30
  let main_c_11 : IVec S_ 1 := constantI S_ 1 1#1
  let main_v32 : IVec S_ 1 := (fun x v => Host.reduce IntOp.andi x v reducesTo_S2x256x256_S_d0_1_2 h_S_) main_v31 main_c_11
  let main_v33 : IVec S_ 1 := andi main_v28 main_v32
  fn_part2 (F := F) main_arg8 main_arg9 main_v33

def fn {F : FTy → Type} [FloatOps F] (main_arg0 : FVec F S16384x256 .f32) (main_arg1 : IVec S4096x16 32) (main_arg2 : FVec F S4096x128 .f32) (main_arg3 : FVec F S128x256 .f32) (main_arg4 : FVec F S256 .f32) (main_arg5 : FVec F S256x256 .f32) (main_arg6 : FVec F S256 .f32) (main_arg7 : FVec F S2x256x256 .f32) (main_arg8 : FVec F S2x256x256 .f32) (main_arg9 : FVec F S2x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S16384x256 : Shape := ⟨2, ![16384, 256]⟩
abbrev S4096x16 : Shape := ⟨2, ![4096, 16]⟩
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩
abbrev S4096x16x1 : Shape := ⟨3, ![4096, 16, 1]⟩
abbrev S4096x16x256 : Shape := ⟨3, ![4096, 16, 256]⟩
abbrev S4096x256 : Shape := ⟨2, ![4096, 256]⟩
abbrev S4096 : Shape := ⟨1, ![4096]⟩
abbrev S4096x1 : Shape := ⟨2, ![4096, 1]⟩
abbrev S4096x16384 : Shape := ⟨2, ![4096, 16384]⟩
abbrev S4096x16x2 : Shape := ⟨3, ![4096, 16, 2]⟩
abbrev S4096x4096 : Shape := ⟨2, ![4096, 4096]⟩
abbrev S512x4096 : Shape := ⟨2, ![512, 4096]⟩
abbrev S512x512 : Shape := ⟨2, ![512, 512]⟩
abbrev S4096x512 : Shape := ⟨2, ![4096, 512]⟩
abbrev S512x256 : Shape := ⟨2, ![512, 256]⟩
abbrev S512x128 : Shape := ⟨2, ![512, 128]⟩
abbrev S1x256 : Shape := ⟨2, ![1, 256]⟩
abbrev S1x256x256 : Shape := ⟨3, ![1, 256, 256]⟩

abbrev nBuf : Space → Nat
  | .hbm => 66
  | .vmem => 37
  | .smem => 0
  | _ => 0

abbrev bufTy : (tb : Table) → Fin (tcTables nBuf tb) → BufTy
  | .hbm, ⟨0, _⟩ => ⟨S16384x256, .f32⟩
  | .hbm, ⟨1, _⟩ => ⟨S4096x16, .i32⟩
  | .hbm, ⟨2, _⟩ => ⟨S4096x128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x256x256, .f32⟩
  | .hbm, ⟨8, _⟩ => ⟨S2x256x256, .f32⟩
  | .hbm, ⟨9, _⟩ => ⟨S2x256, .f32⟩
  | .hbm, ⟨10, _⟩ => ⟨S_, .i32⟩
  | .hbm, ⟨11, _⟩ => ⟨S4096x16, .i32⟩
  | .hbm, ⟨12, _⟩ => ⟨S4096x16, .i1⟩
  | .hbm, ⟨13, _⟩ => ⟨S_, .i32⟩
  | .hbm, ⟨14, _⟩ => ⟨S4096x16, .i32⟩
  | .hbm, ⟨15, _⟩ => ⟨S4096x16, .i32⟩
  | .hbm, ⟨16, _⟩ => ⟨S4096x16, .i32⟩
  | .hbm, ⟨17, _⟩ => ⟨S4096x16x1, .i32⟩
  | .hbm, ⟨18, _⟩ => ⟨S4096x16x256, .f32⟩
  | .hbm, ⟨19, _⟩ => ⟨S_, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096, .i32⟩
  | .hbm, ⟨25, _⟩ => ⟨S4096x1, .i32⟩
  | .hbm, ⟨26, _⟩ => ⟨S_, .f32⟩
  | .hbm, ⟨27, _⟩ => ⟨S4096x16384, .f32⟩
  | .hbm, ⟨28, _⟩ => ⟨S_, .i32⟩
  | .hbm, ⟨29, _⟩ => ⟨S4096x1, .i32⟩
  | .hbm, ⟨30, _⟩ => ⟨S4096x1, .i1⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S4096x16, .i32⟩
  | .hbm, ⟨37, _⟩ => ⟨S4096x16, .i1⟩
  | .hbm, ⟨38, _⟩ => ⟨S_, .i32⟩
  | .hbm, ⟨39, _⟩ => ⟨S4096x16, .i32⟩
  | .hbm, ⟨40, _⟩ => ⟨S4096x16, .i32⟩
  | .hbm, ⟨41, _⟩ => ⟨S4096x16, .i32⟩
  | .hbm, ⟨42, _⟩ => ⟨S4096x16, .i32⟩
  | .hbm, ⟨43, _⟩ => ⟨S4096x16x1, .i32⟩
  | .hbm, ⟨44, _⟩ => ⟨S4096x16x1, .i32⟩
  | .hbm, ⟨45, _⟩ => ⟨S4096x16x2, .i32⟩
  | .hbm, ⟨46, _⟩ => ⟨S_, .f32⟩
  | .hbm, ⟨47, _⟩ => ⟨S4096x16, .f32⟩
  | .hbm, ⟨48, _⟩ => ⟨S4096x16384, .f32⟩
  | .hbm, ⟨49, _⟩ => ⟨S4096x16384, .bf16⟩
  | .hbm, ⟨50, _⟩ => ⟨S4096x4096, .bf16⟩
  | .hbm, ⟨51, _⟩ => ⟨S4096x256, .f32⟩
  | .hbm, ⟨52, _⟩ => ⟨S1x256x256, .f32⟩
  | .hbm, ⟨53, _⟩ => ⟨S256x256, .f32⟩
  | .hbm, ⟨54, _⟩ => ⟨S1x256x256, .f32⟩
  | .hbm, ⟨55, _⟩ => ⟨S256x256, .f32⟩
  | .hbm, ⟨56, _⟩ => ⟨S1x256, .f32⟩
  | .hbm, ⟨57, _⟩ => ⟨S256, .f32⟩
  | .hbm, ⟨58, _⟩ => ⟨S4096x256, .f32⟩
  | .hbm, ⟨59, _⟩ => ⟨S1x256x256, .f32⟩
  | .hbm, ⟨60, _⟩ => ⟨S256x256, .f32⟩
  | .hbm, ⟨61, _⟩ => ⟨S1x256x256, .f32⟩
  | .hbm, ⟨62, _⟩ => ⟨S256x256, .f32⟩
  | .hbm, ⟨63, _⟩ => ⟨S1x256, .f32⟩
  | .hbm, ⟨64, _⟩ => ⟨S256, .f32⟩
  | .hbm, ⟨65, _⟩ => ⟨S4096x256, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S512x128, .f32⟩
  | .local _ .vmem, ⟨10, _⟩ => ⟨S512x128, .f32⟩
  | .local _ .vmem, ⟨11, _⟩ => ⟨S256x256, .f32⟩
  | .local _ .vmem, ⟨12, _⟩ => ⟨S256, .f32⟩
  | .local _ .vmem, ⟨13, _⟩ => ⟨S128x256, .f32⟩
  | .local _ .vmem, ⟨14, _⟩ => ⟨S256, .f32⟩
  | .local _ .vmem, ⟨15, _⟩ => ⟨S512x256, .f32⟩
  | .local _ .vmem, ⟨16, _⟩ => ⟨S512x256, .f32⟩
  | .local _ .vmem, ⟨17, _⟩ => ⟨S512x4096, .bf16⟩
  | .local _ .vmem, ⟨18, _⟩ => ⟨S512x4096, .bf16⟩
  | .local _ .vmem, ⟨19, _⟩ => ⟨S512x256, .f32⟩
  | .local _ .vmem, ⟨20, _⟩ => ⟨S512x256, .f32⟩
  | .local _ .vmem, ⟨21, _⟩ => ⟨S4096x256, .f32⟩
  | .local _ .vmem, ⟨22, _⟩ => ⟨S256x256, .f32⟩
  | .local _ .vmem, ⟨23, _⟩ => ⟨S256x256, .f32⟩
  | .local _ .vmem, ⟨24, _⟩ => ⟨S256, .f32⟩
  | .local _ .vmem, ⟨25, _⟩ => ⟨S512x256, .f32⟩
  | .local _ .vmem, ⟨26, _⟩ => ⟨S512x256, .f32⟩
  | .local _ .vmem, ⟨27, _⟩ => ⟨S512x4096, .bf16⟩
  | .local _ .vmem, ⟨28, _⟩ => ⟨S512x4096, .bf16⟩
  | .local _ .vmem, ⟨29, _⟩ => ⟨S512x256, .f32⟩
  | .local _ .vmem, ⟨30, _⟩ => ⟨S512x256, .f32⟩
  | .local _ .vmem, ⟨31, _⟩ => ⟨S4096x256, .f32⟩
  | .local _ .vmem, ⟨32, _⟩ => ⟨S256x256, .f32⟩
  | .local _ .vmem, ⟨33, _⟩ => ⟨S256x256, .f32⟩
  | .local _ .vmem, ⟨34, _⟩ => ⟨S256, .f32⟩
  | .local _ .vmem, ⟨35, _⟩ => ⟨S512x256, .f32⟩
  | .local _ .vmem, ⟨36, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  reducesTo_S4096x16x256_S4096x256_d1 : S4096x16x256.ReducesTo [1] S4096x256
  h_S_ : 0 < S_.numel
  bcast_S_S4096x256 : S_.BroadcastsInDim S4096x256 (![] : Fin 0 → Fin S4096x256.rank)
  bcast_S4096_S4096x1_0 : S4096.BroadcastsInDim S4096x1 (![0] : Fin 1 → Fin S4096x1.rank)
  bcast_S_S4096x16384 : S_.BroadcastsInDim S4096x16384 (![] : Fin 0 → Fin S4096x16384.rank)
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  concatenates_S4096x16x1_S4096x16x1_S4096x16x2_d2 : Shape.Concatenates [S4096x16x1, S4096x16x1] S4096x16x2 2
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  transposes_S512x4096_p1_0_S4096x512 : S512x4096.Transposes [1, 0] S4096x512
  iota_S512x512_d0_w32 : S512x512.Iotas .tc 32 [0]
  iota_S512x512_d1_w32 : S512x512.Iotas .tc 32 [1]
  packedbf16_S512x512_S512x512_0_0 : (Rect.unit (s := S512x512) ![0, 0] S512x512.size inb_S512x512_S512x512_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x128_S512x128_0_0 : ∀ a, (![0, 0] : Fin 2 → Nat) a + S512x128.size a ≤ S512x128.size a
  h_S512x128 : 0 < S512x128.numel
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S256x256_S256x256 : S256x256.ShapeCasts S256x256
  shapeCasts_S256_S256 : S256.ShapeCasts S256
  slices_S2x256x256_S1x256x256_1_0_0 : S2x256x256.Slices ![1, 0, 0] S1x256x256
  slices_S2x256_S1x256_1_0 : S2x256.Slices ![1, 0] S1x256
  gather_S16384x256_S4096x16x1_S4096x16x256_2_0_n_n_0_2_1256_wf : GatherDims.WF S16384x256 S4096x16x1 S4096x16x256 [2] [0] [] [0] [] 2 ![1, 256]
  scatter_S4096x16384_S4096x16x2_S4096x16_n_01_01_2_wf : ScatterDims.WF S4096x16384 S4096x16x2 S4096x16 [] [0, 1] [0, 1] 2
  dot_S512x4096_S4096x512_S512x512_1_0_0_1_n_n_wf : DotDims.WF S512x4096 S4096x512 S512x512 [1] [0] [0] [1] [] []
  dot_S512x256_S256x256_S512x256_1_0_0_1_n_n_wf : DotDims.WF S512x256 S256x256 S512x256 [1] [0] [0] [1] [] []
  dot_S512x128_S128x256_S512x256_1_0_0_1_n_n_wf : DotDims.WF S512x128 S128x256 S512x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x16384.size a
  hwx0_0 : ∀ i : grid0.Coords, EltTy.bits .bf16 = 32 ∨ (Rect.block (s := S4096x16384) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x16384.size a
  hwx0_1 : ∀ i : grid0.Coords, EltTy.bits .bf16 = 32 ∨ (Rect.block (s := S4096x16384) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S4096x256.size a
  hwx1_6 : ∀ i : grid1.Coords, EltTy.bits .f32 = 32 ∨ (Rect.block (s := S4096x256) S512x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .f32 = 32 ∨ (Rect.block (s := S4096x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S4096x256.size a
  hwx2_2 : ∀ i : grid2.Coords, EltTy.bits .f32 = 32 ∨ (Rect.block (s := S4096x256) S4096x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x256.size a ≤ S4096x256.size a
  hwx2_6 : ∀ i : grid2.Coords, EltTy.bits .f32 = 32 ∨ (Rect.block (s := S4096x256) S512x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .f32 = 32 ∨ (Rect.block (s := S4096x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S4096x256.size a
  hwx3_2 : ∀ i : grid3.Coords, EltTy.bits .f32 = 32 ∨ (Rect.block (s := S4096x256) S4096x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x256.size a ≤ S4096x256.size a
  hwx3_6 : ∀ i : grid3.Coords, EltTy.bits .f32 = 32 ∨ (Rect.block (s := S4096x256) S512x256.size (cc3_transform_6 i) (hinb3_6 i)).WholeWords (EltTy.packing .f32)

variable [Facts₀]

def gather_S16384x256_S4096x16x1_S4096x16x256_2_0_n_n_0_2_1256 : GatherDims S16384x256 S4096x16x1 S4096x16x256 where
  offsetDims := [2]
  collapsedSliceDims := [0]
  operandBatchingDims := []
  startIndicesBatchingDims := []
  startIndexMap := [0]
  indexVectorDim := 2
  sliceSizes := ![1, 256]
  wf := gather_S16384x256_S4096x16x1_S4096x16x256_2_0_n_n_0_2_1256_wf
def scatter_S4096x16384_S4096x16x2_S4096x16_n_01_01_2 : ScatterDims S4096x16384 S4096x16x2 S4096x16 where
  updateWindowDims := []
  insertedWindowDims := [0, 1]
  scatterDimsToOperandDims := [0, 1]
  indexVectorDim := 2
  wf := scatter_S4096x16384_S4096x16x2_S4096x16_n_01_01_2_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v29) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S4096x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S512x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S4096x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S512x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S16384x256 : Shape := ⟨2, ![16384, 256]⟩
abbrev S4096x16 : Shape := ⟨2, ![4096, 16]⟩
abbrev S4096x128 : Shape := ⟨2, ![4096, 128]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩
abbrev S4096x16x1 : Shape := ⟨3, ![4096, 16, 1]⟩
abbrev S4096x16x256 : Shape := ⟨3, ![4096, 16, 256]⟩
abbrev S4096x256 : Shape := ⟨2, ![4096, 256]⟩
abbrev S1x256 : Shape := ⟨2, ![1, 256]⟩
abbrev S4096 : Shape := ⟨1, ![4096]⟩
abbrev S4096x1 : Shape := ⟨2, ![4096, 1]⟩
abbrev S4096x16384 : Shape := ⟨2, ![4096, 16384]⟩
abbrev S4096x16x2 : Shape := ⟨3, ![4096, 16, 2]⟩
abbrev S16384x4096 : Shape := ⟨2, ![16384, 4096]⟩
abbrev S4096x4096 : Shape := ⟨2, ![4096, 4096]⟩
abbrev S1x256x256 : Shape := ⟨3, ![1, 256, 256]⟩

abbrev nBuf : Space → Nat
  | .hbm => 107
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x16, .i32⟩
  | .hbm, ⟨2, _⟩ => ⟨S4096x128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x256x256, .f32⟩
  | .hbm, ⟨8, _⟩ => ⟨S2x256x256, .f32⟩
  | .hbm, ⟨9, _⟩ => ⟨S2x256, .f32⟩
  | .hbm, ⟨10, _⟩ => ⟨S_, .i32⟩
  | .hbm, ⟨11, _⟩ => ⟨S4096x16, .i32⟩
  | .hbm, ⟨12, _⟩ => ⟨S4096x16, .i1⟩
  | .hbm, ⟨13, _⟩ => ⟨S_, .i32⟩
  | .hbm, ⟨14, _⟩ => ⟨S4096x16, .i32⟩
  | .hbm, ⟨15, _⟩ => ⟨S4096x16, .i32⟩
  | .hbm, ⟨16, _⟩ => ⟨S4096x16, .i32⟩
  | .hbm, ⟨17, _⟩ => ⟨S4096x16x1, .i32⟩
  | .hbm, ⟨18, _⟩ => ⟨S4096x16x256, .f32⟩
  | .hbm, ⟨19, _⟩ => ⟨S_, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S4096, .i32⟩
  | .hbm, ⟨34, _⟩ => ⟨S4096x1, .i32⟩
  | .hbm, ⟨35, _⟩ => ⟨S_, .f32⟩
  | .hbm, ⟨36, _⟩ => ⟨S4096x16384, .f32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S_, .i32⟩
  | .hbm, ⟨45, _⟩ => ⟨S4096x16, .i32⟩
  | .hbm, ⟨46, _⟩ => ⟨S4096x16, .i1⟩
  | .hbm, ⟨47, _⟩ => ⟨S_, .i32⟩
  | .hbm, ⟨48, _⟩ => ⟨S4096x16, .i32⟩
  | .hbm, ⟨49, _⟩ => ⟨S4096x16, .i32⟩
  | .hbm, ⟨50, _⟩ => ⟨S4096x16, .i32⟩
  | .hbm, ⟨51, _⟩ => ⟨S4096x16, .i32⟩
  | .hbm, ⟨52, _⟩ => ⟨S4096x16x1, .i32⟩
  | .hbm, ⟨53, _⟩ => ⟨S4096x16x1, .i32⟩
  | .hbm, ⟨54, _⟩ => ⟨S4096x16x2, .i32⟩
  | .hbm, ⟨55, _⟩ => ⟨S_, .f32⟩
  | .hbm, ⟨56, _⟩ => ⟨S4096x16, .f32⟩
  | .hbm, ⟨57, _⟩ => ⟨S4096x16384, .f32⟩
  | .hbm, ⟨58, _⟩ => ⟨S16384x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .i1⟩
  | .hbm, ⟨63, _⟩ => ⟨S4096x4096, .f32⟩
  | .hbm, ⟨64, _⟩ => ⟨S4096x4096, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x256, .f32⟩
  | .hbm, ⟨76, _⟩ => ⟨S1x256x256, .f32⟩
  | .hbm, ⟨77, _⟩ => ⟨S256x256, .f32⟩
  | .hbm, ⟨78, _⟩ => ⟨S4096x256, .f32⟩
  | .hbm, ⟨79, _⟩ => ⟨S1x256x256, .f32⟩
  | .hbm, ⟨80, _⟩ => ⟨S256x256, .f32⟩
  | .hbm, ⟨81, _⟩ => ⟨S4096x256, .f32⟩
  | .hbm, ⟨82, _⟩ => ⟨S4096x256, .f32⟩
  | .hbm, ⟨83, _⟩ => ⟨S1x256, .f32⟩
  | .hbm, ⟨84, _⟩ => ⟨S256, .f32⟩
  | .hbm, ⟨85, _⟩ => ⟨S1x256, .f32⟩
  | .hbm, ⟨86, _⟩ => ⟨S4096x256, .f32⟩
  | .hbm, ⟨87, _⟩ => ⟨S4096x256, .f32⟩
  | .hbm, ⟨88, _⟩ => ⟨S_, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S1x256x256, .f32⟩
  | .hbm, ⟨93, _⟩ => ⟨S256x256, .f32⟩
  | .hbm, ⟨94, _⟩ => ⟨S4096x256, .f32⟩
  | .hbm, ⟨95, _⟩ => ⟨S1x256x256, .f32⟩
  | .hbm, ⟨96, _⟩ => ⟨S256x256, .f32⟩
  | .hbm, ⟨97, _⟩ => ⟨S4096x256, .f32⟩
  | .hbm, ⟨98, _⟩ => ⟨S4096x256, .f32⟩
  | .hbm, ⟨99, _⟩ => ⟨S1x256, .f32⟩
  | .hbm, ⟨100, _⟩ => ⟨S256, .f32⟩
  | .hbm, ⟨101, _⟩ => ⟨S1x256, .f32⟩
  | .hbm, ⟨102, _⟩ => ⟨S4096x256, .f32⟩
  | .hbm, ⟨103, _⟩ => ⟨S4096x256, .f32⟩
  | .hbm, ⟨104, _⟩ => ⟨S_, .f32⟩
  | .hbm, ⟨105, _⟩ => ⟨S4096x256, .f32⟩
  | .hbm, ⟨106, _⟩ => ⟨S4096x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call0_cst : Ref sig .tc := ⟨.hbm, 88, rfl⟩
abbrev main_call0_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call1_cst : Ref sig .tc := ⟨.hbm, 104, rfl⟩
abbrev main_call1_v0 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  reducesTo_S4096x16x256_S4096x256_d1 : S4096x16x256.ReducesTo [1] S4096x256
  h_S_ : 0 < S_.numel
  bcast_S_S4096x256 : S_.BroadcastsInDim S4096x256 (![] : Fin 0 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S4096_S4096x1_0 : S4096.BroadcastsInDim S4096x1 (![0] : Fin 1 → Fin S4096x1.rank)
  bcast_S_S4096x16384 : S_.BroadcastsInDim S4096x16384 (![] : Fin 0 → Fin S4096x16384.rank)
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  concatenates_S4096x16x1_S4096x16x1_S4096x16x2_d2 : Shape.Concatenates [S4096x16x1, S4096x16x1] S4096x16x2 2
  transposes_S4096x16384_S16384x4096_1_0 : S4096x16384.Transposes [1, 0] S16384x4096
  bcast_S_S4096x4096 : S_.BroadcastsInDim S4096x4096 (![] : Fin 0 → Fin S4096x4096.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x256x256_S1x256x256_1_0_0 : S2x256x256.Slices ![1, 0, 0] S1x256x256
  slices_S2x256_S1x256_1_0 : S2x256.Slices ![1, 0] S1x256
  gather_S16384x256_S4096x16x1_S4096x16x256_2_0_n_n_0_2_1256_wf : GatherDims.WF S16384x256 S4096x16x1 S4096x16x256 [2] [0] [] [0] [] 2 ![1, 256]
  dot_S4096x256_S256x256_S4096x256_1_0_0_1_n_n_wf : DotDims.WF S4096x256 S256x256 S4096x256 [1] [0] [0] [1] [] []
  dot_S4096x128_S128x256_S4096x256_1_0_0_1_n_n_wf : DotDims.WF S4096x128 S128x256 S4096x256 [1] [0] [0] [1] [] []
  scatter_S4096x16384_S4096x16x2_S4096x16_n_01_01_2_wf : ScatterDims.WF S4096x16384 S4096x16x2 S4096x16 [] [0, 1] [0, 1] 2
  dot_S4096x16384_S16384x4096_S4096x4096_1_0_0_1_n_n_wf : DotDims.WF S4096x16384 S16384x4096 S4096x4096 [1] [0] [0] [1] [] []
  dot_S4096x4096_S4096x256_S4096x256_1_0_0_1_n_n_wf : DotDims.WF S4096x4096 S4096x256 S4096x256 [1] [0] [0] [1] [] []

variable [Facts₀]

def gather_S16384x256_S4096x16x1_S4096x16x256_2_0_n_n_0_2_1256 : GatherDims S16384x256 S4096x16x1 S4096x16x256 where
  offsetDims := [2]
  collapsedSliceDims := [0]
  operandBatchingDims := []
  startIndicesBatchingDims := []
  startIndexMap := [0]
  indexVectorDim := 2
  sliceSizes := ![1, 256]
  wf := gather_S16384x256_S4096x16x1_S4096x16x256_2_0_n_n_0_2_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def scatter_S4096x16384_S4096x16x2_S4096x16_n_01_01_2 : ScatterDims S4096x16384 S4096x16x2 S4096x16 where
  updateWindowDims := []
  insertedWindowDims := [0, 1]
  scatterDimsToOperandDims := [0, 1]
  indexVectorDim := 2
  wf := scatter_S4096x16384_S4096x16x2_S4096x16_n_01_01_2_wf
def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K.Adj.lean ====
/-
  The adjacency (the first pallas_call): a grid of 8 x 8 x 4 points (i, j, n), n innermost. At a point the body reads
  the 512 x 4096 blocks (i, n) and (j, n) of the membership matrix; at n = 0 it clears a 512 x 512 accumulator kept in
  scratch; it adds the block product  A·Bᵀ  to the accumulator; at n = 3 it stores the output block (i, j):
  0 on the diagonal of the whole matrix, else 1 where the accumulator is positive, else 0. At n < 3 the output's
  staging buffer is left as found and is not written back.
  Here: the accumulator after each point, the body's triple in its three control cases, the region's proof data (the
  two windows on the membership matrix each hold half of it) and its body obligation, at any float instance.
-/
import proofs.«109248_j70342974374329_1_alg».proof.Proof.Gen.Kernel.Launch
import proofs.«109248_j70342974374329_1_alg».proof.Proof.Gen.Kernel.Skeleton
import proofs.«109248_j70342974374329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator kept in scratch. -/
abbrev scM : Memref sig .tc .vmem S512x512 .f32 := Memref.whole cc0_scratch0

/-- THE ACCUMULATION: the accumulator after the body at position `n`: cleared first where n ≡ 0 (mod 4), then the
    block product of the point's two input blocks added. -/
def accAt (c : Dev nD) : (n : ℕ) → n < cfg0.N → Vec F S512x512 .f32
  | 0, hn => k0_pay2 (iblk0 V c 0 ⟨0, hn⟩) (iblk0 V c 1 ⟨0, hn⟩) k0_pay1
  | n + 1, hn =>
    if (n + 1) % 4 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (accAt c n (Nat.lt_of_succ_lt hn))

theorem accAt_reset (c : Dev nD) (t : Fin cfg0.N) (h : t.val % 4 = 0) :
    accAt V c t.val t.isLt = k0_pay2 (iblk0 V c 0 t) (iblk0 V c 1 t) k0_pay1 := by
  obtain ⟨n, hn⟩ := t
  cases n with
  | zero => rfl
  | succ n => exact (if_pos h)

theorem accAt_step (c : Dev nD) (t : Fin cfg0.N) (h : ¬ t.val % 4 = 0) :
    accAt V c t.val t.isLt = k0_pay2 (iblk0 V c 0 t) (iblk0 V c 1 t)
      (accAt V c (t.val - 1) (Nat.lt_of_le_of_lt (Nat.sub_le _ _) t.isLt)) := by
  obtain ⟨n, hn⟩ := t
  cases n with
  | zero => exact absurd (Nat.zero_mod _) h
  | succ n => exact (if_neg h)

/-- The region invariant before position `n`: before the first point the scoped rest (the accumulator among it, at
    anything) and the generator register; afterwards the accumulator at what the point before left in it, the other
    scoped buffers and the generator register. -/
def PhiS (c : Dev nD) : (n : ℕ) → n ≤ cfg0.N → sProp 𝕄
  | 0, _ => Pipeline.ΦA spec0 c
  | n + 1, hn => iprop(owns (c : Thread nD τ) scM fullShare (accAt V c n hn)
      ∗ Pipeline.scopedRestBut (Ix := Unit) (Name := ℕ) (U := UR sig nD τ) (Lvl := ℕ) (Val := Elt F) spec0 c [cc0_scratch0]
      ∗ ∃ r, prngReg c r)

/-- The region's proof data on core `c`. Windows 0 and 1 read one array: each holds half of it. At a point with
    n < 3 the output window is idle and `after 2` is not consulted there. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (grid0.coords t) (accAt V c t.val t.isLt)
  Φ t := PhiS V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_2 (c : Dev nD) (t : Fin cfg0.N) :
    (dat0 V c).after 2 t = k0_pay3 (grid0.coords t) (accAt V c t.val t.isLt) := by dsimp only [dat0]

/-! ## The body's triple in its three control cases -/

/-- A store through the whole-buffer rectangle at zero offsets, made LAST, leaves its payload: whatever the view,
    the contents before and the earlier stores. -/
theorem read_writes_cons_unit_zero {sg : RefSig} {κ : Kind} {sp : Space} {Val : EltTy → Type} [∀ e, Nonempty (Val e)]
    {S : Shape} {e : EltTy} (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-buffer rectangle at zero offsets of a whole memref at contents `X` reads `X`. -/
theorem readAt_unread_unit_zero {sg : RefSig} {κ : Kind} {sp : Space} {Val : EltTy → Type}
    {S : Shape} {e : EltTy} (m : Memref sg κ sp S e) (h : m.IsWhole) {off : Fin S.rank → Nat}
    (hz : off = fun _ => 0) (inb : ∀ a, off a + S.size a ≤ S.size a) (X : S.Idx → Val e) :
    m.view.readAt Val (Rect.unit off S.size inb).toLoadRect (h.unread X) = X := by
  rw [View.readAt_eq_ld, h.read_unread, View.ld_unit_zero hz]

/-- The first conditional's test (the third grid coordinate is 0), from the grid coordinates. -/
abbrev condReset (i : grid0.Coords) : Prop :=
  (Scalar.cmpi .ne (Scalar.extui (Scalar.cmpi .eq (BitVec.ofNat 32 (i 2).val) 0#32)) 0#32) = 1#1
/-- The second conditional's test (the third grid coordinate is 3). -/
abbrev condStore (i : grid0.Coords) : Prop := k0_cond2 i = 1#1

/-- The zero offsets of a whole-buffer rectangle of rank 2. -/
theorem hz2 : (![0, 0] : Fin 2 → Nat) = fun _ => 0 := funext fun a => by fin_cases a <;> rfl

set_option maxHeartbeats 1000000 in
/-- Where the accumulator is cleared and the output is not stored: the accumulator ends at the block product added
    to zeros; the inputs and the output's buffer are left as found. -/
theorem runA (c : Dev nD) (i : grid0.Coords)
    (arg3 : Memref sig .tc .vmem S512x4096 .bf16) (harg3 : arg3.IsWhole)
    (arg4 : Memref sig .tc .vmem S512x4096 .bf16) (harg4 : arg4.IsWhole)
    (arg5 : Memref sig .tc .vmem S512x512 .bf16) (harg5 : arg5.IsWhole)
    (arg6 : Memref sig .tc .vmem S512x512 .f32) (harg6 : arg6.IsWhole)
    (hc0 : condReset i) (hc1 : ¬ condStore i)
    (x0 x1 : Vec F S512x4096 .bf16) (xo : Vec F S512x512 .bf16) (E : Set ℕ) (K : PUnit → sProp 𝕄) :
    iprop(owns (c : Thread nD τ) arg3 fullShare x0 ∗ owns (c : Thread nD τ) arg4 fullShare x1
        ∗ owns (c : Thread nD τ) arg5 fullShare xo ∗ (∃ d, owns (c : Thread nD τ) arg6 fullShare d)
        ∗ (iprop(owns (c : Thread nD τ) arg3 fullShare x0 ∗ owns (c : Thread nD τ) arg4 fullShare x1
            ∗ owns (c : Thread nD τ) arg5 fullShare xo
            ∗ owns (c : Thread nD τ) arg6 fullShare (k0_pay2 x0 x1 k0_pay1)) -∗ K ⟨⟩))
      ⊢ wp frame (wpE (defs₀ (F := F)) Variants.none c none) E (cc0__adj_kernel i arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  refine (read_writes_cons_unit_zero _ _ hz2 _ _ _).trans ?_
  sl_unfold_words
  rw [readAt_unread_unit_zero arg3 harg3 hz2, readAt_unread_unit_zero arg4 harg4 hz2, View.readCov_unit_zero _ hz2]

set_option maxHeartbeats 1000000 in
/-- Where the accumulator is kept and the output is not stored: the block product is added to what the accumulator
    held; the inputs and the output's buffer are left as found. -/
theorem runB (c : Dev nD) (i : grid0.Coords)
    (arg3 : Memref sig .tc .vmem S512x4096 .bf16) (harg3 : arg3.IsWhole)
    (arg4 : Memref sig .tc .vmem S512x4096 .bf16) (harg4 : arg4.IsWhole)
    (arg5 : Memref sig .tc .vmem S512x512 .bf16) (harg5 : arg5.IsWhole)
    (arg6 : Memref sig .tc .vmem S512x512 .f32) (harg6 : arg6.IsWhole)
    (hc0 : ¬ condReset i) (hc1 : ¬ condStore i)
    (x0 x1 : Vec F S512x4096 .bf16) (xo : Vec F S512x512 .bf16) (xs : Vec F S512x512 .f32) (E : Set ℕ) (K : PUnit → sProp 𝕄) :
    iprop(owns (c : Thread nD τ) arg3 fullShare x0 ∗ owns (c : Thread nD τ) arg4 fullShare x1
        ∗ owns (c : Thread nD τ) arg5 fullShare xo ∗ owns (c : Thread nD τ) arg6 fullShare xs
        ∗ (iprop(owns (c : Thread nD τ) arg3 fullShare x0 ∗ owns (c : Thread nD τ) arg4 fullShare x1
            ∗ owns (c : Thread nD τ) arg5 fullShare xo
            ∗ owns (c : Thread nD τ) arg6 fullShare (k0_pay2 x0 x1 xs)) -∗ K ⟨⟩))
      ⊢ wp frame (wpE (defs₀ (F := F)) Variants.none c none) E (cc0__adj_kernel i arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  refine (read_writes_cons_unit_zero _ _ hz2 _ _ _).trans ?_
  sl_unfold_words
  rw [readAt_unread_unit_zero arg3 harg3 hz2, readAt_unread_unit_zero arg4 harg4 hz2, readAt_unread_unit_zero arg6 harg6 hz2]

set_option maxHeartbeats 1000000 in
/-- Where the accumulator is kept and the output is stored: the block product is added to what the accumulator held,
    and the output's buffer ends at the thresholded block of that sum; the inputs are left as found. -/
theorem runC (c : Dev nD) (i : grid0.Coords)
    (arg3 : Memref sig .tc .vmem S512x4096 .bf16) (harg3 : arg3.IsWhole)
    (arg4 : Memref sig .tc .vmem S512x4096 .bf16) (harg4 : arg4.IsWhole)
    (arg5 : Memref sig .tc .vmem S512x512 .bf16) (harg5 : arg5.IsWhole)
    (arg6 : Memref sig .tc .vmem S512x512 .f32) (harg6 : arg6.IsWhole)
    (hc0 : ¬ condReset i) (hc1 : condStore i)
    (x0 x1 : Vec F S512x4096 .bf16) (xs : Vec F S512x512 .f32) (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare xs
        ∗ (iprop(owns (c : Thread nD τ) arg3 fullShare x0 ∗ owns (c : Thread nD τ) arg4 fullShare x1
            ∗ owns (c : Thread nD τ) arg5 fullShare (k0_pay3 i (k0_pay2 x0 x1 xs))
            ∗ owns (c : Thread nD τ) arg6 fullShare (k0_pay2 x0 x1 xs)) -∗ K ⟨⟩))
      ⊢ wp frame (wpE (defs₀ (F := F)) Variants.none c none) E (cc0__adj_kernel i arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    refine (read_writes_cons_unit_zero _ _ hz2 _ _ _).trans ?_
    sl_unfold_words
    rw [View.readCov_unit_zero _ hz2, readAt_unread_unit_zero arg3 harg3 hz2, readAt_unread_unit_zero arg4 harg4 hz2,
      readAt_unread_unit_zero arg6 harg6 hz2]
  iexists _; isplitr
  swap; · iexact HS
  ipureintro
  refine (read_writes_cons_unit_zero _ _ hz2 _ _ _).trans ?_
  sl_unfold_words
  rw [readAt_unread_unit_zero arg3 harg3 hz2, readAt_unread_unit_zero arg4 harg4 hz2, readAt_unread_unit_zero arg6 harg6 hz2]

/-! ## The conditions in closed form, and where the output window is idle -/

/-- The accumulator is cleared at the points ≡ 0 (mod 4): decided over the grid. -/
theorem hcondReset : ∀ t : Fin cfg0.N, condReset (grid0.coords t) ↔ t.val % 4 = 0 :=
  (by decide +kernel : ∀ t : Fin grid0.N, condReset (grid0.coords t) ↔ t.val % 4 = 0)
/-- The output block is stored at the points ≡ 3 (mod 4): decided over the grid. -/
theorem hcondStore : ∀ t : Fin cfg0.N, condStore (grid0.coords t) ↔ t.val % 4 = 3 :=
  (by decide +kernel : ∀ t : Fin grid0.N, condStore (grid0.coords t) ↔ t.val % 4 = 3)

/-- The input windows are never idle. -/
theorem liveIn0 : ∀ t : Fin cfg0.N, cfg0.idle 0 (grid0.coords t) = false := by decide +kernel
theorem liveIn1 : ∀ t : Fin cfg0.N, cfg0.idle 1 (grid0.coords t) = false := by decide +kernel
/-- Where the output is not stored its window is idle and is not written back; where it is stored the window is live. -/
theorem idleOut : ∀ t : Fin cfg0.N, ¬ condStore (grid0.coords t) → cfg0.idle 2 (grid0.coords t) = true := by decide +kernel
theorem noFlushOut : ∀ t : Fin cfg0.N, ¬ condStore (grid0.coords t) → (cfg0.win 2).flush t = false := by decide +kernel
theorem liveOut : ∀ t : Fin cfg0.N, condStore (grid0.coords t) → cfg0.idle 2 (grid0.coords t) = false := by decide +kernel

/-! ## The staging memrefs at a point, and the invariant unfolded -/

abbrev ms0 (t : Fin cfg0.N) : Memref sig .tc .vmem S512x4096 .bf16 := win0_0.stage (cfg0.slots t 0)
abbrev ms1 (t : Fin cfg0.N) : Memref sig .tc .vmem S512x4096 .bf16 := win0_1.stage (cfg0.slots t 1)
abbrev ms2 (t : Fin cfg0.N) : Memref sig .tc .vmem S512x512 .bf16 := win0_2.stage (cfg0.slots t 2)

/-- What the region is entered with: the accumulator at anything, the other scoped buffers, the generator register. -/
theorem PhiA0_eq (c : Dev nD) :
    (Pipeline.ΦA spec0 c : sProp 𝕄)
      = iprop(iprop((∃ d, owns (c : Thread nD τ) scM fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM, owns_whole]; try rfl

theorem PhiS_zero (c : Dev nD) (n : ℕ) (h : n ≤ cfg0.N) (hz : n = 0) : PhiS V c n h = Pipeline.ΦA spec0 c := by
  subst hz; rfl

/-- After point `n`: the accumulator at that point's contents. -/
theorem PhiS_succ (c : Dev nD) (n : ℕ) (hn : n < cfg0.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec0 c [cc0_scratch0]
      ∗ ∃ r, prngReg c r) := rfl

/-- Before a point that is not the first: the accumulator at what the point before left. -/
theorem PhiS_pos (c : Dev nD) (n : ℕ) (h : n ≤ cfg0.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec0 c [cc0_scratch0]
      ∗ ∃ r, prngReg c r) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- Each input's current staging buffer holds its block at every point: both are fetched at every point. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms say which of the three cases the
    point is in; the invariant hands the body the accumulator (at anything at the first point, else at what the point
    before left) and takes it back at this point's contents; where the output is not stored its buffer goes back as
    found, where it is stored it holds the thresholded block of this point's accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [liveIn0 t], after0_0]
  rw [show (dat0 V c).leavesExact 1 t = owns (c : Thread nD τ) (ms1 t) fullShare ((dat0 V c).after 1 t) from by
    unfold Dat.leavesExact; rw [liveIn1 t], after0_1]
  have hN : t.val < 256 := lt_of_lt_of_eq t.isLt (show cfg0.N = 256 from N_0)
  by_cases h0 : t.val % 4 = 0
  · have h1 : ¬ t.val % 4 = 3 := by omega
    have hr : condReset (grid0.coords t) := (hcondReset t).mpr h0
    have hs : ¬ condStore (grid0.coords t) := fun h => h1 ((hcondStore t).mp h)
    rw [Dat.leavesExact_idle (dat0 V c) 2 t (idleOut t hs) (noFlushOut t hs)]
    rw [accAt_reset V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply (runA c (grid0.coords t) _ _ _ _ _ _ _ _ hr hs (iblk0 V c 0 t) (iblk0 V c 1 t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨HS, HR, Hg⟩, Ho, ⟨%d0, H0⟩, ⟨%d1, H1⟩, ⟨%d2, H2⟩⟩
      iapply (runA c (grid0.coords t) _ _ _ _ _ _ _ _ hr hs (iblk0 V c 0 t) (iblk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hr : ¬ condReset (grid0.coords t) := fun h => h0 ((hcondReset t).mp h)
    have hz : t.val ≠ 0 := fun e => h0 (by rw [e])
    rw [accAt_step V c t h0]
    rw [PhiS_castSucc V c t, PhiS_pos V c _ _ hz]
    by_cases h1 : t.val % 4 = 3
    · have hs : condStore (grid0.coords t) := (hcondStore t).mpr h1
      rw [show (dat0 V c).leavesExact 2 t = owns (c : Thread nD τ) (ms2 t) fullShare ((dat0 V c).after 2 t) from by
        unfold Dat.leavesExact; rw [liveOut t hs], after0_2, accAt_step V c t h0]
      iintro ⟨⟨HS, HR, Hg⟩, Ho, ⟨%d0, H0⟩, ⟨%d1, H1⟩, ⟨%d2, H2⟩⟩
      iapply (runC c (grid0.coords t) _ _ _ _ _ _ _ _ hr hs (iblk0 V c 0 t) (iblk0 V c 1 t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hs : ¬ condStore (grid0.coords t) := fun h => h1 ((hcondStore t).mp h)
      rw [Dat.leavesExact_idle (dat0 V c) 2 t (idleOut t hs) (noFlushOut t hs)]
      iintro ⟨⟨HS, HR, Hg⟩, Ho, ⟨%d0, H0⟩, ⟨%d1, H1⟩, ⟨%d2, H2⟩⟩
      iapply (runB c (grid0.coords t) _ _ _ _ _ _ _ _ hr hs (iblk0 V c 0 t) (iblk0 V c 1 t) ((dat0 V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest and the generator register back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), PhiA0_eq]
  iintro ⟨HS, HR, Hg⟩
  isplitl [HS HR]
  · isplitl [HS]; · iexists _; iexact HS
    iexact HR
  iexact Hg

end Cert.Kernel.Adj

end
-- ==== Proof.K.Proj.lean ====
/-
  The input projection (the second pallas_call): one grid axis of 8 row blocks; at a point the body reads a
  512-row block of the pooled embeddings and of the group features, the two weight matrices and the two biases
  whole, and stores the 512 x 256 block  pooled·W_a2g + b_a2g + features·W_in + b_in  whole.
  Here: what the body leaves in the output block as a function of the input blocks, the body's triple, the
  region's proof data and its body obligation, at any float instance.
-/
import proofs.«109248_j70342974374329_1_alg».proof.Proof.Gen.Kernel.Launch
import proofs.«109248_j70342974374329_1_alg».proof.Proof.Gen.Kernel.Skeleton
import proofs.«109248_j70342974374329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRows : Rect S512x256 := Rect.unit (s := S512x256) ![0, 0] S512x256.size inb_S512x256_S512x256_0_0
abbrev rFeat : Rect S512x128 := Rect.unit (s := S512x128) ![0, 0] S512x128.size inb_S512x128_S512x128_0_0
abbrev rWa : Rect S256x256 := Rect.unit (s := S256x256) ![0, 0] S256x256.size inb_S256x256_S256x256_0_0
abbrev rWin : Rect S128x256 := Rect.unit (s := S128x256) ![0, 0] S128x256.size inb_S128x256_S128x256_0_0
abbrev rBias : Rect S256 := Rect.unit (s := S256) ![0] S256.size inb_S256_S256_0

/-- The output block after the body, from the six input blocks (in window order: pooled rows, feature rows,
    W_a2g, b_a2g, W_in, b_in): the one store's payload over the loads. -/
def out1_6 (x0 : Vec F S512x256 .f32) (x1 : Vec F S512x128 .f32) (x2 : Vec F S256x256 .f32) (x3 : Vec F S256 .f32)
    (x4 : Vec F S128x256 .f32) (x5 : Vec F S256 .f32) : Vec F S512x256 .f32 :=
  View.canon [⟨rRows, k1_pay1 (View.ld x0 rRows) (View.ld x1 rFeat) (View.ld x2 rWa) (View.ld x4 rWin) (View.ld x3 rBias) (View.ld x5 rBias)⟩]

/-- The region's proof data on core `c`: the arrays as found; every input's buffer keeps its block, the output's
    holds `out1_6` of the input blocks; the invariant is the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! ## What each input's staging buffer holds when the body is called

  The body leaves every input block where it found it, no input window is cut and none is ever idle. So at a point
  that fetches the window the buffer holds the block just fetched, and at a point that does not (the weights and
  biases after the first point) the block index has not moved since the fetch, and the buffer still holds the same
  block: in both cases the window's block at that point, read off the array as the region found it. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## The body's one store -/

/-- The store's rectangle is the whole 512 x 256 buffer, one tile of the buffer's own extents: every index of the
    buffer lies under it. -/
theorem cover1_6 (p : Vec F S512x256 .f32) (y : S512x256.Idx) :
    ∃ pc ∈ ([⟨rRows, p⟩] : List (View.Piece (Elt F) S512x256 .f32)), y ∈ pc.1.set :=
  View.cover_of_tiled [⟨rRows, p⟩] S512x256.size (by rfl) y

set_option maxHeartbeats 1000000 in
/-- The body on whole staging memrefs, the six inputs' reading `x0 … x5` and the output's reading anything, runs
    to a continuation that holds the inputs' as they were and the output's at `out1_6` of them: six whole loads, a
    load of the output buffer whose value nothing reads, and one store of the payload over the whole buffer. -/
theorem sound_kernel1 (c : Dev nD) (E : Set ℕ) (i : grid1.Coords)
    (a0 : Memref sig .tc .vmem S512x256 .f32) (h0 : a0.IsWhole) (a1 : Memref sig .tc .vmem S512x128 .f32) (h1 : a1.IsWhole)
    (a2 : Memref sig .tc .vmem S256x256 .f32) (h2 : a2.IsWhole) (a3 : Memref sig .tc .vmem S256 .f32) (h3 : a3.IsWhole)
    (a4 : Memref sig .tc .vmem S128x256 .f32) (h4 : a4.IsWhole) (a5 : Memref sig .tc .vmem S256 .f32) (h5 : a5.IsWhole)
    (a6 : Memref sig .tc .vmem S512x256 .f32) (h6 : a6.IsWhole)
    (x0 : Vec F S512x256 .f32) (x1 : Vec F S512x128 .f32) (x2 : Vec F S256x256 .f32) (x3 : Vec F S256 .f32)
    (x4 : Vec F S128x256 .f32) (x5 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (out1_6 x0 x1 x2 x3 x4 x5)) -∗ K ⟨⟩))
      ⊢ wp frame (wpE (defs₀ (F := F)) Variants.none c none) E
          (cc1__proj_kernel i a0 h0 a1 h1 a2 h2 a3 h3 a4 h4 a5 h5 a6 h6) K := by
  simp only [cc1__proj_kernel_eq_skeleton]; unfold cc1__proj_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The body obligation, at a generic point -/

/-- What the body is called with at point `t`: the invariant, what the core owes, and the seven windows' current
    staging buffers at what they then hold. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: the same at the next point, every buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. Each input's buffer holds its block there (`before1_W`), the output's holds something,
    so the body's triple applies; the invariant and what the core owes are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Proj

end
-- ==== Proof.K.Mp2.lean ====
/-
  The first message-passing layer (the third pallas_call): one grid axis of 8 row blocks; at a point the body reads
  a 512 x 4096 block of adjacency rows, the matching 512 rows of the embeddings, the embeddings whole, the two
  256 x 256 weights and the bias, and stores  max(rows·W_self + (adj_rows·embeddings)·W_neigh + b, 0)  whole.
  Here: the output block as a function of the input blocks, the body's triple, the region's proof data (the two
  windows on the embeddings' array each hold half of it) and its body obligation, at any float instance.
-/
import proofs.«109248_j70342974374329_1_alg».proof.Proof.Gen.Kernel.Launch
import proofs.«109248_j70342974374329_1_alg».proof.Proof.Gen.Kernel.Skeleton
import proofs.«109248_j70342974374329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mp2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rAdj : Rect S512x4096 := Rect.unit (s := S512x4096) ![0, 0] S512x4096.size inb_S512x4096_S512x4096_0_0
abbrev rRows : Rect S512x256 := Rect.unit (s := S512x256) ![0, 0] S512x256.size inb_S512x256_S512x256_0_0
abbrev rAll : Rect S4096x256 := Rect.unit (s := S4096x256) ![0, 0] S4096x256.size inb_S4096x256_S4096x256_0_0
abbrev rW : Rect S256x256 := Rect.unit (s := S256x256) ![0, 0] S256x256.size inb_S256x256_S256x256_0_0
abbrev rBias : Rect S256 := Rect.unit (s := S256) ![0] S256.size inb_S256_S256_0

/-- The output block after the body, from the six input blocks (in window order: adjacency rows, embedding rows,
    all embeddings, W_self, W_neigh, bias): the one store's payload over the loads. -/
def out2_6 (x0 : Vec F S512x4096 .bf16) (x1 : Vec F S512x256 .f32) (x2 : Vec F S4096x256 .f32) (x3 : Vec F S256x256 .f32)
    (x4 : Vec F S256x256 .f32) (x5 : Vec F S256 .f32) : Vec F S512x256 .f32 :=
  View.canon [⟨rRows, k2_pay1 (View.ld x0 rAdj) (View.ld x2 rAll) (View.ld x1 rRows) (View.ld x3 rW) (View.ld x4 rW) (View.ld x5 rBias)⟩]

/-- The region's proof data on core `c`. Windows 1 and 2 read one array: each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-! ## What the body leaves in, and finds in, the input windows' buffers

For each of the six input windows, four facts in this order: the body leaves the buffer at the window's block; that
block is what the window's transfers move of it; it is also what a fetch at the point puts in the buffer; so the
buffer holds the block wherever the body runs — at a point that fetches the window by the fetch, and at a point that
does not because the block index has not moved since the last fetch and the body left the block in place. None of this
reads the share a window holds of its array. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

theorem keep2_0 (c : Dev nD) (t : Fin cfg2.N) :
    (cfg2.win 0).cut (cfg2.grid.coords t) ((dat2 V c).after 0 t) = (dat2 V c).blockOf 0 t := by
  rw [after2_0]; unfold Dat.blockOf iblk2; rw [A_eq2]
theorem fetched2_0 (c : Dev nD) (t : Fin cfg2.N) (d) : (dat2 V c).fetched 0 t d = iblk2 V c 0 t := by
  unfold Dat.fetched Dat.blockOf iblk2; rw [A_eq2]; rfl
theorem before2_0 (c : Dev nD) (t : Fin cfg2.N) (d) : (dat2 V c).before 0 t d = iblk2 V c 0 t :=
  ((dat2 V c).before_in_eq_fetched 0 rfl (fun _ => rfl) (fun _ _ _ => rfl) (keep2_0 V c) t d).trans (fetched2_0 V c t d)

theorem keep2_1 (c : Dev nD) (t : Fin cfg2.N) :
    (cfg2.win 1).cut (cfg2.grid.coords t) ((dat2 V c).after 1 t) = (dat2 V c).blockOf 1 t := by
  rw [after2_1]; unfold Dat.blockOf iblk2; rw [A_eq2]
theorem fetched2_1 (c : Dev nD) (t : Fin cfg2.N) (d) : (dat2 V c).fetched 1 t d = iblk2 V c 1 t := by
  unfold Dat.fetched Dat.blockOf iblk2; rw [A_eq2]; rfl
theorem before2_1 (c : Dev nD) (t : Fin cfg2.N) (d) : (dat2 V c).before 1 t d = iblk2 V c 1 t :=
  ((dat2 V c).before_in_eq_fetched 1 rfl (fun _ => rfl) (fun _ _ _ => rfl) (keep2_1 V c) t d).trans (fetched2_1 V c t d)

theorem keep2_2 (c : Dev nD) (t : Fin cfg2.N) :
    (cfg2.win 2).cut (cfg2.grid.coords t) ((dat2 V c).after 2 t) = (dat2 V c).blockOf 2 t := by
  rw [after2_2]; unfold Dat.blockOf iblk2; rw [A_eq2]
theorem fetched2_2 (c : Dev nD) (t : Fin cfg2.N) (d) : (dat2 V c).fetched 2 t d = iblk2 V c 2 t := by
  unfold Dat.fetched Dat.blockOf iblk2; rw [A_eq2]; rfl
theorem before2_2 (c : Dev nD) (t : Fin cfg2.N) (d) : (dat2 V c).before 2 t d = iblk2 V c 2 t :=
  ((dat2 V c).before_in_eq_fetched 2 rfl (fun _ => rfl) (fun _ _ _ => rfl) (keep2_2 V c) t d).trans (fetched2_2 V c t d)

theorem keep2_3 (c : Dev nD) (t : Fin cfg2.N) :
    (cfg2.win 3).cut (cfg2.grid.coords t) ((dat2 V c).after 3 t) = (dat2 V c).blockOf 3 t := by
  rw [after2_3]; unfold Dat.blockOf iblk2; rw [A_eq2]
theorem fetched2_3 (c : Dev nD) (t : Fin cfg2.N) (d) : (dat2 V c).fetched 3 t d = iblk2 V c 3 t := by
  unfold Dat.fetched Dat.blockOf iblk2; rw [A_eq2]; rfl
theorem before2_3 (c : Dev nD) (t : Fin cfg2.N) (d) : (dat2 V c).before 3 t d = iblk2 V c 3 t :=
  ((dat2 V c).before_in_eq_fetched 3 rfl (fun _ => rfl) (fun _ _ _ => rfl) (keep2_3 V c) t d).trans (fetched2_3 V c t d)

theorem keep2_4 (c : Dev nD) (t : Fin cfg2.N) :
    (cfg2.win 4).cut (cfg2.grid.coords t) ((dat2 V c).after 4 t) = (dat2 V c).blockOf 4 t := by
  rw [after2_4]; unfold Dat.blockOf iblk2; rw [A_eq2]
theorem fetched2_4 (c : Dev nD) (t : Fin cfg2.N) (d) : (dat2 V c).fetched 4 t d = iblk2 V c 4 t := by
  unfold Dat.fetched Dat.blockOf iblk2; rw [A_eq2]; rfl
theorem before2_4 (c : Dev nD) (t : Fin cfg2.N) (d) : (dat2 V c).before 4 t d = iblk2 V c 4 t :=
  ((dat2 V c).before_in_eq_fetched 4 rfl (fun _ => rfl) (fun _ _ _ => rfl) (keep2_4 V c) t d).trans (fetched2_4 V c t d)

theorem keep2_5 (c : Dev nD) (t : Fin cfg2.N) :
    (cfg2.win 5).cut (cfg2.grid.coords t) ((dat2 V c).after 5 t) = (dat2 V c).blockOf 5 t := by
  rw [after2_5]; unfold Dat.blockOf iblk2; rw [A_eq2]
theorem fetched2_5 (c : Dev nD) (t : Fin cfg2.N) (d) : (dat2 V c).fetched 5 t d = iblk2 V c 5 t := by
  unfold Dat.fetched Dat.blockOf iblk2; rw [A_eq2]; rfl
theorem before2_5 (c : Dev nD) (t : Fin cfg2.N) (d) : (dat2 V c).before 5 t d = iblk2 V c 5 t :=
  ((dat2 V c).before_in_eq_fetched 5 rfl (fun _ => rfl) (fun _ _ _ => rfl) (keep2_5 V c) t d).trans (fetched2_5 V c t d)

/-! ## The body's triple -/

/-- The body's one store fills the output buffer. -/
theorem cover2_6 (p : Vec F S512x256 .f32) (y : S512x256.Idx) :
    ∃ pc ∈ ([⟨rRows, p⟩] : List (View.Piece (Elt F) S512x256 .f32)), y ∈ pc.1.set :=
  View.cover_of_tiled [⟨rRows, p⟩] S512x256.size (by rfl) y

set_option maxHeartbeats 1000000 in
/-- The body on whole staging memrefs — the six inputs' at read contents, the output's at anything — runs to the
    continuation with the inputs' as they were and the output's at the store's payload of the six loads. -/
theorem sound_kernel2 (c : Dev nD) (E : Set ℕ) (i : grid2.Coords)
    (mAdj : Memref sig .tc .vmem S512x4096 .bf16) (hAdj : mAdj.IsWhole) (mRows : Memref sig .tc .vmem S512x256 .f32) (hRows : mRows.IsWhole)
    (mAll : Memref sig .tc .vmem S4096x256 .f32) (hAll : mAll.IsWhole) (mWs : Memref sig .tc .vmem S256x256 .f32) (hWs : mWs.IsWhole)
    (mWn : Memref sig .tc .vmem S256x256 .f32) (hWn : mWn.IsWhole) (mB : Memref sig .tc .vmem S256 .f32) (hB : mB.IsWhole)
    (mOut : Memref sig .tc .vmem S512x256 .f32) (hOut : mOut.IsWhole)
    (xAdj : Vec F S512x4096 .bf16) (xRows : Vec F S512x256 .f32) (xAll : Vec F S4096x256 .f32) (xWs : Vec F S256x256 .f32)
    (xWn : Vec F S256x256 .f32) (xB : Vec F S256 .f32) (K : PUnit → sProp 𝕄) :
    iprop(owns (c : Thread nD τ) mAdj fullShare xAdj ∗ owns (c : Thread nD τ) mRows fullShare xRows
        ∗ owns (c : Thread nD τ) mAll fullShare xAll ∗ owns (c : Thread nD τ) mWs fullShare xWs
        ∗ owns (c : Thread nD τ) mWn fullShare xWn ∗ owns (c : Thread nD τ) mB fullShare xB
        ∗ (∃ d, owns (c : Thread nD τ) mOut fullShare d)
        ∗ (iprop(owns (c : Thread nD τ) mAdj fullShare xAdj ∗ owns (c : Thread nD τ) mRows fullShare xRows
            ∗ owns (c : Thread nD τ) mAll fullShare xAll ∗ owns (c : Thread nD τ) mWs fullShare xWs
            ∗ owns (c : Thread nD τ) mWn fullShare xWn ∗ owns (c : Thread nD τ) mB fullShare xB
            ∗ owns (c : Thread nD τ) mOut fullShare (out2_6 xAdj xRows xAll xWs xWn xB)) -∗ K ⟨⟩))
      ⊢ wp frame (wpE (defs₀ (F := F)) Variants.none c none) E
          (cc2__mp_kernel i mAdj hAdj mRows hRows mAll hAll mWs hWs mWn hWn mB hB mOut hOut) K := by
  simp only [cc2__mp_kernel_eq_skeleton]; unfold cc2__mp_kernel_skel
  unfold owns
  iintro ⟨⟨%fAdj, %eAdj, HAdj⟩, ⟨%fRows, %eRows, HRows⟩, ⟨%fAll, %eAll, HAll⟩, ⟨%fWs, %eWs, HWs⟩, ⟨%fWn, %eWn, HWn⟩,
    ⟨%fB, %eB, HB⟩, ⟨%dOut, %fOut, -, HOut⟩, Hk⟩
  subst eAdj eRows eAll eWs eWn eB
  sl_exec
  sl_step
  iapply Hk
  isplitl [HAdj]
  · iexists fAdj; isplitr; · ipureintro; rfl
    iexact HAdj
  isplitl [HRows]
  · iexists fRows; isplitr; · ipureintro; rfl
    iexact HRows
  isplitl [HAll]
  · iexists fAll; isplitr; · ipureintro; rfl
    iexact HAll
  isplitl [HWs]
  · iexists fWs; isplitr; · ipureintro; rfl
    iexact HWs
  isplitl [HWn]
  · iexists fWn; isplitr; · ipureintro; rfl
    iexact HWn
  isplitl [HB]
  · iexists fB; isplitr; · ipureintro; rfl
    iexact HB
  iexists _; isplitr
  swap; · iexact HOut
  ipureintro
  exact View.read_writes_eq_canon _ _ _ (cover2_6 _)

/-! ## The body obligation -/

/-- What the body is handed at point `t`: the invariant, what the core owes, and every window's current buffer — -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: each input's buffer holds its block, so the body's triple applies at the six blocks; the
    invariant and what the core owes are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%dA, HA⟩, ⟨%dR, HR⟩, ⟨%dE, HE⟩, ⟨%dS, HS⟩, ⟨%dN, HN⟩, ⟨%dB, HB⟩, ⟨%dO, HO⟩⟩
  iapply (sound_kernel2 c Set.univ _ _ _ _ _ _ _ _ _ _ _ _ _ _ _ (iblk2 V c 0 t) (iblk2 V c 1 t) (iblk2 V c 2 t)
    (iblk2 V c 3 t) (iblk2 V c 4 t) (iblk2 V c 5 t) _)
  isplitl [HA]; · iexact HA
  isplitl [HR]; · iexact HR
  isplitl [HE]; · iexact HE
  isplitl [HS]; · iexact HS
  isplitl [HN]; · iexact HN
  isplitl [HB]; · iexact HB
  isplitl [HO]; · iexists _; iexact HO
  iintro ⟨HA, HR, HE, HS, HN, HB, HO⟩
  isplitl [HΦ]; · iexact HΦ
  isplitl [Ho]; · iexact Ho
  isplitl [HA]; · iexact HA
  isplitl [HR]; · iexact HR
  isplitl [HE]; · iexact HE
  isplitl [HS]; · iexact HS
  isplitl [HN]; · iexact HN
  isplitl [HB]; · iexact HB
  iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Mp2

end
-- ==== Proof.K.Mp3.lean ====
/-
  The second message-passing layer (the fourth pallas_call): one grid axis of 8 row blocks; at a point the body reads
  a 512 x 4096 block of adjacency rows, the matching 512 rows of the embeddings, the embeddings whole, the two
  256 x 256 weights and the bias, and stores  max(rows·W_self + (adj_rows·embeddings)·W_neigh + b, 0)  whole.
  Here: the output block as a function of the input blocks, the body's triple, the region's proof data (the two
  windows on the embeddings' array each hold half of it) and its body obligation, at any float instance.
-/
import proofs.«109248_j70342974374329_1_alg».proof.Proof.Gen.Kernel.Launch
import proofs.«109248_j70342974374329_1_alg».proof.Proof.Gen.Kernel.Skeleton
import proofs.«109248_j70342974374329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mp3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rAdj : Rect S512x4096 := Rect.unit (s := S512x4096) ![0, 0] S512x4096.size inb_S512x4096_S512x4096_0_0
abbrev rRows : Rect S512x256 := Rect.unit (s := S512x256) ![0, 0] S512x256.size inb_S512x256_S512x256_0_0
abbrev rAll : Rect S4096x256 := Rect.unit (s := S4096x256) ![0, 0] S4096x256.size inb_S4096x256_S4096x256_0_0
abbrev rW : Rect S256x256 := Rect.unit (s := S256x256) ![0, 0] S256x256.size inb_S256x256_S256x256_0_0
abbrev rBias : Rect S256 := Rect.unit (s := S256) ![0] S256.size inb_S256_S256_0

/-- The output block after the body, from the six input blocks (in window order: adjacency rows, embedding rows,
    all embeddings, W_self, W_neigh, bias): the one store's payload over the loads. -/
def out3_6 (x0 : Vec F S512x4096 .bf16) (x1 : Vec F S512x256 .f32) (x2 : Vec F S4096x256 .f32) (x3 : Vec F S256x256 .f32)
    (x4 : Vec F S256x256 .f32) (x5 : Vec F S256 .f32) : Vec F S512x256 .f32 :=
  View.canon [⟨rRows, k3_pay1 (View.ld x0 rAdj) (View.ld x2 rAll) (View.ld x1 rRows) (View.ld x3 rW) (View.ld x4 rW) (View.ld x5 rBias)⟩]

/-- The region's proof data on core `c`. Windows 1 and 2 read one array: each holds half of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-! ## What the body leaves in, and finds in, the input windows' buffers

For each of the six input windows, four facts in this order: the body leaves the buffer at the window's block; that
block is what the window's transfers move of it; it is also what a fetch at the point puts in the buffer; so the
buffer holds the block wherever the body runs — at a point that fetches the window by the fetch, and at a point that
does not because the block index has not moved since the last fetch and the body left the block in place. None of this
reads the share a window holds of its array. -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem keep2_0 (c : Dev nD) (t : Fin cfg3.N) :
    (cfg3.win 0).cut (cfg3.grid.coords t) ((dat3 V c).after 0 t) = (dat3 V c).blockOf 0 t := by
  rw [after3_0]; unfold Dat.blockOf iblk3; rw [A_eq3]
theorem fetched2_0 (c : Dev nD) (t : Fin cfg3.N) (d) : (dat3 V c).fetched 0 t d = iblk3 V c 0 t := by
  unfold Dat.fetched Dat.blockOf iblk3; rw [A_eq3]; rfl
theorem before3_0 (c : Dev nD) (t : Fin cfg3.N) (d) : (dat3 V c).before 0 t d = iblk3 V c 0 t :=
  ((dat3 V c).before_in_eq_fetched 0 rfl (fun _ => rfl) (fun _ _ _ => rfl) (keep2_0 V c) t d).trans (fetched2_0 V c t d)

theorem keep2_1 (c : Dev nD) (t : Fin cfg3.N) :
    (cfg3.win 1).cut (cfg3.grid.coords t) ((dat3 V c).after 1 t) = (dat3 V c).blockOf 1 t := by
  rw [after3_1]; unfold Dat.blockOf iblk3; rw [A_eq3]
theorem fetched2_1 (c : Dev nD) (t : Fin cfg3.N) (d) : (dat3 V c).fetched 1 t d = iblk3 V c 1 t := by
  unfold Dat.fetched Dat.blockOf iblk3; rw [A_eq3]; rfl
theorem before3_1 (c : Dev nD) (t : Fin cfg3.N) (d) : (dat3 V c).before 1 t d = iblk3 V c 1 t :=
  ((dat3 V c).before_in_eq_fetched 1 rfl (fun _ => rfl) (fun _ _ _ => rfl) (keep2_1 V c) t d).trans (fetched2_1 V c t d)

theorem keep2_2 (c : Dev nD) (t : Fin cfg3.N) :
    (cfg3.win 2).cut (cfg3.grid.coords t) ((dat3 V c).after 2 t) = (dat3 V c).blockOf 2 t := by
  rw [after3_2]; unfold Dat.blockOf iblk3; rw [A_eq3]
theorem fetched2_2 (c : Dev nD) (t : Fin cfg3.N) (d) : (dat3 V c).fetched 2 t d = iblk3 V c 2 t := by
  unfold Dat.fetched Dat.blockOf iblk3; rw [A_eq3]; rfl
theorem before3_2 (c : Dev nD) (t : Fin cfg3.N) (d) : (dat3 V c).before 2 t d = iblk3 V c 2 t :=
  ((dat3 V c).before_in_eq_fetched 2 rfl (fun _ => rfl) (fun _ _ _ => rfl) (keep2_2 V c) t d).trans (fetched2_2 V c t d)

theorem keep2_3 (c : Dev nD) (t : Fin cfg3.N) :
    (cfg3.win 3).cut (cfg3.grid.coords t) ((dat3 V c).after 3 t) = (dat3 V c).blockOf 3 t := by
  rw [after3_3]; unfold Dat.blockOf iblk3; rw [A_eq3]
theorem fetched2_3 (c : Dev nD) (t : Fin cfg3.N) (d) : (dat3 V c).fetched 3 t d = iblk3 V c 3 t := by
  unfold Dat.fetched Dat.blockOf iblk3; rw [A_eq3]; rfl
theorem before3_3 (c : Dev nD) (t : Fin cfg3.N) (d) : (dat3 V c).before 3 t d = iblk3 V c 3 t :=
  ((dat3 V c).before_in_eq_fetched 3 rfl (fun _ => rfl) (fun _ _ _ => rfl) (keep2_3 V c) t d).trans (fetched2_3 V c t d)

theorem keep2_4 (c : Dev nD) (t : Fin cfg3.N) :
    (cfg3.win 4).cut (cfg3.grid.coords t) ((dat3 V c).after 4 t) = (dat3 V c).blockOf 4 t := by
  rw [after3_4]; unfold Dat.blockOf iblk3; rw [A_eq3]
theorem fetched2_4 (c : Dev nD) (t : Fin cfg3.N) (d) : (dat3 V c).fetched 4 t d = iblk3 V c 4 t := by
  unfold Dat.fetched Dat.blockOf iblk3; rw [A_eq3]; rfl
theorem before3_4 (c : Dev nD) (t : Fin cfg3.N) (d) : (dat3 V c).before 4 t d = iblk3 V c 4 t :=
  ((dat3 V c).before_in_eq_fetched 4 rfl (fun _ => rfl) (fun _ _ _ => rfl) (keep2_4 V c) t d).trans (fetched2_4 V c t d)

theorem keep2_5 (c : Dev nD) (t : Fin cfg3.N) :
    (cfg3.win 5).cut (cfg3.grid.coords t) ((dat3 V c).after 5 t) = (dat3 V c).blockOf 5 t := by
  rw [after3_5]; unfold Dat.blockOf iblk3; rw [A_eq3]
theorem fetched2_5 (c : Dev nD) (t : Fin cfg3.N) (d) : (dat3 V c).fetched 5 t d = iblk3 V c 5 t := by
  unfold Dat.fetched Dat.blockOf iblk3; rw [A_eq3]; rfl
theorem before3_5 (c : Dev nD) (t : Fin cfg3.N) (d) : (dat3 V c).before 5 t d = iblk3 V c 5 t :=
  ((dat3 V c).before_in_eq_fetched 5 rfl (fun _ => rfl) (fun _ _ _ => rfl) (keep2_5 V c) t d).trans (fetched2_5 V c t d)

/-! ## The body's triple -/

/-- The body's one store fills the output buffer. -/
theorem cover3_6 (p : Vec F S512x256 .f32) (y : S512x256.Idx) :
    ∃ pc ∈ ([⟨rRows, p⟩] : List (View.Piece (Elt F) S512x256 .f32)), y ∈ pc.1.set :=
  View.cover_of_tiled [⟨rRows, p⟩] S512x256.size (by rfl) y

set_option maxHeartbeats 1000000 in
/-- The body on whole staging memrefs — the six inputs' at read contents, the output's at anything — runs to the
    continuation with the inputs' as they were and the output's at the store's payload of the six loads. -/
theorem sound_kernel3 (c : Dev nD) (E : Set ℕ) (i : grid3.Coords)
    (mAdj : Memref sig .tc .vmem S512x4096 .bf16) (hAdj : mAdj.IsWhole) (mRows : Memref sig .tc .vmem S512x256 .f32) (hRows : mRows.IsWhole)
    (mAll : Memref sig .tc .vmem S4096x256 .f32) (hAll : mAll.IsWhole) (mWs : Memref sig .tc .vmem S256x256 .f32) (hWs : mWs.IsWhole)
    (mWn : Memref sig .tc .vmem S256x256 .f32) (hWn : mWn.IsWhole) (mB : Memref sig .tc .vmem S256 .f32) (hB : mB.IsWhole)
    (mOut : Memref sig .tc .vmem S512x256 .f32) (hOut : mOut.IsWhole)
    (xAdj : Vec F S512x4096 .bf16) (xRows : Vec F S512x256 .f32) (xAll : Vec F S4096x256 .f32) (xWs : Vec F S256x256 .f32)
    (xWn : Vec F S256x256 .f32) (xB : Vec F S256 .f32) (K : PUnit → sProp 𝕄) :
    iprop(owns (c : Thread nD τ) mAdj fullShare xAdj ∗ owns (c : Thread nD τ) mRows fullShare xRows
        ∗ owns (c : Thread nD τ) mAll fullShare xAll ∗ owns (c : Thread nD τ) mWs fullShare xWs
        ∗ owns (c : Thread nD τ) mWn fullShare xWn ∗ owns (c : Thread nD τ) mB fullShare xB
        ∗ (∃ d, owns (c : Thread nD τ) mOut fullShare d)
        ∗ (iprop(owns (c : Thread nD τ) mAdj fullShare xAdj ∗ owns (c : Thread nD τ) mRows fullShare xRows
            ∗ owns (c : Thread nD τ) mAll fullShare xAll ∗ owns (c : Thread nD τ) mWs fullShare xWs
            ∗ owns (c : Thread nD τ) mWn fullShare xWn ∗ owns (c : Thread nD τ) mB fullShare xB
            ∗ owns (c : Thread nD τ) mOut fullShare (out3_6 xAdj xRows xAll xWs xWn xB)) -∗ K ⟨⟩))
      ⊢ wp frame (wpE (defs₀ (F := F)) Variants.none c none) E
          (cc3__mp_kernel i mAdj hAdj mRows hRows mAll hAll mWs hWs mWn hWn mB hB mOut hOut) K := by
  simp only [cc3__mp_kernel_eq_skeleton]; unfold cc3__mp_kernel_skel
  unfold owns
  iintro ⟨⟨%fAdj, %eAdj, HAdj⟩, ⟨%fRows, %eRows, HRows⟩, ⟨%fAll, %eAll, HAll⟩, ⟨%fWs, %eWs, HWs⟩, ⟨%fWn, %eWn, HWn⟩,
    ⟨%fB, %eB, HB⟩, ⟨%dOut, %fOut, -, HOut⟩, Hk⟩
  subst eAdj eRows eAll eWs eWn eB
  sl_exec
  sl_step
  iapply Hk
  isplitl [HAdj]
  · iexists fAdj; isplitr; · ipureintro; rfl
    iexact HAdj
  isplitl [HRows]
  · iexists fRows; isplitr; · ipureintro; rfl
    iexact HRows
  isplitl [HAll]
  · iexists fAll; isplitr; · ipureintro; rfl
    iexact HAll
  isplitl [HWs]
  · iexists fWs; isplitr; · ipureintro; rfl
    iexact HWs
  isplitl [HWn]
  · iexists fWn; isplitr; · ipureintro; rfl
    iexact HWn
  isplitl [HB]
  · iexists fB; isplitr; · ipureintro; rfl
    iexact HB
  iexists _; isplitr
  swap; · iexact HOut
  ipureintro
  exact View.read_writes_eq_canon _ _ _ (cover3_6 _)

/-! ## The body obligation -/

/-- What the body is handed at point `t`: the invariant, what the core owes, and every window's current buffer — -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: each input's buffer holds its block, so the body's triple applies at the six blocks; the
    invariant and what the core owes are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%dA, HA⟩, ⟨%dR, HR⟩, ⟨%dE, HE⟩, ⟨%dS, HS⟩, ⟨%dN, HN⟩, ⟨%dB, HB⟩, ⟨%dO, HO⟩⟩
  iapply (sound_kernel3 c Set.univ _ _ _ _ _ _ _ _ _ _ _ _ _ _ _ (iblk3 V c 0 t) (iblk3 V c 1 t) (iblk3 V c 2 t)
    (iblk3 V c 3 t) (iblk3 V c 4 t) (iblk3 V c 5 t) _)
  isplitl [HA]; · iexact HA
  isplitl [HR]; · iexact HR
  isplitl [HE]; · iexact HE
  isplitl [HS]; · iexact HS
  isplitl [HN]; · iexact HN
  isplitl [HB]; · iexact HB
  isplitl [HO]; · iexists _; iexact HO
  iintro ⟨HA, HR, HE, HS, HN, HB, HO⟩
  isplitl [HΦ]; · iexact HΦ
  isplitl [Ho]; · iexact Ho
  isplitl [HA]; · iexact HA
  isplitl [HR]; · iexact HR
  isplitl [HE]; · iexact HE
  isplitl [HS]; · iexact HS
  isplitl [HN]; · iexact HN
  isplitl [HB]; · iexact HB
  iexact HO

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Mp3

end
-- ==== Proof.K.Shared0.lean ====
/-
  Entering and leaving the adjacency region, whose windows 0 and 1 read one array (the membership matrix). A core
  holds each unscoped buffer whole. At entry the membership matrix's full share is split into its left and right
  halves, one per window, both at the same contents; the output's buffer goes to window 2 whole. At exit every
  window holds its array at the contents the exit valuation gives that array, so the two halves carry one function
  and join into the full share again.
-/
import proofs.«109248_j70342974374329_1_alg».proof.Proof.Gen.Kernel.Launch
import proofs.«109248_j70342974374329_1_alg».proof.Proof.Gen.Kernel.Skeleton
import proofs.«109248_j70342974374329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109248_j70342974374329_1_alg».proof.Proof.K.Adj
set_option maxRecDepth 16384

noncomputable section

namespace Cert.Kernel.Shared0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The adjacency region's unscoped buffers: the distinct buffers behind its windows' arrays and the rest. -/
theorem split0 (c : Dev nD) (V : (b : Ref sig .tc) → Buf (Elt F) ((c : Thread nD τ).loc b)) :
    (unscopedBufs c V : sProp 𝕄) = iprop((Pipeline.arrBufs spec0 c V : sProp 𝕄) ∗ Pipeline.unscopedRest spec0 c V) :=
  Pipeline.unscopedBufs_split₀ cfgs (0 : Fin 4) winFacts₀0.arr_unscoped c V

/-- A window's array is a whole buffer: its points-to is the buffer's, over every element. -/
theorem arr_pt0 (c : Dev nD) (w : Fin cfg0.W) (q : PosShare TreeShare) (X : Buf (Elt F) ((cfg0.win w).arr.view.loc (c : Thread nD τ))) :
    ((cfg0.win w).arr.view.loc (c : Thread nD τ) ↦[(cfg0.win w).arr.view.set]{q} X : sProp 𝕄)
      = (((c : Thread nD τ).loc (Pipeline.arrRef spec0 w)) ↦{q} X) := by
  rw [(arr_whole0 w).set_eq_univ]

/-- The shares the windows hold: the two input windows a half each, the output the whole. -/
theorem share0_fst (c : Dev nD) : (Adj.dat0 V c).share 0 = fullShare.left := by
  unfold Dat.share; dsimp only [Adj.dat0]; rfl
theorem share0_snd (c : Dev nD) : (Adj.dat0 V c).share 1 = fullShare.right := by
  unfold Dat.share; dsimp only [Adj.dat0]; rfl
theorem share0_out (c : Dev nD) : (Adj.dat0 V c).share 2 = fullShare := by
  unfold Dat.share; dsimp only [Adj.dat0]; rfl

/-- Before the first point a window's array is as the region found it. -/
theorem arrAt0_zero (c : Dev nD) (w : Fin cfg0.W) : (Adj.dat0 V c).arrAt w 0 = V c (Pipeline.arrRef spec0 w) :=
  (show (Adj.dat0 V c).arrAt w 0 = (Adj.dat0 V c).A w from rfl).trans (Adj.A_eq0 V c w)

/-- ENTRY of the adjacency region: the unscoped buffers at `V c` are the region's arrays at their entry contents
    (the membership matrix halved between windows 0 and 1) and the other unscoped buffers. -/
theorem arrays_of_unscopedBufs0 (c : Dev nD) :
    (unscopedBufs c (V c) : sProp 𝕄)
      ⊢ iprop((Adj.dat0 V c).arrays ((Adj.dat0 V c).arrAt · 0) ∗ Pipeline.unscopedRest spec0 c (V c)) := by
  rw [split0 c (V c)]
  refine sep_mono ?_ .rfl
  -- the distinct buffers are the membership matrix and the output; the windows one by one, each on a whole buffer
  unfold Pipeline.arrBufs Dat.arrays
  rw [show Finset.univ.image (Pipeline.arrRef spec0) = {main_v29, main_v30} from by decide,
    bigSep_insert (by decide), bigSep_singleton, bigSep_W0]
  rw [arr_pt0, arr_pt0, arr_pt0, share0_fst, share0_snd, share0_out]
  beta_reduce
  rw [arrAt0_zero, arrAt0_zero, arrAt0_zero]
  -- the membership matrix's full share is its two halves, at the same contents
  refine (sep_mono (pointsTo_share (PosShare.mem_left_op_right fullShare)).1 .rfl).trans ?_
  exact sep_assoc.1

/-- EXIT of the adjacency region: its arrays at their final contents and the other unscoped buffers are the unscoped
    buffers at any `V'` that has the arrays' final contents and agrees with `V c` elsewhere. -/
theorem unscopedBufs_of_arrays0 (c : Dev nD) (V' : (b : Ref sig .tc) → Buf (Elt F) ((c : Thread nD τ).loc b))
    (hF : ∀ w, (Adj.dat0 V c).arrAt w cfg0.N = V' (Pipeline.arrRef spec0 w))
    (hrest : ∀ b, b ∉ Finset.univ.image (Pipeline.arrRef spec0) → V' b = V c b) :
    iprop((Adj.dat0 V c).arrays ((Adj.dat0 V c).arrAt · cfg0.N) ∗ Pipeline.unscopedRest spec0 c (V c))
      ⊢ (unscopedBufs c V' : sProp 𝕄) := by
  rw [split0 c V']
  refine sep_mono ?_ (Entails.of_eq ?_)
  · unfold Pipeline.arrBufs Dat.arrays
    rw [show Finset.univ.image (Pipeline.arrRef spec0) = {main_v29, main_v30} from by decide,
      bigSep_insert (by decide), bigSep_singleton, bigSep_W0]
    rw [arr_pt0, arr_pt0, arr_pt0, share0_fst, share0_snd, share0_out]
    beta_reduce
    rw [hF 0, hF 1, hF 2]
    -- both halves hold the membership matrix at the one function `V'` gives it: they join
    refine sep_assoc.2.trans ?_
    exact sep_mono (pointsTo_share (PosShare.mem_left_op_right fullShare)).2 .rfl
  · unfold Pipeline.unscopedRest
    exact bigSep_congr fun b hb => by rw [hrest b (Finset.mem_sdiff.mp hb).2]

end Cert.Kernel.Shared0

end
-- ==== Proof.K.Shared2.lean ====
/-
  Entering and leaving the first message-passing region, whose windows 1 and 2 read one array (the embeddings: a block
  of rows through window 1, the whole through window 2). A core holds each unscoped buffer whole. At entry the
  embeddings' full share is split into its left and right halves, one per window, both at the same contents; every
  other array goes to its one window whole. At exit every window holds its array at the contents the exit valuation
  gives that array, so the two halves carry one function and join into the full share again.
-/
import proofs.«109248_j70342974374329_1_alg».proof.Proof.Gen.Kernel.Launch
import proofs.«109248_j70342974374329_1_alg».proof.Proof.Gen.Kernel.Skeleton
import proofs.«109248_j70342974374329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109248_j70342974374329_1_alg».proof.Proof.K.Mp2
set_option maxRecDepth 16384

noncomputable section

namespace Cert.Kernel.Shared2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The region's unscoped buffers: the distinct buffers behind its windows' arrays and the rest. -/
theorem split2 (c : Dev nD) (V : (b : Ref sig .tc) → Buf (Elt F) ((c : Thread nD τ).loc b)) :
    (unscopedBufs c V : sProp 𝕄) = iprop((Pipeline.arrBufs spec2 c V : sProp 𝕄) ∗ Pipeline.unscopedRest spec2 c V) :=
  Pipeline.unscopedBufs_split₀ (fun _ : Fin 4 => cfg2) (0 : Fin 4) winFacts₀2.arr_unscoped c V

/-- A window's array is a whole buffer: its points-to is the buffer's, over every element. -/
theorem arr_pt2 (c : Dev nD) (w : Fin cfg2.W) (q : PosShare TreeShare) (X : Buf (Elt F) ((cfg2.win w).arr.view.loc (c : Thread nD τ))) :
    ((cfg2.win w).arr.view.loc (c : Thread nD τ) ↦[(cfg2.win w).arr.view.set]{q} X : sProp 𝕄)
      = (((c : Thread nD τ).loc (Pipeline.arrRef spec2 w)) ↦{q} X) := by
  rw [(arr_whole2 w).set_eq_univ]

/-- The shares the windows hold: the two windows on the embeddings a half each, every other window the whole. -/
theorem share2_adj (c : Dev nD) : (Mp2.dat2 V c).share 0 = fullShare := by
  unfold Dat.share; dsimp only [Mp2.dat2]; rfl
theorem share2_rows (c : Dev nD) : (Mp2.dat2 V c).share 1 = fullShare.left := by
  unfold Dat.share; dsimp only [Mp2.dat2]; rfl
theorem share2_whole (c : Dev nD) : (Mp2.dat2 V c).share 2 = fullShare.right := by
  unfold Dat.share; dsimp only [Mp2.dat2]; rfl
theorem share2_wself (c : Dev nD) : (Mp2.dat2 V c).share 3 = fullShare := by
  unfold Dat.share; dsimp only [Mp2.dat2]; rfl
theorem share2_wneigh (c : Dev nD) : (Mp2.dat2 V c).share 4 = fullShare := by
  unfold Dat.share; dsimp only [Mp2.dat2]; rfl
theorem share2_bias (c : Dev nD) : (Mp2.dat2 V c).share 5 = fullShare := by
  unfold Dat.share; dsimp only [Mp2.dat2]; rfl
theorem share2_res (c : Dev nD) : (Mp2.dat2 V c).share 6 = fullShare := by
  unfold Dat.share; dsimp only [Mp2.dat2]; rfl

/-- Before the first point a window's array is as the region found it. -/
theorem arrAt2_zero (c : Dev nD) (w : Fin cfg2.W) : (Mp2.dat2 V c).arrAt w 0 = V c (Pipeline.arrRef spec2 w) :=
  (show (Mp2.dat2 V c).arrAt w 0 = (Mp2.dat2 V c).A w from rfl).trans (Mp2.A_eq2 V c w)

/-- One window at entry: its array's buffer at the window's share and the entry contents is the window's points-to. -/
theorem entry_win2 (c : Dev nD) (w : Fin cfg2.W) (q : PosShare TreeShare) (hq : (Mp2.dat2 V c).share w = q) :
    ((((c : Thread nD τ).loc (Pipeline.arrRef spec2 w)) ↦{q} V c (Pipeline.arrRef spec2 w)) : sProp 𝕄)
      ⊢ ((cfg2.win w).arr.view.loc (c : Thread nD τ) ↦[(cfg2.win w).arr.view.set]{(Mp2.dat2 V c).share w} (Mp2.dat2 V c).arrAt w 0) := by
  subst hq
  rw [arr_pt2, arrAt2_zero]

/-- One window at exit: its points-to at contents that the exit valuation gives its array is that array's buffer at
    the window's share and the exit valuation. -/
theorem exit_win2 (c : Dev nD) (V' : (b : Ref sig .tc) → Buf (Elt F) ((c : Thread nD τ).loc b)) (w : Fin cfg2.W)
    (q : PosShare TreeShare) (hq : (Mp2.dat2 V c).share w = q)
    (hF : (Mp2.dat2 V c).arrAt w cfg2.N = V' (Pipeline.arrRef spec2 w)) :
    ((cfg2.win w).arr.view.loc (c : Thread nD τ) ↦[(cfg2.win w).arr.view.set]{(Mp2.dat2 V c).share w} (Mp2.dat2 V c).arrAt w cfg2.N : sProp 𝕄)
      ⊢ (((c : Thread nD τ).loc (Pipeline.arrRef spec2 w)) ↦{q} V' (Pipeline.arrRef spec2 w)) := by
  subst hq
  rw [arr_pt2, hF]

/-- ENTRY of the first message-passing region (the embeddings halved between windows 1 and 2). -/
theorem arrays_of_unscopedBufs2 (c : Dev nD) :
    (unscopedBufs c (V c) : sProp 𝕄)
      ⊢ iprop((Mp2.dat2 V c).arrays ((Mp2.dat2 V c).arrAt · 0) ∗ Pipeline.unscopedRest spec2 c (V c)) := by
  rw [split2 c (V c)]
  refine sep_mono ?_ .rfl
  -- the six distinct buffers behind the seven windows; the windows one by one
  unfold Pipeline.arrBufs Dat.arrays
  rw [show Finset.univ.image (Pipeline.arrRef spec2) = {main_v30, main_v31, main_v33, main_v35, main_v37, main_v38} from by decide,
    bigSep_insert (by decide), bigSep_insert (by decide), bigSep_insert (by decide), bigSep_insert (by decide),
    bigSep_insert (by decide), bigSep_singleton, bigSep_W2]
  refine BIClass.sep_mono (entry_win2 V c 0 _ (share2_adj V c)) ?_
  -- the embeddings' full share is its two halves, at the same contents
  refine (BIClass.sep_mono (pointsTo_share (PosShare.mem_left_op_right fullShare)).1 .rfl).trans (sep_assoc.1.trans ?_)
  exact BIClass.sep_mono (entry_win2 V c 1 _ (share2_rows V c)) (BIClass.sep_mono (entry_win2 V c 2 _ (share2_whole V c))
    (BIClass.sep_mono (entry_win2 V c 3 _ (share2_wself V c)) (BIClass.sep_mono (entry_win2 V c 4 _ (share2_wneigh V c))
      (BIClass.sep_mono (entry_win2 V c 5 _ (share2_bias V c)) (entry_win2 V c 6 _ (share2_res V c))))))

/-- EXIT of the first message-passing region. -/
theorem unscopedBufs_of_arrays2 (c : Dev nD) (V' : (b : Ref sig .tc) → Buf (Elt F) ((c : Thread nD τ).loc b))
    (hF : ∀ w, (Mp2.dat2 V c).arrAt w cfg2.N = V' (Pipeline.arrRef spec2 w))
    (hrest : ∀ b, b ∉ Finset.univ.image (Pipeline.arrRef spec2) → V' b = V c b) :
    iprop((Mp2.dat2 V c).arrays ((Mp2.dat2 V c).arrAt · cfg2.N) ∗ Pipeline.unscopedRest spec2 c (V c))
      ⊢ (unscopedBufs c V' : sProp 𝕄) := by
  rw [split2 c V']
  refine sep_mono ?_ (Entails.of_eq ?_)
  · unfold Pipeline.arrBufs Dat.arrays
    rw [show Finset.univ.image (Pipeline.arrRef spec2) = {main_v30, main_v31, main_v33, main_v35, main_v37, main_v38} from by decide,
      bigSep_insert (by decide), bigSep_insert (by decide), bigSep_insert (by decide), bigSep_insert (by decide),
      bigSep_insert (by decide), bigSep_singleton, bigSep_W2]
    refine BIClass.sep_mono (exit_win2 V c V' 0 _ (share2_adj V c) (hF 0)) ?_
    -- both halves hold the embeddings at the one function `V'` gives them: they join
    refine BIBase.Entails.trans ?_ (sep_assoc.2.trans (BIClass.sep_mono (pointsTo_share (PosShare.mem_left_op_right fullShare)).2 .rfl))
    exact BIClass.sep_mono (exit_win2 V c V' 1 _ (share2_rows V c) (hF 1)) (BIClass.sep_mono (exit_win2 V c V' 2 _ (share2_whole V c) (hF 2))
      (BIClass.sep_mono (exit_win2 V c V' 3 _ (share2_wself V c) (hF 3)) (BIClass.sep_mono (exit_win2 V c V' 4 _ (share2_wneigh V c) (hF 4))
        (BIClass.sep_mono (exit_win2 V c V' 5 _ (share2_bias V c) (hF 5)) (exit_win2 V c V' 6 _ (share2_res V c) (hF 6))))))
  · unfold Pipeline.unscopedRest
    exact bigSep_congr fun b hb => by rw [hrest b (Finset.mem_sdiff.mp hb).2]

end Cert.Kernel.Shared2

end
-- ==== Proof.K.Shared3.lean ====
/-
  Entering and leaving the second message-passing region, whose windows 1 and 2 read one array (the embeddings: a block
  of rows through window 1, the whole through window 2). A core holds each unscoped buffer whole. At entry the
  embeddings' full share is split into its left and right halves, one per window, both at the same contents; every
  other array goes to its one window whole. At exit every window holds its array at the contents the exit valuation
  gives that array, so the two halves carry one function and join into the full share again.
-/
import proofs.«109248_j70342974374329_1_alg».proof.Proof.Gen.Kernel.Launch
import proofs.«109248_j70342974374329_1_alg».proof.Proof.Gen.Kernel.Skeleton
import proofs.«109248_j70342974374329_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109248_j70342974374329_1_alg».proof.Proof.K.Mp3
set_option maxRecDepth 16384

noncomputable section

namespace Cert.Kernel.Shared3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The region's unscoped buffers: the distinct buffers behind its windows' arrays and the rest. -/
theorem split2 (c : Dev nD) (V : (b : Ref sig .tc) → Buf (Elt F) ((c : Thread nD τ).loc b)) :
    (unscopedBufs c V : sProp 𝕄) = iprop((Pipeline.arrBufs spec3 c V : sProp 𝕄) ∗ Pipeline.unscopedRest spec3 c V) :=
  Pipeline.unscopedBufs_split₀ (fun _ : Fin 4 => cfg3) (0 : Fin 4) winFacts₀3.arr_unscoped c V

/-- A window's array is a whole buffer: its points-to is the buffer's, over every element. -/
theorem arr_pt2 (c : Dev nD) (w : Fin cfg3.W) (q : PosShare TreeShare) (X : Buf (Elt F) ((cfg3.win w).arr.view.loc (c : Thread nD τ))) :
    ((cfg3.win w).arr.view.loc (c : Thread nD τ) ↦[(cfg3.win w).arr.view.set]{q} X : sProp 𝕄)
      = (((c : Thread nD τ).loc (Pipeline.arrRef spec3 w)) ↦{q} X) := by
  rw [(arr_whole3 w).set_eq_univ]

/-- The shares the windows hold: the two windows on the embeddings a half each, every other window the whole. -/
theorem share2_adj (c : Dev nD) : (Mp3.dat3 V c).share 0 = fullShare := by
  unfold Dat.share; dsimp only [Mp3.dat3]; rfl
theorem share2_rows (c : Dev nD) : (Mp3.dat3 V c).share 1 = fullShare.left := by
  unfold Dat.share; dsimp only [Mp3.dat3]; rfl
theorem share2_whole (c : Dev nD) : (Mp3.dat3 V c).share 2 = fullShare.right := by
  unfold Dat.share; dsimp only [Mp3.dat3]; rfl
theorem share2_wself (c : Dev nD) : (Mp3.dat3 V c).share 3 = fullShare := by
  unfold Dat.share; dsimp only [Mp3.dat3]; rfl
theorem share2_wneigh (c : Dev nD) : (Mp3.dat3 V c).share 4 = fullShare := by
  unfold Dat.share; dsimp only [Mp3.dat3]; rfl
theorem share2_bias (c : Dev nD) : (Mp3.dat3 V c).share 5 = fullShare := by
  unfold Dat.share; dsimp only [Mp3.dat3]; rfl
theorem share2_res (c : Dev nD) : (Mp3.dat3 V c).share 6 = fullShare := by
  unfold Dat.share; dsimp only [Mp3.dat3]; rfl

/-- Before the first point a window's array is as the region found it. -/
theorem arrAt2_zero (c : Dev nD) (w : Fin cfg3.W) : (Mp3.dat3 V c).arrAt w 0 = V c (Pipeline.arrRef spec3 w) :=
  (show (Mp3.dat3 V c).arrAt w 0 = (Mp3.dat3 V c).A w from rfl).trans (Mp3.A_eq3 V c w)

/-- One window at entry: its array's buffer at the window's share and the entry contents is the window's points-to. -/
theorem entry_win2 (c : Dev nD) (w : Fin cfg3.W) (q : PosShare TreeShare) (hq : (Mp3.dat3 V c).share w = q) :
    ((((c : Thread nD τ).loc (Pipeline.arrRef spec3 w)) ↦{q} V c (Pipeline.arrRef spec3 w)) : sProp 𝕄)
      ⊢ ((cfg3.win w).arr.view.loc (c : Thread nD τ) ↦[(cfg3.win w).arr.view.set]{(Mp3.dat3 V c).share w} (Mp3.dat3 V c).arrAt w 0) := by
  subst hq
  rw [arr_pt2, arrAt2_zero]

/-- One window at exit: its points-to at contents that the exit valuation gives its array is that array's buffer at
    the window's share and the exit valuation. -/
theorem exit_win2 (c : Dev nD) (V' : (b : Ref sig .tc) → Buf (Elt F) ((c : Thread nD τ).loc b)) (w : Fin cfg3.W)
    (q : PosShare TreeShare) (hq : (Mp3.dat3 V c).share w = q)
    (hF : (Mp3.dat3 V c).arrAt w cfg3.N = V' (Pipeline.arrRef spec3 w)) :
    ((cfg3.win w).arr.view.loc (c : Thread nD τ) ↦[(cfg3.win w).arr.view.set]{(Mp3.dat3 V c).share w} (Mp3.dat3 V c).arrAt w cfg3.N : sProp 𝕄)
      ⊢ (((c : Thread nD τ).loc (Pipeline.arrRef spec3 w)) ↦{q} V' (Pipeline.arrRef spec3 w)) := by
  subst hq
  rw [arr_pt2, hF]

/-- ENTRY of the second message-passing region (the embeddings halved between windows 1 and 2). -/
theorem arrays_of_unscopedBufs3 (c : Dev nD) :
    (unscopedBufs c (V c) : sProp 𝕄)
      ⊢ iprop((Mp3.dat3 V c).arrays ((Mp3.dat3 V c).arrAt · 0) ∗ Pipeline.unscopedRest spec3 c (V c)) := by
  rw [split2 c (V c)]
  refine sep_mono ?_ .rfl
  -- the six distinct buffers behind the seven windows; the windows one by one
  unfold Pipeline.arrBufs Dat.arrays
  rw [show Finset.univ.image (Pipeline.arrRef spec3) = {main_v30, main_v38, main_v40, main_v42, main_v44, main_v45} from by decide,
    bigSep_insert (by decide), bigSep_insert (by decide), bigSep_insert (by decide), bigSep_insert (by decide),
    bigSep_insert (by decide), bigSep_singleton, bigSep_W3]
  refine BIClass.sep_mono (entry_win2 V c 0 _ (share2_adj V c)) ?_
  -- the embeddings' full share is its two halves, at the same contents
  refine (BIClass.sep_mono (pointsTo_share (PosShare.mem_left_op_right fullShare)).1 .rfl).trans (sep_assoc.1.trans ?_)
  exact BIClass.sep_mono (entry_win2 V c 1 _ (share2_rows V c)) (BIClass.sep_mono (entry_win2 V c 2 _ (share2_whole V c))
    (BIClass.sep_mono (entry_win2 V c 3 _ (share2_wself V c)) (BIClass.sep_mono (entry_win2 V c 4 _ (share2_wneigh V c))
      (BIClass.sep_mono (entry_win2 V c 5 _ (share2_bias V c)) (entry_win2 V c 6 _ (share2_res V c))))))

/-- EXIT of the second message-passing region. -/
theorem unscopedBufs_of_arrays3 (c : Dev nD) (V' : (b : Ref sig .tc) → Buf (Elt F) ((c : Thread nD τ).loc b))
    (hF : ∀ w, (Mp3.dat3 V c).arrAt w cfg3.N = V' (Pipeline.arrRef spec3 w))
    (hrest : ∀ b, b ∉ Finset.univ.image (Pipeline.arrRef spec3) → V' b = V c b) :
    iprop((Mp3.dat3 V c).arrays ((Mp3.dat3 V c).arrAt · cfg3.N) ∗ Pipeline.unscopedRest spec3 c (V c))
      ⊢ (unscopedBufs c V' : sProp 𝕄) := by
  rw [split2 c V']
  refine sep_mono ?_ (Entails.of_eq ?_)
  · unfold Pipeline.arrBufs Dat.arrays
    rw [show Finset.univ.image (Pipeline.arrRef spec3) = {main_v30, main_v38, main_v40, main_v42, main_v44, main_v45} from by decide,
      bigSep_insert (by decide), bigSep_insert (by decide), bigSep_insert (by decide), bigSep_insert (by decide),
      bigSep_insert (by decide), bigSep_singleton, bigSep_W3]
    refine BIClass.sep_mono (exit_win2 V c V' 0 _ (share2_adj V c) (hF 0)) ?_
    -- both halves hold the embeddings at the one function `V'` gives them: they join
    refine BIBase.Entails.trans ?_ (sep_assoc.2.trans (BIClass.sep_mono (pointsTo_share (PosShare.mem_left_op_right fullShare)).2 .rfl))
    exact BIClass.sep_mono (exit_win2 V c V' 1 _ (share2_rows V c) (hF 1)) (BIClass.sep_mono (exit_win2 V c V' 2 _ (share2_whole V c) (hF 2))
      (BIClass.sep_mono (exit_win2 V c V' 3 _ (share2_wself V c) (hF 3)) (BIClass.sep_mono (exit_win2 V c V' 4 _ (share2_wneigh V c) (hF 4))
        (BIClass.sep_mono (exit_win2 V c V' 5 _ (share2_bias V c) (hF 5)) (exit_win2 V c V' 6 _ (share2_res V c) (hF 6))))))
  · unfold Pipeline.unscopedRest
    exact bigSep_congr fun b hb => by rw [hrest b (Finset.mem_sdiff.mp hb).2]

end Cert.Kernel.Shared3

end
-- ==== Proof.K.Segs.lean ====
/-
  The program as a chain of items on one core: a stretch of host operations (pooling and the membership matrix),
  the adjacency region, the projection region, a stretch slicing the first layer's weights, the first message-passing
  region, a stretch slicing the second layer's weights, the second message-passing region. Between two items the core
  holds every unscoped buffer whole at a known valuation; a region changes exactly its output array, which it leaves at
  what its write-backs fold to. Here: those valuations, every region's proof data at its entry valuation, each region as
  a segment entered from one valuation and left at the next, and the frame: the program runs to its end, faults
  nowhere and every argument array ends as launched; with it, that the result array ends at the last region's output.
-/
import proofs.«109248_j70342974374329_1_alg».proof.Proof.K.Adj
import proofs.«109248_j70342974374329_1_alg».proof.Proof.K.Proj
import proofs.«109248_j70342974374329_1_alg».proof.Proof.K.Mp2
import proofs.«109248_j70342974374329_1_alg».proof.Proof.K.Mp3
import proofs.«109248_j70342974374329_1_alg».proof.Proof.K.Shared0
import proofs.«109248_j70342974374329_1_alg».proof.Proof.K.Shared2
import proofs.«109248_j70342974374329_1_alg».proof.Proof.K.Shared3
import proofs.«109248_j70342974374329_1_alg».proof.Proof.K.RegionsVal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Segs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- After the first host stretch: the adjacency region's entry. -/
abbrev W1 : Dev nD → Valuation τ sig (Elt F) := fun c => V1 m c
/-- What the adjacency region leaves in its output array. -/
def o2 (c : Dev nD) : Buf (Elt F) ((c : Thread nD τ).loc main_v30) := (Adj.dat0 (atTc (W1 m)) c).arrAt 2 cfg0.N
/-- After the adjacency region: the projection region's entry. -/
def W2 (c : Dev nD) : Valuation τ sig (Elt F) := Function.update (W1 m c) main_v30 (o2 m c)
/-- What the projection region leaves in its output array. -/
def o3 (c : Dev nD) : Buf (Elt F) ((c : Thread nD τ).loc main_v31) := (Proj.dat1 (atTc (W2 m)) c).arrAt 6 cfg1.N
/-- After the projection region. -/
def W3 (c : Dev nD) : Valuation τ sig (Elt F) := Function.update (W2 m c) main_v31 (o3 m c)
/-- After the first layer's slices: the first message-passing region's entry. -/
def W4 (c : Dev nD) : Valuation τ sig (Elt F) := StableHlo.after hostOps2 (W3 m c)
/-- What the first message-passing region leaves in its output array. -/
def o5 (c : Dev nD) : Buf (Elt F) ((c : Thread nD τ).loc main_v38) := (Mp2.dat2 (atTc (W4 m)) c).arrAt 6 cfg2.N
/-- After the first message-passing region. -/
def W5 (c : Dev nD) : Valuation τ sig (Elt F) := Function.update (W4 m c) main_v38 (o5 m c)
/-- After the second layer's slices: the second message-passing region's entry. -/
def W6 (c : Dev nD) : Valuation τ sig (Elt F) := StableHlo.after hostOps3 (W5 m c)
/-- What the second message-passing region leaves in its output array: the program's result. -/
def o7 (c : Dev nD) : Buf (Elt F) ((c : Thread nD τ).loc main_v45) := (Mp3.dat3 (atTc (W6 m)) c).arrAt 6 cfg3.N
/-- After the second message-passing region: the end. -/
def W7 (c : Dev nD) : Valuation τ sig (Elt F) := Function.update (W6 m c) main_v45 (o7 m c)

/-- The contents the regions leave, as the conditional frame's unknowns: read off the valuations above. -/
def outs : Outs (F := F) := fun J r c =>
  match J with
  | 2 => W2 m c r
  | 3 => W3 m c r
  | 5 => W5 m c r
  | _ => W7 m c r

theorem W2_out (c : Dev nD) : W2 m c main_v30 = o2 m c := Function.update_self ..
theorem W3_out (c : Dev nD) : W3 m c main_v31 = o3 m c := Function.update_self ..
theorem W5_out (c : Dev nD) : W5 m c main_v38 = o5 m c := Function.update_self ..
theorem W7_out (c : Dev nD) : W7 m c main_v45 = o7 m c := Function.update_self ..

theorem W2_of (c : Dev nD) (r : Ref sig .tc) (h : r ≠ main_v30) : W2 m c r = W1 m c r := by
  simp only [W2, Function.update_of_ne (StableHlo.devRef_ne_of_ne h : (Proc.devRef .tc r : DevRef τ sig) ≠ Proc.devRef .tc main_v30)]
theorem W3_of (c : Dev nD) (r : Ref sig .tc) (h : r ≠ main_v31) : W3 m c r = W2 m c r := by
  simp only [W3, Function.update_of_ne (StableHlo.devRef_ne_of_ne h : (Proc.devRef .tc r : DevRef τ sig) ≠ Proc.devRef .tc main_v31)]
theorem W5_of (c : Dev nD) (r : Ref sig .tc) (h : r ≠ main_v38) : W5 m c r = W4 m c r := by
  simp only [W5, Function.update_of_ne (StableHlo.devRef_ne_of_ne h : (Proc.devRef .tc r : DevRef τ sig) ≠ Proc.devRef .tc main_v38)]
theorem W7_of (c : Dev nD) (r : Ref sig .tc) (h : r ≠ main_v45) : W7 m c r = W6 m c r := by
  simp only [W7, Function.update_of_ne (StableHlo.devRef_ne_of_ne h : (Proc.devRef .tc r : DevRef τ sig) ≠ Proc.devRef .tc main_v45)]

/-- The conditional frame's valuations at these unknowns are the valuations above. -/
theorem V2_eq (c : Dev nD) : V2 m (outs m) c = W2 m c := by
  show Function.update (V1 m c) (Proc.devRef .tc main_v30) (W2 m c main_v30) = W2 m c
  rw [W2_out]; rfl
theorem V3_eq (c : Dev nD) : V3 m (outs m) c = W3 m c := by
  show Function.update (V2 m (outs m) c) (Proc.devRef .tc main_v31) (W3 m c main_v31) = W3 m c
  rw [W3_out, V2_eq]; rfl
theorem V4_eq (c : Dev nD) : V4 m (outs m) c = W4 m c := by
  show StableHlo.after hostOps2 (V3 m (outs m) c) = W4 m c
  rw [V3_eq]; rfl
theorem V5_eq (c : Dev nD) : V5 m (outs m) c = W5 m c := by
  show Function.update (V4 m (outs m) c) (Proc.devRef .tc main_v38) (W5 m c main_v38) = W5 m c
  rw [W5_out, V4_eq]; rfl
theorem V6_eq (c : Dev nD) : V6 m (outs m) c = W6 m c := by
  show StableHlo.after hostOps3 (V5 m (outs m) c) = W6 m c
  rw [V5_eq]; rfl
theorem V7_eq (c : Dev nD) : V7 m (outs m) c = W7 m c := by
  show Function.update (V6 m (outs m) c) (Proc.devRef .tc main_v45) (W7 m c main_v45) = W7 m c
  rw [W7_out, V6_eq]; rfl

/-! ## The proof data family and what rides along -/

/-- Every region's proof data, each at its entry valuation: a literal match on the region's number. -/
def pdats : (p : Fin 4) → (c : Dev nD) → Dat τ (Elt F) Unit ℕ (UR sig nD τ) ℕ (Pipeline.pin (pcfgs (F := F)) adm p) c
  | ⟨0, _⟩ => fun c => Adj.dat0 (atTc (W1 m)) c
  | ⟨1, _⟩ => fun c => Proj.dat1 (atTc (W2 m)) c
  | ⟨2, _⟩ => fun c => Mp2.dat2 (atTc (W4 m)) c
  | ⟨3, _⟩ => fun c => Mp3.dat3 (atTc (W6 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The regions as segments -/

/-- What each window's array holds when the adjacency region ends, and that nothing else changed. -/
theorem hF0 (c : Dev nD) (w : Fin cfg0.W) : (Adj.dat0 (atTc (W1 m)) c).arrAt w cfg0.N = atTc (W2 m) c (Pipeline.arrRef spec0 w) :=
  match w with
  | ⟨0, _⟩ => ((Adj.dat0 (atTc (W1 m)) c).arrAt_in 0 rfl _).trans (W2_of m c main_v29 (by decide)).symm
  | ⟨1, _⟩ => ((Adj.dat0 (atTc (W1 m)) c).arrAt_in 1 rfl _).trans (W2_of m c main_v29 (by decide)).symm
  | ⟨2, _⟩ => (W2_out m c).symm
theorem hrest0 (c : Dev nD) : ∀ b, b ∉ Finset.univ.image (Pipeline.arrRef spec0) → atTc (W2 m) c b = atTc (W1 m) c b :=
  fun b hb => W2_of m c b fun h => hb (h ▸ Finset.mem_image.mpr ⟨2, Finset.mem_univ _, rfl⟩)

set_option maxHeartbeats 1000000 in
set_option backward.isDefEq.respectTransparency.types false in
/-- The adjacency region: entered from the first stretch's valuation, left with its output array at its write-backs'
    fold. The membership matrix is halved between its two windows at entry and made whole again at exit; the accumulator
    lives in the region's invariant; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Adj.body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Shared0.arrays_of_unscopedBufs0 (atTc (W1 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := Adj.hin0 (atTc (W1 m)) c
    unfold Pipeline.ΦA at h0
    rw [show (pdats m 0 c).Φ 0 = (Adj.dat0 (atTc (W1 m)) c).Φ 0 from rfl]
    iintro ⟨Hp, -, Hr⟩
    iapply h0
    isplitl [Hr]; · iexact Hr
    iexact Hp
  hout c := by
    rw [Pipeline.ownSems0_none]
    refine (Adj.hout0 (atTc (W1 m)) c).trans ?_
    unfold Pipeline.ΦA
    iintro ⟨Hr, Hp⟩
    isplitl [Hp]; · iexact Hp
    isplitr; · iempintro
    iexact Hr
  hexit c := by
    have hjoin := Shared0.unscopedBufs_of_arrays0 (atTc (W1 m)) c (atTc (W2 m) c) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option maxHeartbeats 4000000 in
/-- What each window's array holds when the projection region ends, and that nothing else changed. -/
theorem hF1 (c : Dev nD) (w : Fin cfg1.W) : (Proj.dat1 (atTc (W2 m)) c).arrAt w cfg1.N = atTc (W3 m) c (Pipeline.arrRef spec1 w) :=
  match w with
  | ⟨0, _⟩ => ((Proj.dat1 (atTc (W2 m)) c).arrAt_in 0 rfl _).trans (W3_of m c main_v9 (by decide)).symm
  | ⟨1, _⟩ => ((Proj.dat1 (atTc (W2 m)) c).arrAt_in 1 rfl _).trans (W3_of m c main_arg2 (by decide)).symm
  | ⟨2, _⟩ => ((Proj.dat1 (atTc (W2 m)) c).arrAt_in 2 rfl _).trans (W3_of m c main_arg5 (by decide)).symm
  | ⟨3, _⟩ => ((Proj.dat1 (atTc (W2 m)) c).arrAt_in 3 rfl _).trans (W3_of m c main_arg6 (by decide)).symm
  | ⟨4, _⟩ => ((Proj.dat1 (atTc (W2 m)) c).arrAt_in 4 rfl _).trans (W3_of m c main_arg3 (by decide)).symm
  | ⟨5, _⟩ => ((Proj.dat1 (atTc (W2 m)) c).arrAt_in 5 rfl _).trans (W3_of m c main_arg4 (by decide)).symm
  | ⟨6, _⟩ => (W3_out m c).symm
theorem hrest1 (c : Dev nD) : ∀ b, b ∉ Finset.univ.image (Pipeline.arrRef spec1) → atTc (W3 m) c b = atTc (W2 m) c b :=
  fun b hb => W3_of m c b fun h => hb (h ▸ Finset.mem_image.mpr ⟨6, Finset.mem_univ _, rfl⟩)

set_option maxHeartbeats 1000000 in
set_option backward.isDefEq.respectTransparency.types false in
/-- The projection region: its seven arrays are distinct buffers, split out of the unscoped buffers at entry and put
    back at exit; the generator register goes into the region's invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation1 (atTc (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W2 m) c) (atTc (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option maxHeartbeats 4000000 in
/-- What each window's array holds when the first message-passing region ends, and that nothing else changed. -/
theorem hF2 (c : Dev nD) (w : Fin cfg2.W) : (Mp2.dat2 (atTc (W4 m)) c).arrAt w cfg2.N = atTc (W5 m) c (Pipeline.arrRef spec2 w) :=
  match w with
  | ⟨0, _⟩ => ((Mp2.dat2 (atTc (W4 m)) c).arrAt_in 0 rfl _).trans (W5_of m c main_v30 (by decide)).symm
  | ⟨1, _⟩ => ((Mp2.dat2 (atTc (W4 m)) c).arrAt_in 1 rfl _).trans (W5_of m c main_v31 (by decide)).symm
  | ⟨2, _⟩ => ((Mp2.dat2 (atTc (W4 m)) c).arrAt_in 2 rfl _).trans (W5_of m c main_v31 (by decide)).symm
  | ⟨3, _⟩ => ((Mp2.dat2 (atTc (W4 m)) c).arrAt_in 3 rfl _).trans (W5_of m c main_v33 (by decide)).symm
  | ⟨4, _⟩ => ((Mp2.dat2 (atTc (W4 m)) c).arrAt_in 4 rfl _).trans (W5_of m c main_v35 (by decide)).symm
  | ⟨5, _⟩ => ((Mp2.dat2 (atTc (W4 m)) c).arrAt_in 5 rfl _).trans (W5_of m c main_v37 (by decide)).symm
  | ⟨6, _⟩ => (W5_out m c).symm
theorem hrest2 (c : Dev nD) : ∀ b, b ∉ Finset.univ.image (Pipeline.arrRef spec2) → atTc (W5 m) c b = atTc (W4 m) c b :=
  fun b hb => W5_of m c b fun h => hb (h ▸ Finset.mem_image.mpr ⟨6, Finset.mem_univ _, rfl⟩)

set_option maxHeartbeats 1000000 in
set_option backward.isDefEq.respectTransparency.types false in
/-- The first message-passing region: the embeddings' array is halved between its two windows at entry and made whole
    again at exit; otherwise as the projection region. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Mp2.body_obligation2 (atTc (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (atTc (W4 m) c)
  hentry c := by
    rw [Pipeline.ownSems0_none]
    have hsplit := Shared2.arrays_of_unscopedBufs2 (atTc (W4 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Shared2.unscopedBufs_of_arrays2 (atTc (W4 m)) c (atTc (W5 m) c) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option maxHeartbeats 4000000 in
/-- What each window's array holds when the second message-passing region ends, and that nothing else changed. -/
theorem hF3 (c : Dev nD) (w : Fin cfg3.W) : (Mp3.dat3 (atTc (W6 m)) c).arrAt w cfg3.N = atTc (W7 m) c (Pipeline.arrRef spec3 w) :=
  match w with
  | ⟨0, _⟩ => ((Mp3.dat3 (atTc (W6 m)) c).arrAt_in 0 rfl _).trans (W7_of m c main_v30 (by decide)).symm
  | ⟨1, _⟩ => ((Mp3.dat3 (atTc (W6 m)) c).arrAt_in 1 rfl _).trans (W7_of m c main_v38 (by decide)).symm
  | ⟨2, _⟩ => ((Mp3.dat3 (atTc (W6 m)) c).arrAt_in 2 rfl _).trans (W7_of m c main_v38 (by decide)).symm
  | ⟨3, _⟩ => ((Mp3.dat3 (atTc (W6 m)) c).arrAt_in 3 rfl _).trans (W7_of m c main_v40 (by decide)).symm
  | ⟨4, _⟩ => ((Mp3.dat3 (atTc (W6 m)) c).arrAt_in 4 rfl _).trans (W7_of m c main_v42 (by decide)).symm
  | ⟨5, _⟩ => ((Mp3.dat3 (atTc (W6 m)) c).arrAt_in 5 rfl _).trans (W7_of m c main_v44 (by decide)).symm
  | ⟨6, _⟩ => (W7_out m c).symm
theorem hrest3 (c : Dev nD) : ∀ b, b ∉ Finset.univ.image (Pipeline.arrRef spec3) → atTc (W7 m) c b = atTc (W6 m) c b :=
  fun b hb => W7_of m c b fun h => hb (h ▸ Finset.mem_image.mpr ⟨6, Finset.mem_univ _, rfl⟩)

set_option maxHeartbeats 1000000 in
set_option backward.isDefEq.respectTransparency.types false in
/-- The second message-passing region: as the first, on the first layer's output. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (Mp3.body_obligation3 (atTc (W6 m)) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (atTc (W6 m) c)
  hentry c := by
    rw [Pipeline.ownSems0_none]
    have hsplit := Shared3.arrays_of_unscopedBufs3 (atTc (W6 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Shared3.unscopedBufs_of_arrays3 (atTc (W6 m)) c (atTc (W7 m) c) (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch and the frame -/

variable (ρ : Dev nD → PrngReg)

/-- The launch's ghost state: the pipelines' cells and their launch tokens, nothing else. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes what rides along. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, with the result: from any memory with zero counters every weakly fair execution of the program
    terminates, nothing faulting; the result array ends at the second message-passing region's output and every
    argument array as launched. -/
theorem run : θ_run defs (onTc (τ := τ) (main (F := F))) ⟨m, fun _ => 0, ρ⟩ (fun r => ∀ c : Dev nD,
      r.2.mem ((c.tc : Thread nD τ).loc main_v45) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1.trans (congrFun (V7_eq m c) _)).trans (W7_out m c), (h c).2⟩)
    (GenP.frame_cond_val m emb₁ () 𝒱₀ L lv (fun _ _ => rfl) ρ (outs m) (pdats m) 0 (fun _ => (BI.emp : sProp 𝕄))
      (initOf (Pipeline.cells cfgs cellOf_inj) (Pipeline.launchToks cfgs cellOf_inj)) (hu0 (F := F))
      (fun _ c => R c) (hE0 ρ) (fun c => by iintro ⟨-, HO⟩; iexact HO)
      (reg0 m) (fun c => .rfl) (fun c => by rw [V2_eq]; exact .rfl)
      (reg1 m) (fun c => by rw [V2_eq]; exact .rfl) (fun c => by rw [V3_eq]; exact .rfl)
      (reg2 m) (fun c => by rw [V4_eq]; exact .rfl) (fun c => by rw [V5_eq]; exact .rfl)
      (reg3 m) (fun c => by rw [V6_eq]; exact .rfl) (fun c => by rw [V7_eq]; exact .rfl))

/-- THE FRAME: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run m ρ)

end Cert.Kernel.Segs

end
-- ==== Proof.KI.Adj.lean ====
/-
  The adjacency (the first pallas_call): a grid of 8 x 8 x 4 points (i, j, n), n innermost. At a point the body reads
  the 512 x 4096 blocks (i, n) and (j, n) of the membership matrix; at n = 0 it clears a 512 x 512 accumulator kept in
  scratch; it adds the block product  A·Bᵀ  to the accumulator; at n = 3 it stores the output block (i, j):
  0 on the diagonal of the whole matrix, else 1 where the accumulator is positive, else 0. At n < 3 the output's
  staging buffer is left as found and is not written back.
  Here: the accumulator after each point, the body's triple in its three control cases, the region's proof data (the
  two windows on the membership matrix each hold half of it) and its body obligation, at any float instance.
-/
import proofs.«109248_j70342974374329_1_alg».proof.Proof.Gen.KernelIdeal.Launch
import proofs.«109248_j70342974374329_1_alg».proof.Proof.Gen.KernelIdeal.Skeleton
import proofs.«109248_j70342974374329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator kept in scratch. -/
abbrev scM : Memref sig .tc .vmem S512x512 .f32 := Memref.whole cc0_scratch0

/-- THE ACCUMULATION: the accumulator after the body at position `n`: cleared first where n ≡ 0 (mod 4), then the
    block product of the point's two input blocks added. -/
def accAt (c : Dev nD) : (n : ℕ) → n < cfg0.N → Vec F S512x512 .f32
  | 0, hn => k0_pay2 (iblk0 V c 0 ⟨0, hn⟩) (iblk0 V c 1 ⟨0, hn⟩) k0_pay1
  | n + 1, hn =>
    if (n + 1) % 4 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (accAt c n (Nat.lt_of_succ_lt hn))

theorem accAt_reset (c : Dev nD) (t : Fin cfg0.N) (h : t.val % 4 = 0) :
    accAt V c t.val t.isLt = k0_pay2 (iblk0 V c 0 t) (iblk0 V c 1 t) k0_pay1 := by
  obtain ⟨n, hn⟩ := t
  cases n with
  | zero => rfl
  | succ n => exact (if_pos h)

theorem accAt_step (c : Dev nD) (t : Fin cfg0.N) (h : ¬ t.val % 4 = 0) :
    accAt V c t.val t.isLt = k0_pay2 (iblk0 V c 0 t) (iblk0 V c 1 t)
      (accAt V c (t.val - 1) (Nat.lt_of_le_of_lt (Nat.sub_le _ _) t.isLt)) := by
  obtain ⟨n, hn⟩ := t
  cases n with
  | zero => exact absurd (Nat.zero_mod _) h
  | succ n => exact (if_neg h)

/-- The region invariant before position `n`: before the first point the scoped rest (the accumulator among it, at
    anything) and the generator register; afterwards the accumulator at what the point before left in it, the other
    scoped buffers and the generator register. -/
def PhiS (c : Dev nD) : (n : ℕ) → n ≤ cfg0.N → sProp 𝕄
  | 0, _ => Pipeline.ΦA spec0 c
  | n + 1, hn => iprop(owns (c : Thread nD τ) scM fullShare (accAt V c n hn)
      ∗ Pipeline.scopedRestBut (Ix := Unit) (Name := ℕ) (U := UR sig nD τ) (Lvl := ℕ) (Val := Elt F) spec0 c [cc0_scratch0]
      ∗ ∃ r, prngReg c r)

/-- The region's proof data on core `c`. Windows 0 and 1 read one array: each holds half of it. At a point with
    n < 3 the output window is idle and `after 2` is not consulted there. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (grid0.coords t) (accAt V c t.val t.isLt)
  Φ t := PhiS V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_2 (c : Dev nD) (t : Fin cfg0.N) :
    (dat0 V c).after 2 t = k0_pay3 (grid0.coords t) (accAt V c t.val t.isLt) := by dsimp only [dat0]

/-! ## The body's triple in its three control cases -/

/-- A store through the whole-buffer rectangle at zero offsets, made LAST, leaves its payload: whatever the view,
    the contents before and the earlier stores. -/
theorem read_writes_cons_unit_zero {sg : RefSig} {κ : Kind} {sp : Space} {Val : EltTy → Type} [∀ e, Nonempty (Val e)]
    {S : Shape} {e : EltTy} (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-buffer rectangle at zero offsets of a whole memref at contents `X` reads `X`. -/
theorem readAt_unread_unit_zero {sg : RefSig} {κ : Kind} {sp : Space} {Val : EltTy → Type}
    {S : Shape} {e : EltTy} (m : Memref sg κ sp S e) (h : m.IsWhole) {off : Fin S.rank → Nat}
    (hz : off = fun _ => 0) (inb : ∀ a, off a + S.size a ≤ S.size a) (X : S.Idx → Val e) :
    m.view.readAt Val (Rect.unit off S.size inb).toLoadRect (h.unread X) = X := by
  rw [View.readAt_eq_ld, h.read_unread, View.ld_unit_zero hz]

/-- The first conditional's test (the third grid coordinate is 0), from the grid coordinates. -/
abbrev condReset (i : grid0.Coords) : Prop :=
  (Scalar.cmpi .ne (Scalar.extui (Scalar.cmpi .eq (BitVec.ofNat 32 (i 2).val) 0#32)) 0#32) = 1#1
/-- The second conditional's test (the third grid coordinate is 3). -/
abbrev condStore (i : grid0.Coords) : Prop := k0_cond2 i = 1#1

/-- The zero offsets of a whole-buffer rectangle of rank 2. -/
theorem hz2 : (![0, 0] : Fin 2 → Nat) = fun _ => 0 := funext fun a => by fin_cases a <;> rfl

set_option maxHeartbeats 1000000 in
/-- Where the accumulator is cleared and the output is not stored: the accumulator ends at the block product added
    to zeros; the inputs and the output's buffer are left as found. -/
theorem runA (c : Dev nD) (i : grid0.Coords)
    (arg3 : Memref sig .tc .vmem S512x4096 .bf16) (harg3 : arg3.IsWhole)
    (arg4 : Memref sig .tc .vmem S512x4096 .bf16) (harg4 : arg4.IsWhole)
    (arg5 : Memref sig .tc .vmem S512x512 .bf16) (harg5 : arg5.IsWhole)
    (arg6 : Memref sig .tc .vmem S512x512 .f32) (harg6 : arg6.IsWhole)
    (hc0 : condReset i) (hc1 : ¬ condStore i)
    (x0 x1 : Vec F S512x4096 .bf16) (xo : Vec F S512x512 .bf16) (E : Set ℕ) (K : PUnit → sProp 𝕄) :
    iprop(owns (c : Thread nD τ) arg3 fullShare x0 ∗ owns (c : Thread nD τ) arg4 fullShare x1
        ∗ owns (c : Thread nD τ) arg5 fullShare xo ∗ (∃ d, owns (c : Thread nD τ) arg6 fullShare d)
        ∗ (iprop(owns (c : Thread nD τ) arg3 fullShare x0 ∗ owns (c : Thread nD τ) arg4 fullShare x1
            ∗ owns (c : Thread nD τ) arg5 fullShare xo
            ∗ owns (c : Thread nD τ) arg6 fullShare (k0_pay2 x0 x1 k0_pay1)) -∗ K ⟨⟩))
      ⊢ wp frame (wpE (defs₀ (F := F)) Variants.none c none) E (cc0__adj_kernel i arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  refine (read_writes_cons_unit_zero _ _ hz2 _ _ _).trans ?_
  sl_unfold_words
  rw [readAt_unread_unit_zero arg3 harg3 hz2, readAt_unread_unit_zero arg4 harg4 hz2, View.readCov_unit_zero _ hz2]

set_option maxHeartbeats 1000000 in
/-- Where the accumulator is kept and the output is not stored: the block product is added to what the accumulator
    held; the inputs and the output's buffer are left as found. -/
theorem runB (c : Dev nD) (i : grid0.Coords)
    (arg3 : Memref sig .tc .vmem S512x4096 .bf16) (harg3 : arg3.IsWhole)
    (arg4 : Memref sig .tc .vmem S512x4096 .bf16) (harg4 : arg4.IsWhole)
    (arg5 : Memref sig .tc .vmem S512x512 .bf16) (harg5 : arg5.IsWhole)
    (arg6 : Memref sig .tc .vmem S512x512 .f32) (harg6 : arg6.IsWhole)
    (hc0 : ¬ condReset i) (hc1 : ¬ condStore i)
    (x0 x1 : Vec F S512x4096 .bf16) (xo : Vec F S512x512 .bf16) (xs : Vec F S512x512 .f32) (E : Set ℕ) (K : PUnit → sProp 𝕄) :
    iprop(owns (c : Thread nD τ) arg3 fullShare x0 ∗ owns (c : Thread nD τ) arg4 fullShare x1
        ∗ owns (c : Thread nD τ) arg5 fullShare xo ∗ owns (c : Thread nD τ) arg6 fullShare xs
        ∗ (iprop(owns (c : Thread nD τ) arg3 fullShare x0 ∗ owns (c : Thread nD τ) arg4 fullShare x1
            ∗ owns (c : Thread nD τ) arg5 fullShare xo
            ∗ owns (c : Thread nD τ) arg6 fullShare (k0_pay2 x0 x1 xs)) -∗ K ⟨⟩))
      ⊢ wp frame (wpE (defs₀ (F := F)) Variants.none c none) E (cc0__adj_kernel i arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  refine (read_writes_cons_unit_zero _ _ hz2 _ _ _).trans ?_
  sl_unfold_words
  rw [readAt_unread_unit_zero arg3 harg3 hz2, readAt_unread_unit_zero arg4 harg4 hz2, readAt_unread_unit_zero arg6 harg6 hz2]

set_option maxHeartbeats 1000000 in
/-- Where the accumulator is kept and the output is stored: the block product is added to what the accumulator held,
    and the output's buffer ends at the thresholded block of that sum; the inputs are left as found. -/
theorem runC (c : Dev nD) (i : grid0.Coords)
    (arg3 : Memref sig .tc .vmem S512x4096 .bf16) (harg3 : arg3.IsWhole)
    (arg4 : Memref sig .tc .vmem S512x4096 .bf16) (harg4 : arg4.IsWhole)
    (arg5 : Memref sig .tc .vmem S512x512 .bf16) (harg5 : arg5.IsWhole)
    (arg6 : Memref sig .tc .vmem S512x512 .f32) (harg6 : arg6.IsWhole)
    (hc0 : ¬ condReset i) (hc1 : condStore i)
    (x0 x1 : Vec F S512x4096 .bf16) (xs : Vec F S512x512 .f32) (E : Set ℕ) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare xs
        ∗ (iprop(owns (c : Thread nD τ) arg3 fullShare x0 ∗ owns (c : Thread nD τ) arg4 fullShare x1
            ∗ owns (c : Thread nD τ) arg5 fullShare (k0_pay3 i (k0_pay2 x0 x1 xs))
            ∗ owns (c : Thread nD τ) arg6 fullShare (k0_pay2 x0 x1 xs)) -∗ K ⟨⟩))
      ⊢ wp frame (wpE (defs₀ (F := F)) Variants.none c none) E (cc0__adj_kernel i arg3 harg3 arg4 harg4 arg5 harg5 arg6 harg6) K := by
  simp only [cc0__adj_kernel_eq_skeleton]; unfold cc0__adj_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    refine (read_writes_cons_unit_zero _ _ hz2 _ _ _).trans ?_
    sl_unfold_words
    rw [View.readCov_unit_zero _ hz2, readAt_unread_unit_zero arg3 harg3 hz2, readAt_unread_unit_zero arg4 harg4 hz2,
      readAt_unread_unit_zero arg6 harg6 hz2]
  iexists _; isplitr
  swap; · iexact HS
  ipureintro
  refine (read_writes_cons_unit_zero _ _ hz2 _ _ _).trans ?_
  sl_unfold_words
  rw [readAt_unread_unit_zero arg3 harg3 hz2, readAt_unread_unit_zero arg4 harg4 hz2, readAt_unread_unit_zero arg6 harg6 hz2]

/-! ## The conditions in closed form, and where the output window is idle -/

/-- The accumulator is cleared at the points ≡ 0 (mod 4): decided over the grid. -/
theorem hcondReset : ∀ t : Fin cfg0.N, condReset (grid0.coords t) ↔ t.val % 4 = 0 :=
  (by decide +kernel : ∀ t : Fin grid0.N, condReset (grid0.coords t) ↔ t.val % 4 = 0)
/-- The output block is stored at the points ≡ 3 (mod 4): decided over the grid. -/
theorem hcondStore : ∀ t : Fin cfg0.N, condStore (grid0.coords t) ↔ t.val % 4 = 3 :=
  (by decide +kernel : ∀ t : Fin grid0.N, condStore (grid0.coords t) ↔ t.val % 4 = 3)

/-- The input windows are never idle. -/
theorem liveIn0 : ∀ t : Fin cfg0.N, cfg0.idle 0 (grid0.coords t) = false := by decide +kernel
theorem liveIn1 : ∀ t : Fin cfg0.N, cfg0.idle 1 (grid0.coords t) = false := by decide +kernel
/-- Where the output is not stored its window is idle and is not written back; where it is stored the window is live. -/
theorem idleOut : ∀ t : Fin cfg0.N, ¬ condStore (grid0.coords t) → cfg0.idle 2 (grid0.coords t) = true := by decide +kernel
theorem noFlushOut : ∀ t : Fin cfg0.N, ¬ condStore (grid0.coords t) → (cfg0.win 2).flush t = false := by decide +kernel
theorem liveOut : ∀ t : Fin cfg0.N, condStore (grid0.coords t) → cfg0.idle 2 (grid0.coords t) = false := by decide +kernel

/-! ## The staging memrefs at a point, and the invariant unfolded -/

abbrev ms0 (t : Fin cfg0.N) : Memref sig .tc .vmem S512x4096 .bf16 := win0_0.stage (cfg0.slots t 0)
abbrev ms1 (t : Fin cfg0.N) : Memref sig .tc .vmem S512x4096 .bf16 := win0_1.stage (cfg0.slots t 1)
abbrev ms2 (t : Fin cfg0.N) : Memref sig .tc .vmem S512x512 .bf16 := win0_2.stage (cfg0.slots t 2)

/-- What the region is entered with: the accumulator at anything, the other scoped buffers, the generator register. -/
theorem PhiA0_eq (c : Dev nD) :
    (Pipeline.ΦA spec0 c : sProp 𝕄)
      = iprop(iprop((∃ d, owns (c : Thread nD τ) scM fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM, owns_whole]; try rfl

theorem PhiS_zero (c : Dev nD) (n : ℕ) (h : n ≤ cfg0.N) (hz : n = 0) : PhiS V c n h = Pipeline.ΦA spec0 c := by
  subst hz; rfl

/-- After point `n`: the accumulator at that point's contents. -/
theorem PhiS_succ (c : Dev nD) (n : ℕ) (hn : n < cfg0.N) :
    PhiS V c (n + 1) hn = iprop(owns (c : Thread nD τ) scM fullShare (accAt V c n hn)
      ∗ Pipeline.scopedRestBut (Ix := Unit) (Name := ℕ) (U := UR sig nD τ) (Lvl := ℕ) (Val := Elt F) spec0 c [cc0_scratch0]
      ∗ ∃ r, prngReg c r) := rfl

/-- Before a point that is not the first: the accumulator at what the point before left. -/
theorem PhiS_pos (c : Dev nD) (n : ℕ) (h : n ≤ cfg0.N) (hz : n ≠ 0) :
    PhiS V c n h = iprop(owns (c : Thread nD τ) scM fullShare (accAt V c (n - 1) (by omega))
      ∗ Pipeline.scopedRestBut (Ix := Unit) (Name := ℕ) (U := UR sig nD τ) (Lvl := ℕ) (Val := Elt F) spec0 c [cc0_scratch0]
      ∗ ∃ r, prngReg c r) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- Each input's current staging buffer holds its block at every point: both are fetched at every point. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms say which of the three cases the
    point is in; the invariant hands the body the accumulator (at anything at the first point, else at what the point
    before left) and takes it back at this point's contents; where the output is not stored its buffer goes back as
    found, where it is stored it holds the thresholded block of this point's accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [liveIn0 t], after0_0]
  rw [show (dat0 V c).leavesExact 1 t = owns (c : Thread nD τ) (ms1 t) fullShare ((dat0 V c).after 1 t) from by
    unfold Dat.leavesExact; rw [liveIn1 t], after0_1]
  have hN : t.val < 256 := lt_of_lt_of_eq t.isLt (show cfg0.N = 256 from N_0)
  by_cases h0 : t.val % 4 = 0
  · have h1 : ¬ t.val % 4 = 3 := by omega
    have hr : condReset (grid0.coords t) := (hcondReset t).mpr h0
    have hs : ¬ condStore (grid0.coords t) := fun h => h1 ((hcondStore t).mp h)
    rw [Dat.leavesExact_idle (dat0 V c) 2 t (idleOut t hs) (noFlushOut t hs)]
    rw [accAt_reset V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply (runA c (grid0.coords t) _ _ _ _ _ _ _ _ hr hs (iblk0 V c 0 t) (iblk0 V c 1 t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨HS, HR, Hg⟩, Ho, ⟨%d0, H0⟩, ⟨%d1, H1⟩, ⟨%d2, H2⟩⟩
      iapply (runA c (grid0.coords t) _ _ _ _ _ _ _ _ hr hs (iblk0 V c 0 t) (iblk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hr : ¬ condReset (grid0.coords t) := fun h => h0 ((hcondReset t).mp h)
    have hz : t.val ≠ 0 := fun e => h0 (by rw [e])
    rw [accAt_step V c t h0]
    rw [PhiS_castSucc V c t, PhiS_pos V c _ _ hz]
    by_cases h1 : t.val % 4 = 3
    · have hs : condStore (grid0.coords t) := (hcondStore t).mpr h1
      rw [show (dat0 V c).leavesExact 2 t = owns (c : Thread nD τ) (ms2 t) fullShare ((dat0 V c).after 2 t) from by
        unfold Dat.leavesExact; rw [liveOut t hs], after0_2, accAt_step V c t h0]
      iintro ⟨⟨HS, HR, Hg⟩, Ho, ⟨%d0, H0⟩, ⟨%d1, H1⟩, ⟨%d2, H2⟩⟩
      iapply (runC c (grid0.coords t) _ _ _ _ _ _ _ _ hr hs (iblk0 V c 0 t) (iblk0 V c 1 t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hs : ¬ condStore (grid0.coords t) := fun h => h1 ((hcondStore t).mp h)
      rw [Dat.leavesExact_idle (dat0 V c) 2 t (idleOut t hs) (noFlushOut t hs)]
      iintro ⟨⟨HS, HR, Hg⟩, Ho, ⟨%d0, H0⟩, ⟨%d1, H1⟩, ⟨%d2, H2⟩⟩
      iapply (runB c (grid0.coords t) _ _ _ _ _ _ _ _ hr hs (iblk0 V c 0 t) (iblk0 V c 1 t) ((dat0 V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest and the generator register back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), PhiA0_eq]
  iintro ⟨HS, HR, Hg⟩
  isplitl [HS HR]
  · isplitl [HS]; · iexists _; iexact HS
    iexact HR
  iexact Hg

end Cert.KernelIdeal.Adj

end
-- ==== Proof.KI.Proj.lean ====
/-
  The input projection (the second pallas_call): one grid axis of 8 row blocks; at a point the body reads a
  512-row block of the pooled embeddings and of the group features, the two weight matrices and the two biases
  whole, and stores the 512 x 256 block  pooled·W_a2g + b_a2g + features·W_in + b_in  whole.
  Here: what the body leaves in the output block as a function of the input blocks, the body's triple, the
  region's proof data and its body obligation, at any float instance.
-/
import proofs.«109248_j70342974374329_1_alg».proof.Proof.Gen.KernelIdeal.Launch
import proofs.«109248_j70342974374329_1_alg».proof.Proof.Gen.KernelIdeal.Skeleton
import proofs.«109248_j70342974374329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRows : Rect S512x256 := Rect.unit (s := S512x256) ![0, 0] S512x256.size inb_S512x256_S512x256_0_0
abbrev rFeat : Rect S512x128 := Rect.unit (s := S512x128) ![0, 0] S512x128.size inb_S512x128_S512x128_0_0
abbrev rWa : Rect S256x256 := Rect.unit (s := S256x256) ![0, 0] S256x256.size inb_S256x256_S256x256_0_0
abbrev rWin : Rect S128x256 := Rect.unit (s := S128x256) ![0, 0] S128x256.size inb_S128x256_S128x256_0_0
abbrev rBias : Rect S256 := Rect.unit (s := S256) ![0] S256.size inb_S256_S256_0

/-- The output block after the body, from the six input blocks (in window order: pooled rows, feature rows,
    W_a2g, b_a2g, W_in, b_in): the one store's payload over the loads. -/
def out1_6 (x0 : Vec F S512x256 .f32) (x1 : Vec F S512x128 .f32) (x2 : Vec F S256x256 .f32) (x3 : Vec F S256 .f32)
    (x4 : Vec F S128x256 .f32) (x5 : Vec F S256 .f32) : Vec F S512x256 .f32 :=
  View.canon [⟨rRows, k1_pay1 (View.ld x0 rRows) (View.ld x1 rFeat) (View.ld x2 rWa) (View.ld x4 rWin) (View.ld x3 rBias) (View.ld x5 rBias)⟩]

/-- The region's proof data on core `c`: the arrays as found; every input's buffer keeps its block, the output's
    holds `out1_6` of the input blocks; the invariant is the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! ## What each input's staging buffer holds when the body is called

  The body leaves every input block where it found it, no input window is cut and none is ever idle. So at a point
  that fetches the window the buffer holds the block just fetched, and at a point that does not (the weights and
  biases after the first point) the block index has not moved since the fetch, and the buffer still holds the same
  block: in both cases the window's block at that point, read off the array as the region found it. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## The body's one store -/

/-- The store's rectangle is the whole 512 x 256 buffer, one tile of the buffer's own extents: every index of the
    buffer lies under it. -/
theorem cover1_6 (p : Vec F S512x256 .f32) (y : S512x256.Idx) :
    ∃ pc ∈ ([⟨rRows, p⟩] : List (View.Piece (Elt F) S512x256 .f32)), y ∈ pc.1.set :=
  View.cover_of_tiled [⟨rRows, p⟩] S512x256.size (by rfl) y

set_option maxHeartbeats 1000000 in
/-- The body on whole staging memrefs, the six inputs' reading `x0 … x5` and the output's reading anything, runs
    to a continuation that holds the inputs' as they were and the output's at `out1_6` of them: six whole loads, a
    load of the output buffer whose value nothing reads, and one store of the payload over the whole buffer. -/
theorem sound_kernel1 (c : Dev nD) (E : Set ℕ) (i : grid1.Coords)
    (a0 : Memref sig .tc .vmem S512x256 .f32) (h0 : a0.IsWhole) (a1 : Memref sig .tc .vmem S512x128 .f32) (h1 : a1.IsWhole)
    (a2 : Memref sig .tc .vmem S256x256 .f32) (h2 : a2.IsWhole) (a3 : Memref sig .tc .vmem S256 .f32) (h3 : a3.IsWhole)
    (a4 : Memref sig .tc .vmem S128x256 .f32) (h4 : a4.IsWhole) (a5 : Memref sig .tc .vmem S256 .f32) (h5 : a5.IsWhole)
    (a6 : Memref sig .tc .vmem S512x256 .f32) (h6 : a6.IsWhole)
    (x0 : Vec F S512x256 .f32) (x1 : Vec F S512x128 .f32) (x2 : Vec F S256x256 .f32) (x3 : Vec F S256 .f32)
    (x4 : Vec F S128x256 .f32) (x5 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (out1_6 x0 x1 x2 x3 x4 x5)) -∗ K ⟨⟩))
      ⊢ wp frame (wpE (defs₀ (F := F)) Variants.none c none) E
          (cc1__proj_kernel i a0 h0 a1 h1 a2 h2 a3 h3 a4 h4 a5 h5 a6 h6) K := by
  simp only [cc1__proj_kernel_eq_skeleton]; unfold cc1__proj_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The body obligation, at a generic point -/

/-- What the body is called with at point `t`: the invariant, what the core owes, and the seven windows' current
    staging buffers at what they then hold. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns: the same at the next point, every buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. Each input's buffer holds its block there (`before1_W`), the output's holds something,
    so the body's triple applies; the invariant and what the core owes are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Proj

end
-- ==== Proof.KI.Mp2.lean ====
/-
  The first message-passing layer (the third pallas_call): one grid axis of 8 row blocks; at a point the body reads
  a 512 x 4096 block of adjacency rows, the matching 512 rows of the embeddings, the embeddings whole, the two
  256 x 256 weights and the bias, and stores  max(rows·W_self + (adj_rows·embeddings)·W_neigh + b, 0)  whole.
  Here: the output block as a function of the input blocks, the body's triple, the region's proof data (the two
  windows on the embeddings' array each hold half of it) and its body obligation, at any float instance.
-/
import proofs.«109248_j70342974374329_1_alg».proof.Proof.Gen.KernelIdeal.Launch
import proofs.«109248_j70342974374329_1_alg».proof.Proof.Gen.KernelIdeal.Skeleton
import proofs.«109248_j70342974374329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mp2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rAdj : Rect S512x4096 := Rect.unit (s := S512x4096) ![0, 0] S512x4096.size inb_S512x4096_S512x4096_0_0
abbrev rRows : Rect S512x256 := Rect.unit (s := S512x256) ![0, 0] S512x256.size inb_S512x256_S512x256_0_0
abbrev rAll : Rect S4096x256 := Rect.unit (s := S4096x256) ![0, 0] S4096x256.size inb_S4096x256_S4096x256_0_0
abbrev rW : Rect S256x256 := Rect.unit (s := S256x256) ![0, 0] S256x256.size inb_S256x256_S256x256_0_0
abbrev rBias : Rect S256 := Rect.unit (s := S256) ![0] S256.size inb_S256_S256_0

/-- The output block after the body, from the six input blocks (in window order: adjacency rows, embedding rows,
    all embeddings, W_self, W_neigh, bias): the one store's payload over the loads. -/
def out2_6 (x0 : Vec F S512x4096 .bf16) (x1 : Vec F S512x256 .f32) (x2 : Vec F S4096x256 .f32) (x3 : Vec F S256x256 .f32)
    (x4 : Vec F S256x256 .f32) (x5 : Vec F S256 .f32) : Vec F S512x256 .f32 :=
  View.canon [⟨rRows, k2_pay1 (View.ld x0 rAdj) (View.ld x2 rAll) (View.ld x1 rRows) (View.ld x3 rW) (View.ld x4 rW) (View.ld x5 rBias)⟩]

/-- The region's proof data on core `c`. Windows 1 and 2 read one array: each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-! ## What the body leaves in, and finds in, the input windows' buffers

For each of the six input windows, four facts in this order: the body leaves the buffer at the window's block; that
block is what the window's transfers move of it; it is also what a fetch at the point puts in the buffer; so the
buffer holds the block wherever the body runs — at a point that fetches the window by the fetch, and at a point that
does not because the block index has not moved since the last fetch and the body left the block in place. None of this
reads the share a window holds of its array. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

theorem keep2_0 (c : Dev nD) (t : Fin cfg2.N) :
    (cfg2.win 0).cut (cfg2.grid.coords t) ((dat2 V c).after 0 t) = (dat2 V c).blockOf 0 t := by
  rw [after2_0]; unfold Dat.blockOf iblk2; rw [A_eq2]
theorem fetched2_0 (c : Dev nD) (t : Fin cfg2.N) (d) : (dat2 V c).fetched 0 t d = iblk2 V c 0 t := by
  unfold Dat.fetched Dat.blockOf iblk2; rw [A_eq2]; rfl
theorem before2_0 (c : Dev nD) (t : Fin cfg2.N) (d) : (dat2 V c).before 0 t d = iblk2 V c 0 t :=
  ((dat2 V c).before_in_eq_fetched 0 rfl (fun _ => rfl) (fun _ _ _ => rfl) (keep2_0 V c) t d).trans (fetched2_0 V c t d)

theorem keep2_1 (c : Dev nD) (t : Fin cfg2.N) :
    (cfg2.win 1).cut (cfg2.grid.coords t) ((dat2 V c).after 1 t) = (dat2 V c).blockOf 1 t := by
  rw [after2_1]; unfold Dat.blockOf iblk2; rw [A_eq2]
theorem fetched2_1 (c : Dev nD) (t : Fin cfg2.N) (d) : (dat2 V c).fetched 1 t d = iblk2 V c 1 t := by
  unfold Dat.fetched Dat.blockOf iblk2; rw [A_eq2]; rfl
theorem before2_1 (c : Dev nD) (t : Fin cfg2.N) (d) : (dat2 V c).before 1 t d = iblk2 V c 1 t :=
  ((dat2 V c).before_in_eq_fetched 1 rfl (fun _ => rfl) (fun _ _ _ => rfl) (keep2_1 V c) t d).trans (fetched2_1 V c t d)

theorem keep2_2 (c : Dev nD) (t : Fin cfg2.N) :
    (cfg2.win 2).cut (cfg2.grid.coords t) ((dat2 V c).after 2 t) = (dat2 V c).blockOf 2 t := by
  rw [after2_2]; unfold Dat.blockOf iblk2; rw [A_eq2]
theorem fetched2_2 (c : Dev nD) (t : Fin cfg2.N) (d) : (dat2 V c).fetched 2 t d = iblk2 V c 2 t := by
  unfold Dat.fetched Dat.blockOf iblk2; rw [A_eq2]; rfl
theorem before2_2 (c : Dev nD) (t : Fin cfg2.N) (d) : (dat2 V c).before 2 t d = iblk2 V c 2 t :=
  ((dat2 V c).before_in_eq_fetched 2 rfl (fun _ => rfl) (fun _ _ _ => rfl) (keep2_2 V c) t d).trans (fetched2_2 V c t d)

theorem keep2_3 (c : Dev nD) (t : Fin cfg2.N) :
    (cfg2.win 3).cut (cfg2.grid.coords t) ((dat2 V c).after 3 t) = (dat2 V c).blockOf 3 t := by
  rw [after2_3]; unfold Dat.blockOf iblk2; rw [A_eq2]
theorem fetched2_3 (c : Dev nD) (t : Fin cfg2.N) (d) : (dat2 V c).fetched 3 t d = iblk2 V c 3 t := by
  unfold Dat.fetched Dat.blockOf iblk2; rw [A_eq2]; rfl
theorem before2_3 (c : Dev nD) (t : Fin cfg2.N) (d) : (dat2 V c).before 3 t d = iblk2 V c 3 t :=
  ((dat2 V c).before_in_eq_fetched 3 rfl (fun _ => rfl) (fun _ _ _ => rfl) (keep2_3 V c) t d).trans (fetched2_3 V c t d)

theorem keep2_4 (c : Dev nD) (t : Fin cfg2.N) :
    (cfg2.win 4).cut (cfg2.grid.coords t) ((dat2 V c).after 4 t) = (dat2 V c).blockOf 4 t := by
  rw [after2_4]; unfold Dat.blockOf iblk2; rw [A_eq2]
theorem fetched2_4 (c : Dev nD) (t : Fin cfg2.N) (d) : (dat2 V c).fetched 4 t d = iblk2 V c 4 t := by
  unfold Dat.fetched Dat.blockOf iblk2; rw [A_eq2]; rfl
theorem before2_4 (c : Dev nD) (t : Fin cfg2.N) (d) : (dat2 V c).before 4 t d = iblk2 V c 4 t :=
  ((dat2 V c).before_in_eq_fetched 4 rfl (fun _ => rfl) (fun _ _ _ => rfl) (keep2_4 V c) t d).trans (fetched2_4 V c t d)

theorem keep2_5 (c : Dev nD) (t : Fin cfg2.N) :
    (cfg2.win 5).cut (cfg2.grid.coords t) ((dat2 V c).after 5 t) = (dat2 V c).blockOf 5 t := by
  rw [after2_5]; unfold Dat.blockOf iblk2; rw [A_eq2]
theorem fetched2_5 (c : Dev nD) (t : Fin cfg2.N) (d) : (dat2 V c).fetched 5 t d = iblk2 V c 5 t := by
  unfold Dat.fetched Dat.blockOf iblk2; rw [A_eq2]; rfl
theorem before2_5 (c : Dev nD) (t : Fin cfg2.N) (d) : (dat2 V c).before 5 t d = iblk2 V c 5 t :=
  ((dat2 V c).before_in_eq_fetched 5 rfl (fun _ => rfl) (fun _ _ _ => rfl) (keep2_5 V c) t d).trans (fetched2_5 V c t d)

/-! ## The body's triple -/

/-- The body's one store fills the output buffer. -/
theorem cover2_6 (p : Vec F S512x256 .f32) (y : S512x256.Idx) :
    ∃ pc ∈ ([⟨rRows, p⟩] : List (View.Piece (Elt F) S512x256 .f32)), y ∈ pc.1.set :=
  View.cover_of_tiled [⟨rRows, p⟩] S512x256.size (by rfl) y

set_option maxHeartbeats 1000000 in
/-- The body on whole staging memrefs — the six inputs' at read contents, the output's at anything — runs to the
    continuation with the inputs' as they were and the output's at the store's payload of the six loads. -/
theorem sound_kernel2 (c : Dev nD) (E : Set ℕ) (i : grid2.Coords)
    (mAdj : Memref sig .tc .vmem S512x4096 .bf16) (hAdj : mAdj.IsWhole) (mRows : Memref sig .tc .vmem S512x256 .f32) (hRows : mRows.IsWhole)
    (mAll : Memref sig .tc .vmem S4096x256 .f32) (hAll : mAll.IsWhole) (mWs : Memref sig .tc .vmem S256x256 .f32) (hWs : mWs.IsWhole)
    (mWn : Memref sig .tc .vmem S256x256 .f32) (hWn : mWn.IsWhole) (mB : Memref sig .tc .vmem S256 .f32) (hB : mB.IsWhole)
    (mOut : Memref sig .tc .vmem S512x256 .f32) (hOut : mOut.IsWhole)
    (xAdj : Vec F S512x4096 .bf16) (xRows : Vec F S512x256 .f32) (xAll : Vec F S4096x256 .f32) (xWs : Vec F S256x256 .f32)
    (xWn : Vec F S256x256 .f32) (xB : Vec F S256 .f32) (K : PUnit → sProp 𝕄) :
    iprop(owns (c : Thread nD τ) mAdj fullShare xAdj ∗ owns (c : Thread nD τ) mRows fullShare xRows
        ∗ owns (c : Thread nD τ) mAll fullShare xAll ∗ owns (c : Thread nD τ) mWs fullShare xWs
        ∗ owns (c : Thread nD τ) mWn fullShare xWn ∗ owns (c : Thread nD τ) mB fullShare xB
        ∗ (∃ d, owns (c : Thread nD τ) mOut fullShare d)
        ∗ (iprop(owns (c : Thread nD τ) mAdj fullShare xAdj ∗ owns (c : Thread nD τ) mRows fullShare xRows
            ∗ owns (c : Thread nD τ) mAll fullShare xAll ∗ owns (c : Thread nD τ) mWs fullShare xWs
            ∗ owns (c : Thread nD τ) mWn fullShare xWn ∗ owns (c : Thread nD τ) mB fullShare xB
            ∗ owns (c : Thread nD τ) mOut fullShare (out2_6 xAdj xRows xAll xWs xWn xB)) -∗ K ⟨⟩))
      ⊢ wp frame (wpE (defs₀ (F := F)) Variants.none c none) E
          (cc2__mp_kernel i mAdj hAdj mRows hRows mAll hAll mWs hWs mWn hWn mB hB mOut hOut) K := by
  simp only [cc2__mp_kernel_eq_skeleton]; unfold cc2__mp_kernel_skel
  unfold owns
  iintro ⟨⟨%fAdj, %eAdj, HAdj⟩, ⟨%fRows, %eRows, HRows⟩, ⟨%fAll, %eAll, HAll⟩, ⟨%fWs, %eWs, HWs⟩, ⟨%fWn, %eWn, HWn⟩,
    ⟨%fB, %eB, HB⟩, ⟨%dOut, %fOut, -, HOut⟩, Hk⟩
  subst eAdj eRows eAll eWs eWn eB
  sl_exec
  sl_step
  iapply Hk
  isplitl [HAdj]
  · iexists fAdj; isplitr; · ipureintro; rfl
    iexact HAdj
  isplitl [HRows]
  · iexists fRows; isplitr; · ipureintro; rfl
    iexact HRows
  isplitl [HAll]
  · iexists fAll; isplitr; · ipureintro; rfl
    iexact HAll
  isplitl [HWs]
  · iexists fWs; isplitr; · ipureintro; rfl
    iexact HWs
  isplitl [HWn]
  · iexists fWn; isplitr; · ipureintro; rfl
    iexact HWn
  isplitl [HB]
  · iexists fB; isplitr; · ipureintro; rfl
    iexact HB
  iexists _; isplitr
  swap; · iexact HOut
  ipureintro
  exact View.read_writes_eq_canon _ _ _ (cover2_6 _)

/-! ## The body obligation -/

/-- What the body is handed at point `t`: the invariant, what the core owes, and every window's current buffer — -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: each input's buffer holds its block, so the body's triple applies at the six blocks; the
    invariant and what the core owes are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%dA, HA⟩, ⟨%dR, HR⟩, ⟨%dE, HE⟩, ⟨%dS, HS⟩, ⟨%dN, HN⟩, ⟨%dB, HB⟩, ⟨%dO, HO⟩⟩
  iapply (sound_kernel2 c Set.univ _ _ _ _ _ _ _ _ _ _ _ _ _ _ _ (iblk2 V c 0 t) (iblk2 V c 1 t) (iblk2 V c 2 t)
    (iblk2 V c 3 t) (iblk2 V c 4 t) (iblk2 V c 5 t) _)
  isplitl [HA]; · iexact HA
  isplitl [HR]; · iexact HR
  isplitl [HE]; · iexact HE
  isplitl [HS]; · iexact HS
  isplitl [HN]; · iexact HN
  isplitl [HB]; · iexact HB
  isplitl [HO]; · iexists _; iexact HO
  iintro ⟨HA, HR, HE, HS, HN, HB, HO⟩
  isplitl [HΦ]; · iexact HΦ
  isplitl [Ho]; · iexact Ho
  isplitl [HA]; · iexact HA
  isplitl [HR]; · iexact HR
  isplitl [HE]; · iexact HE
  isplitl [HS]; · iexact HS
  isplitl [HN]; · iexact HN
  isplitl [HB]; · iexact HB
  iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Mp2

end
-- ==== Proof.KI.Mp3.lean ====
/-
  The second message-passing layer (the fourth pallas_call): one grid axis of 8 row blocks; at a point the body reads
  a 512 x 4096 block of adjacency rows, the matching 512 rows of the embeddings, the embeddings whole, the two
  256 x 256 weights and the bias, and stores  max(rows·W_self + (adj_rows·embeddings)·W_neigh + b, 0)  whole.
  Here: the output block as a function of the input blocks, the body's triple, the region's proof data (the two
  windows on the embeddings' array each hold half of it) and its body obligation, at any float instance.
-/
import proofs.«109248_j70342974374329_1_alg».proof.Proof.Gen.KernelIdeal.Launch
import proofs.«109248_j70342974374329_1_alg».proof.Proof.Gen.KernelIdeal.Skeleton
import proofs.«109248_j70342974374329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mp3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rAdj : Rect S512x4096 := Rect.unit (s := S512x4096) ![0, 0] S512x4096.size inb_S512x4096_S512x4096_0_0
abbrev rRows : Rect S512x256 := Rect.unit (s := S512x256) ![0, 0] S512x256.size inb_S512x256_S512x256_0_0
abbrev rAll : Rect S4096x256 := Rect.unit (s := S4096x256) ![0, 0] S4096x256.size inb_S4096x256_S4096x256_0_0
abbrev rW : Rect S256x256 := Rect.unit (s := S256x256) ![0, 0] S256x256.size inb_S256x256_S256x256_0_0
abbrev rBias : Rect S256 := Rect.unit (s := S256) ![0] S256.size inb_S256_S256_0

/-- The output block after the body, from the six input blocks (in window order: adjacency rows, embedding rows,
    all embeddings, W_self, W_neigh, bias): the one store's payload over the loads. -/
def out3_6 (x0 : Vec F S512x4096 .bf16) (x1 : Vec F S512x256 .f32) (x2 : Vec F S4096x256 .f32) (x3 : Vec F S256x256 .f32)
    (x4 : Vec F S256x256 .f32) (x5 : Vec F S256 .f32) : Vec F S512x256 .f32 :=
  View.canon [⟨rRows, k3_pay1 (View.ld x0 rAdj) (View.ld x2 rAll) (View.ld x1 rRows) (View.ld x3 rW) (View.ld x4 rW) (View.ld x5 rBias)⟩]

/-- The region's proof data on core `c`. Windows 1 and 2 read one array: each holds half of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-! ## What the body leaves in, and finds in, the input windows' buffers

For each of the six input windows, four facts in this order: the body leaves the buffer at the window's block; that
block is what the window's transfers move of it; it is also what a fetch at the point puts in the buffer; so the
buffer holds the block wherever the body runs — at a point that fetches the window by the fetch, and at a point that
does not because the block index has not moved since the last fetch and the body left the block in place. None of this
reads the share a window holds of its array. -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem keep2_0 (c : Dev nD) (t : Fin cfg3.N) :
    (cfg3.win 0).cut (cfg3.grid.coords t) ((dat3 V c).after 0 t) = (dat3 V c).blockOf 0 t := by
  rw [after3_0]; unfold Dat.blockOf iblk3; rw [A_eq3]
theorem fetched2_0 (c : Dev nD) (t : Fin cfg3.N) (d) : (dat3 V c).fetched 0 t d = iblk3 V c 0 t := by
  unfold Dat.fetched Dat.blockOf iblk3; rw [A_eq3]; rfl
theorem before3_0 (c : Dev nD) (t : Fin cfg3.N) (d) : (dat3 V c).before 0 t d = iblk3 V c 0 t :=
  ((dat3 V c).before_in_eq_fetched 0 rfl (fun _ => rfl) (fun _ _ _ => rfl) (keep2_0 V c) t d).trans (fetched2_0 V c t d)

theorem keep2_1 (c : Dev nD) (t : Fin cfg3.N) :
    (cfg3.win 1).cut (cfg3.grid.coords t) ((dat3 V c).after 1 t) = (dat3 V c).blockOf 1 t := by
  rw [after3_1]; unfold Dat.blockOf iblk3; rw [A_eq3]
theorem fetched2_1 (c : Dev nD) (t : Fin cfg3.N) (d) : (dat3 V c).fetched 1 t d = iblk3 V c 1 t := by
  unfold Dat.fetched Dat.blockOf iblk3; rw [A_eq3]; rfl
theorem before3_1 (c : Dev nD) (t : Fin cfg3.N) (d) : (dat3 V c).before 1 t d = iblk3 V c 1 t :=
  ((dat3 V c).before_in_eq_fetched 1 rfl (fun _ => rfl) (fun _ _ _ => rfl) (keep2_1 V c) t d).trans (fetched2_1 V c t d)

theorem keep2_2 (c : Dev nD) (t : Fin cfg3.N) :
    (cfg3.win 2).cut (cfg3.grid.coords t) ((dat3 V c).after 2 t) = (dat3 V c).blockOf 2 t := by
  rw [after3_2]; unfold Dat.blockOf iblk3; rw [A_eq3]
theorem fetched2_2 (c : Dev nD) (t : Fin cfg3.N) (d) : (dat3 V c).fetched 2 t d = iblk3 V c 2 t := by
  unfold Dat.fetched Dat.blockOf iblk3; rw [A_eq3]; rfl
theorem before3_2 (c : Dev nD) (t : Fin cfg3.N) (d) : (dat3 V c).before 2 t d = iblk3 V c 2 t :=
  ((dat3 V c).before_in_eq_fetched 2 rfl (fun _ => rfl) (fun _ _ _ => rfl) (keep2_2 V c) t d).trans (fetched2_2 V c t d)

theorem keep2_3 (c : Dev nD) (t : Fin cfg3.N) :
    (cfg3.win 3).cut (cfg3.grid.coords t) ((dat3 V c).after 3 t) = (dat3 V c).blockOf 3 t := by
  rw [after3_3]; unfold Dat.blockOf iblk3; rw [A_eq3]
theorem fetched2_3 (c : Dev nD) (t : Fin cfg3.N) (d) : (dat3 V c).fetched 3 t d = iblk3 V c 3 t := by
  unfold Dat.fetched Dat.blockOf iblk3; rw [A_eq3]; rfl
theorem before3_3 (c : Dev nD) (t : Fin cfg3.N) (d) : (dat3 V c).before 3 t d = iblk3 V c 3 t :=
  ((dat3 V c).before_in_eq_fetched 3 rfl (fun _ => rfl) (fun _ _ _ => rfl) (keep2_3 V c) t d).trans (fetched2_3 V c t d)

theorem keep2_4 (c : Dev nD) (t : Fin cfg3.N) :
    (cfg3.win 4).cut (cfg3.grid.coords t) ((dat3 V c).after 4 t) = (dat3 V c).blockOf 4 t := by
  rw [after3_4]; unfold Dat.blockOf iblk3; rw [A_eq3]
theorem fetched2_4 (c : Dev nD) (t : Fin cfg3.N) (d) : (dat3 V c).fetched 4 t d = iblk3 V c 4 t := by
  unfold Dat.fetched Dat.blockOf iblk3; rw [A_eq3]; rfl
theorem before3_4 (c : Dev nD) (t : Fin cfg3.N) (d) : (dat3 V c).before 4 t d = iblk3 V c 4 t :=
  ((dat3 V c).before_in_eq_fetched 4 rfl (fun _ => rfl) (fun _ _ _ => rfl) (keep2_4 V c) t d).trans (fetched2_4 V c t d)

theorem keep2_5 (c : Dev nD) (t : Fin cfg3.N) :
    (cfg3.win 5).cut (cfg3.grid.coords t) ((dat3 V c).after 5 t) = (dat3 V c).blockOf 5 t := by
  rw [after3_5]; unfold Dat.blockOf iblk3; rw [A_eq3]
theorem fetched2_5 (c : Dev nD) (t : Fin cfg3.N) (d) : (dat3 V c).fetched 5 t d = iblk3 V c 5 t := by
  unfold Dat.fetched Dat.blockOf iblk3; rw [A_eq3]; rfl
theorem before3_5 (c : Dev nD) (t : Fin cfg3.N) (d) : (dat3 V c).before 5 t d = iblk3 V c 5 t :=
  ((dat3 V c).before_in_eq_fetched 5 rfl (fun _ => rfl) (fun _ _ _ => rfl) (keep2_5 V c) t d).trans (fetched2_5 V c t d)

/-! ## The body's triple -/

/-- The body's one store fills the output buffer. -/
theorem cover3_6 (p : Vec F S512x256 .f32) (y : S512x256.Idx) :
    ∃ pc ∈ ([⟨rRows, p⟩] : List (View.Piece (Elt F) S512x256 .f32)), y ∈ pc.1.set :=
  View.cover_of_tiled [⟨rRows, p⟩] S512x256.size (by rfl) y

set_option maxHeartbeats 1000000 in
/-- The body on whole staging memrefs — the six inputs' at read contents, the output's at anything — runs to the
    continuation with the inputs' as they were and the output's at the store's payload of the six loads. -/
theorem sound_kernel3 (c : Dev nD) (E : Set ℕ) (i : grid3.Coords)
    (mAdj : Memref sig .tc .vmem S512x4096 .bf16) (hAdj : mAdj.IsWhole) (mRows : Memref sig .tc .vmem S512x256 .f32) (hRows : mRows.IsWhole)
    (mAll : Memref sig .tc .vmem S4096x256 .f32) (hAll : mAll.IsWhole) (mWs : Memref sig .tc .vmem S256x256 .f32) (hWs : mWs.IsWhole)
    (mWn : Memref sig .tc .vmem S256x256 .f32) (hWn : mWn.IsWhole) (mB : Memref sig .tc .vmem S256 .f32) (hB : mB.IsWhole)
    (mOut : Memref sig .tc .vmem S512x256 .f32) (hOut : mOut.IsWhole)
    (xAdj : Vec F S512x4096 .bf16) (xRows : Vec F S512x256 .f32) (xAll : Vec F S4096x256 .f32) (xWs : Vec F S256x256 .f32)
    (xWn : Vec F S256x256 .f32) (xB : Vec F S256 .f32) (K : PUnit → sProp 𝕄) :
    iprop(owns (c : Thread nD τ) mAdj fullShare xAdj ∗ owns (c : Thread nD τ) mRows fullShare xRows
        ∗ owns (c : Thread nD τ) mAll fullShare xAll ∗ owns (c : Thread nD τ) mWs fullShare xWs
        ∗ owns (c : Thread nD τ) mWn fullShare xWn ∗ owns (c : Thread nD τ) mB fullShare xB
        ∗ (∃ d, owns (c : Thread nD τ) mOut fullShare d)
        ∗ (iprop(owns (c : Thread nD τ) mAdj fullShare xAdj ∗ owns (c : Thread nD τ) mRows fullShare xRows
            ∗ owns (c : Thread nD τ) mAll fullShare xAll ∗ owns (c : Thread nD τ) mWs fullShare xWs
            ∗ owns (c : Thread nD τ) mWn fullShare xWn ∗ owns (c : Thread nD τ) mB fullShare xB
            ∗ owns (c : Thread nD τ) mOut fullShare (out3_6 xAdj xRows xAll xWs xWn xB)) -∗ K ⟨⟩))
      ⊢ wp frame (wpE (defs₀ (F := F)) Variants.none c none) E
          (cc3__mp_kernel i mAdj hAdj mRows hRows mAll hAll mWs hWs mWn hWn mB hB mOut hOut) K := by
  simp only [cc3__mp_kernel_eq_skeleton]; unfold cc3__mp_kernel_skel
  unfold owns
  iintro ⟨⟨%fAdj, %eAdj, HAdj⟩, ⟨%fRows, %eRows, HRows⟩, ⟨%fAll, %eAll, HAll⟩, ⟨%fWs, %eWs, HWs⟩, ⟨%fWn, %eWn, HWn⟩,
    ⟨%fB, %eB, HB⟩, ⟨%dOut, %fOut, -, HOut⟩, Hk⟩
  subst eAdj eRows eAll eWs eWn eB
  sl_exec
  sl_step
  iapply Hk
  isplitl [HAdj]
  · iexists fAdj; isplitr; · ipureintro; rfl
    iexact HAdj
  isplitl [HRows]
  · iexists fRows; isplitr; · ipureintro; rfl
    iexact HRows
  isplitl [HAll]
  · iexists fAll; isplitr; · ipureintro; rfl
    iexact HAll
  isplitl [HWs]
  · iexists fWs; isplitr; · ipureintro; rfl
    iexact HWs
  isplitl [HWn]
  · iexists fWn; isplitr; · ipureintro; rfl
    iexact HWn
  isplitl [HB]
  · iexists fB; isplitr; · ipureintro; rfl
    iexact HB
  iexists _; isplitr
  swap; · iexact HOut
  ipureintro
  exact View.read_writes_eq_canon _ _ _ (cover3_6 _)

/-! ## The body obligation -/

/-- What the body is handed at point `t`: the invariant, what the core owes, and every window's current buffer — -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: each input's buffer holds its block, so the body's triple applies at the six blocks; the
    invariant and what the core owes are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%dA, HA⟩, ⟨%dR, HR⟩, ⟨%dE, HE⟩, ⟨%dS, HS⟩, ⟨%dN, HN⟩, ⟨%dB, HB⟩, ⟨%dO, HO⟩⟩
  iapply (sound_kernel3 c Set.univ _ _ _ _ _ _ _ _ _ _ _ _ _ _ _ (iblk3 V c 0 t) (iblk3 V c 1 t) (iblk3 V c 2 t)
    (iblk3 V c 3 t) (iblk3 V c 4 t) (iblk3 V c 5 t) _)
  isplitl [HA]; · iexact HA
  isplitl [HR]; · iexact HR
  isplitl [HE]; · iexact HE
  isplitl [HS]; · iexact HS
  isplitl [HN]; · iexact HN
  isplitl [HB]; · iexact HB
  isplitl [HO]; · iexists _; iexact HO
  iintro ⟨HA, HR, HE, HS, HN, HB, HO⟩
  isplitl [HΦ]; · iexact HΦ
  isplitl [Ho]; · iexact Ho
  isplitl [HA]; · iexact HA
  isplitl [HR]; · iexact HR
  isplitl [HE]; · iexact HE
  isplitl [HS]; · iexact HS
  isplitl [HN]; · iexact HN
  isplitl [HB]; · iexact HB
  iexact HO

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Mp3

end
-- ==== Proof.KI.Shared0.lean ====
/-
  Entering and leaving the adjacency region, whose windows 0 and 1 read one array (the membership matrix). A core
  holds each unscoped buffer whole. At entry the membership matrix's full share is split into its left and right
  halves, one per window, both at the same contents; the output's buffer goes to window 2 whole. At exit every
  window holds its array at the contents the exit valuation gives that array, so the two halves carry one function
  and join into the full share again.
-/
import proofs.«109248_j70342974374329_1_alg».proof.Proof.Gen.KernelIdeal.Launch
import proofs.«109248_j70342974374329_1_alg».proof.Proof.Gen.KernelIdeal.Skeleton
import proofs.«109248_j70342974374329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109248_j70342974374329_1_alg».proof.Proof.KI.Adj
set_option maxRecDepth 16384

noncomputable section

namespace Cert.KernelIdeal.Shared0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The adjacency region's unscoped buffers: the distinct buffers behind its windows' arrays and the rest. -/
theorem split0 (c : Dev nD) (V : (b : Ref sig .tc) → Buf (Elt F) ((c : Thread nD τ).loc b)) :
    (unscopedBufs c V : sProp 𝕄) = iprop((Pipeline.arrBufs spec0 c V : sProp 𝕄) ∗ Pipeline.unscopedRest spec0 c V) :=
  Pipeline.unscopedBufs_split₀ cfgs (0 : Fin 4) winFacts₀0.arr_unscoped c V

/-- A window's array is a whole buffer: its points-to is the buffer's, over every element. -/
theorem arr_pt0 (c : Dev nD) (w : Fin cfg0.W) (q : PosShare TreeShare) (X : Buf (Elt F) ((cfg0.win w).arr.view.loc (c : Thread nD τ))) :
    ((cfg0.win w).arr.view.loc (c : Thread nD τ) ↦[(cfg0.win w).arr.view.set]{q} X : sProp 𝕄)
      = (((c : Thread nD τ).loc (Pipeline.arrRef spec0 w)) ↦{q} X) := by
  rw [(arr_whole0 w).set_eq_univ]

/-- The shares the windows hold: the two input windows a half each, the output the whole. -/
theorem share0_fst (c : Dev nD) : (Adj.dat0 V c).share 0 = fullShare.left := by
  unfold Dat.share; dsimp only [Adj.dat0]; rfl
theorem share0_snd (c : Dev nD) : (Adj.dat0 V c).share 1 = fullShare.right := by
  unfold Dat.share; dsimp only [Adj.dat0]; rfl
theorem share0_out (c : Dev nD) : (Adj.dat0 V c).share 2 = fullShare := by
  unfold Dat.share; dsimp only [Adj.dat0]; rfl

/-- Before the first point a window's array is as the region found it. -/
theorem arrAt0_zero (c : Dev nD) (w : Fin cfg0.W) : (Adj.dat0 V c).arrAt w 0 = V c (Pipeline.arrRef spec0 w) :=
  (show (Adj.dat0 V c).arrAt w 0 = (Adj.dat0 V c).A w from rfl).trans (Adj.A_eq0 V c w)

/-- ENTRY of the adjacency region: the unscoped buffers at `V c` are the region's arrays at their entry contents
    (the membership matrix halved between windows 0 and 1) and the other unscoped buffers. -/
theorem arrays_of_unscopedBufs0 (c : Dev nD) :
    (unscopedBufs c (V c) : sProp 𝕄)
      ⊢ iprop((Adj.dat0 V c).arrays ((Adj.dat0 V c).arrAt · 0) ∗ Pipeline.unscopedRest spec0 c (V c)) := by
  rw [split0 c (V c)]
  refine sep_mono ?_ .rfl
  -- the distinct buffers are the membership matrix and the output; the windows one by one, each on a whole buffer
  unfold Pipeline.arrBufs Dat.arrays
  rw [show Finset.univ.image (Pipeline.arrRef spec0) = {main_v29, main_v30} from by decide,
    bigSep_insert (by decide), bigSep_singleton, bigSep_W0]
  rw [arr_pt0, arr_pt0, arr_pt0, share0_fst, share0_snd, share0_out]
  beta_reduce
  rw [arrAt0_zero, arrAt0_zero, arrAt0_zero]
  -- the membership matrix's full share is its two halves, at the same contents
  refine (sep_mono (pointsTo_share (PosShare.mem_left_op_right fullShare)).1 .rfl).trans ?_
  exact sep_assoc.1

/-- EXIT of the adjacency region: its arrays at their final contents and the other unscoped buffers are the unscoped
    buffers at any `V'` that has the arrays' final contents and agrees with `V c` elsewhere. -/
theorem unscopedBufs_of_arrays0 (c : Dev nD) (V' : (b : Ref sig .tc) → Buf (Elt F) ((c : Thread nD τ).loc b))
    (hF : ∀ w, (Adj.dat0 V c).arrAt w cfg0.N = V' (Pipeline.arrRef spec0 w))
    (hrest : ∀ b, b ∉ Finset.univ.image (Pipeline.arrRef spec0) → V' b = V c b) :
    iprop((Adj.dat0 V c).arrays ((Adj.dat0 V c).arrAt · cfg0.N) ∗ Pipeline.unscopedRest spec0 c (V c))
      ⊢ (unscopedBufs c V' : sProp 𝕄) := by
  rw [split0 c V']
  refine sep_mono ?_ (Entails.of_eq ?_)
  · unfold Pipeline.arrBufs Dat.arrays
    rw [show Finset.univ.image (Pipeline.arrRef spec0) = {main_v29, main_v30} from by decide,
      bigSep_insert (by decide), bigSep_singleton, bigSep_W0]
    rw [arr_pt0, arr_pt0, arr_pt0, share0_fst, share0_snd, share0_out]
    beta_reduce
    rw [hF 0, hF 1, hF 2]
    -- both halves hold the membership matrix at the one function `V'` gives it: they join
    refine sep_assoc.2.trans ?_
    exact sep_mono (pointsTo_share (PosShare.mem_left_op_right fullShare)).2 .rfl
  · unfold Pipeline.unscopedRest
    exact bigSep_congr fun b hb => by rw [hrest b (Finset.mem_sdiff.mp hb).2]

end Cert.KernelIdeal.Shared0

end
-- ==== Proof.KI.Shared2.lean ====
/-
  Entering and leaving the first message-passing region, whose windows 1 and 2 read one array (the embeddings: a block
  of rows through window 1, the whole through window 2). A core holds each unscoped buffer whole. At entry the
  embeddings' full share is split into its left and right halves, one per window, both at the same contents; every
  other array goes to its one window whole. At exit every window holds its array at the contents the exit valuation
  gives that array, so the two halves carry one function and join into the full share again.
-/
import proofs.«109248_j70342974374329_1_alg».proof.Proof.Gen.KernelIdeal.Launch
import proofs.«109248_j70342974374329_1_alg».proof.Proof.Gen.KernelIdeal.Skeleton
import proofs.«109248_j70342974374329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109248_j70342974374329_1_alg».proof.Proof.KI.Mp2
set_option maxRecDepth 16384

noncomputable section

namespace Cert.KernelIdeal.Shared2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The region's unscoped buffers: the distinct buffers behind its windows' arrays and the rest. -/
theorem split2 (c : Dev nD) (V : (b : Ref sig .tc) → Buf (Elt F) ((c : Thread nD τ).loc b)) :
    (unscopedBufs c V : sProp 𝕄) = iprop((Pipeline.arrBufs spec2 c V : sProp 𝕄) ∗ Pipeline.unscopedRest spec2 c V) :=
  Pipeline.unscopedBufs_split₀ (fun _ : Fin 4 => cfg2) (0 : Fin 4) winFacts₀2.arr_unscoped c V

/-- A window's array is a whole buffer: its points-to is the buffer's, over every element. -/
theorem arr_pt2 (c : Dev nD) (w : Fin cfg2.W) (q : PosShare TreeShare) (X : Buf (Elt F) ((cfg2.win w).arr.view.loc (c : Thread nD τ))) :
    ((cfg2.win w).arr.view.loc (c : Thread nD τ) ↦[(cfg2.win w).arr.view.set]{q} X : sProp 𝕄)
      = (((c : Thread nD τ).loc (Pipeline.arrRef spec2 w)) ↦{q} X) := by
  rw [(arr_whole2 w).set_eq_univ]

/-- The shares the windows hold: the two windows on the embeddings a half each, every other window the whole. -/
theorem share2_adj (c : Dev nD) : (Mp2.dat2 V c).share 0 = fullShare := by
  unfold Dat.share; dsimp only [Mp2.dat2]; rfl
theorem share2_rows (c : Dev nD) : (Mp2.dat2 V c).share 1 = fullShare.left := by
  unfold Dat.share; dsimp only [Mp2.dat2]; rfl
theorem share2_whole (c : Dev nD) : (Mp2.dat2 V c).share 2 = fullShare.right := by
  unfold Dat.share; dsimp only [Mp2.dat2]; rfl
theorem share2_wself (c : Dev nD) : (Mp2.dat2 V c).share 3 = fullShare := by
  unfold Dat.share; dsimp only [Mp2.dat2]; rfl
theorem share2_wneigh (c : Dev nD) : (Mp2.dat2 V c).share 4 = fullShare := by
  unfold Dat.share; dsimp only [Mp2.dat2]; rfl
theorem share2_bias (c : Dev nD) : (Mp2.dat2 V c).share 5 = fullShare := by
  unfold Dat.share; dsimp only [Mp2.dat2]; rfl
theorem share2_res (c : Dev nD) : (Mp2.dat2 V c).share 6 = fullShare := by
  unfold Dat.share; dsimp only [Mp2.dat2]; rfl

/-- Before the first point a window's array is as the region found it. -/
theorem arrAt2_zero (c : Dev nD) (w : Fin cfg2.W) : (Mp2.dat2 V c).arrAt w 0 = V c (Pipeline.arrRef spec2 w) :=
  (show (Mp2.dat2 V c).arrAt w 0 = (Mp2.dat2 V c).A w from rfl).trans (Mp2.A_eq2 V c w)

/-- One window at entry: its array's buffer at the window's share and the entry contents is the window's points-to. -/
theorem entry_win2 (c : Dev nD) (w : Fin cfg2.W) (q : PosShare TreeShare) (hq : (Mp2.dat2 V c).share w = q) :
    ((((c : Thread nD τ).loc (Pipeline.arrRef spec2 w)) ↦{q} V c (Pipeline.arrRef spec2 w)) : sProp 𝕄)
      ⊢ ((cfg2.win w).arr.view.loc (c : Thread nD τ) ↦[(cfg2.win w).arr.view.set]{(Mp2.dat2 V c).share w} (Mp2.dat2 V c).arrAt w 0) := by
  subst hq
  rw [arr_pt2, arrAt2_zero]

/-- One window at exit: its points-to at contents that the exit valuation gives its array is that array's buffer at
    the window's share and the exit valuation. -/
theorem exit_win2 (c : Dev nD) (V' : (b : Ref sig .tc) → Buf (Elt F) ((c : Thread nD τ).loc b)) (w : Fin cfg2.W)
    (q : PosShare TreeShare) (hq : (Mp2.dat2 V c).share w = q)
    (hF : (Mp2.dat2 V c).arrAt w cfg2.N = V' (Pipeline.arrRef spec2 w)) :
    ((cfg2.win w).arr.view.loc (c : Thread nD τ) ↦[(cfg2.win w).arr.view.set]{(Mp2.dat2 V c).share w} (Mp2.dat2 V c).arrAt w cfg2.N : sProp 𝕄)
      ⊢ (((c : Thread nD τ).loc (Pipeline.arrRef spec2 w)) ↦{q} V' (Pipeline.arrRef spec2 w)) := by
  subst hq
  rw [arr_pt2, hF]

/-- ENTRY of the first message-passing region (the embeddings halved between windows 1 and 2). -/
theorem arrays_of_unscopedBufs2 (c : Dev nD) :
    (unscopedBufs c (V c) : sProp 𝕄)
      ⊢ iprop((Mp2.dat2 V c).arrays ((Mp2.dat2 V c).arrAt · 0) ∗ Pipeline.unscopedRest spec2 c (V c)) := by
  rw [split2 c (V c)]
  refine sep_mono ?_ .rfl
  -- the six distinct buffers behind the seven windows; the windows one by one
  unfold Pipeline.arrBufs Dat.arrays
  rw [show Finset.univ.image (Pipeline.arrRef spec2) = {main_v30, main_v31, main_v33, main_v35, main_v37, main_v38} from by decide,
    bigSep_insert (by decide), bigSep_insert (by decide), bigSep_insert (by decide), bigSep_insert (by decide),
    bigSep_insert (by decide), bigSep_singleton, bigSep_W2]
  refine BIClass.sep_mono (entry_win2 V c 0 _ (share2_adj V c)) ?_
  -- the embeddings' full share is its two halves, at the same contents
  refine (BIClass.sep_mono (pointsTo_share (PosShare.mem_left_op_right fullShare)).1 .rfl).trans (sep_assoc.1.trans ?_)
  exact BIClass.sep_mono (entry_win2 V c 1 _ (share2_rows V c)) (BIClass.sep_mono (entry_win2 V c 2 _ (share2_whole V c))
    (BIClass.sep_mono (entry_win2 V c 3 _ (share2_wself V c)) (BIClass.sep_mono (entry_win2 V c 4 _ (share2_wneigh V c))
      (BIClass.sep_mono (entry_win2 V c 5 _ (share2_bias V c)) (entry_win2 V c 6 _ (share2_res V c))))))

/-- EXIT of the first message-passing region. -/
theorem unscopedBufs_of_arrays2 (c : Dev nD) (V' : (b : Ref sig .tc) → Buf (Elt F) ((c : Thread nD τ).loc b))
    (hF : ∀ w, (Mp2.dat2 V c).arrAt w cfg2.N = V' (Pipeline.arrRef spec2 w))
    (hrest : ∀ b, b ∉ Finset.univ.image (Pipeline.arrRef spec2) → V' b = V c b) :
    iprop((Mp2.dat2 V c).arrays ((Mp2.dat2 V c).arrAt · cfg2.N) ∗ Pipeline.unscopedRest spec2 c (V c))
      ⊢ (unscopedBufs c V' : sProp 𝕄) := by
  rw [split2 c V']
  refine sep_mono ?_ (Entails.of_eq ?_)
  · unfold Pipeline.arrBufs Dat.arrays
    rw [show Finset.univ.image (Pipeline.arrRef spec2) = {main_v30, main_v31, main_v33, main_v35, main_v37, main_v38} from by decide,
      bigSep_insert (by decide), bigSep_insert (by decide), bigSep_insert (by decide), bigSep_insert (by decide),
      bigSep_insert (by decide), bigSep_singleton, bigSep_W2]
    refine BIClass.sep_mono (exit_win2 V c V' 0 _ (share2_adj V c) (hF 0)) ?_
    -- both halves hold the embeddings at the one function `V'` gives them: they join
    refine BIBase.Entails.trans ?_ (sep_assoc.2.trans (BIClass.sep_mono (pointsTo_share (PosShare.mem_left_op_right fullShare)).2 .rfl))
    exact BIClass.sep_mono (exit_win2 V c V' 1 _ (share2_rows V c) (hF 1)) (BIClass.sep_mono (exit_win2 V c V' 2 _ (share2_whole V c) (hF 2))
      (BIClass.sep_mono (exit_win2 V c V' 3 _ (share2_wself V c) (hF 3)) (BIClass.sep_mono (exit_win2 V c V' 4 _ (share2_wneigh V c) (hF 4))
        (BIClass.sep_mono (exit_win2 V c V' 5 _ (share2_bias V c) (hF 5)) (exit_win2 V c V' 6 _ (share2_res V c) (hF 6))))))
  · unfold Pipeline.unscopedRest
    exact bigSep_congr fun b hb => by rw [hrest b (Finset.mem_sdiff.mp hb).2]

end Cert.KernelIdeal.Shared2

end
-- ==== Proof.KI.Shared3.lean ====
/-
  Entering and leaving the second message-passing region, whose windows 1 and 2 read one array (the embeddings: a block
  of rows through window 1, the whole through window 2). A core holds each unscoped buffer whole. At entry the
  embeddings' full share is split into its left and right halves, one per window, both at the same contents; every
  other array goes to its one window whole. At exit every window holds its array at the contents the exit valuation
  gives that array, so the two halves carry one function and join into the full share again.
-/
import proofs.«109248_j70342974374329_1_alg».proof.Proof.Gen.KernelIdeal.Launch
import proofs.«109248_j70342974374329_1_alg».proof.Proof.Gen.KernelIdeal.Skeleton
import proofs.«109248_j70342974374329_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109248_j70342974374329_1_alg».proof.Proof.KI.Mp3
set_option maxRecDepth 16384

noncomputable section

namespace Cert.KernelIdeal.Shared3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The region's unscoped buffers: the distinct buffers behind its windows' arrays and the rest. -/
theorem split2 (c : Dev nD) (V : (b : Ref sig .tc) → Buf (Elt F) ((c : Thread nD τ).loc b)) :
    (unscopedBufs c V : sProp 𝕄) = iprop((Pipeline.arrBufs spec3 c V : sProp 𝕄) ∗ Pipeline.unscopedRest spec3 c V) :=
  Pipeline.unscopedBufs_split₀ (fun _ : Fin 4 => cfg3) (0 : Fin 4) winFacts₀3.arr_unscoped c V

/-- A window's array is a whole buffer: its points-to is the buffer's, over every element. -/
theorem arr_pt2 (c : Dev nD) (w : Fin cfg3.W) (q : PosShare TreeShare) (X : Buf (Elt F) ((cfg3.win w).arr.view.loc (c : Thread nD τ))) :
    ((cfg3.win w).arr.view.loc (c : Thread nD τ) ↦[(cfg3.win w).arr.view.set]{q} X : sProp 𝕄)
      = (((c : Thread nD τ).loc (Pipeline.arrRef spec3 w)) ↦{q} X) := by
  rw [(arr_whole3 w).set_eq_univ]

/-- The shares the windows hold: the two windows on the embeddings a half each, every other window the whole. -/
theorem share2_adj (c : Dev nD) : (Mp3.dat3 V c).share 0 = fullShare := by
  unfold Dat.share; dsimp only [Mp3.dat3]; rfl
theorem share2_rows (c : Dev nD) : (Mp3.dat3 V c).share 1 = fullShare.left := by
  unfold Dat.share; dsimp only [Mp3.dat3]; rfl
theorem share2_whole (c : Dev nD) : (Mp3.dat3 V c).share 2 = fullShare.right := by
  unfold Dat.share; dsimp only [Mp3.dat3]; rfl
theorem share2_wself (c : Dev nD) : (Mp3.dat3 V c).share 3 = fullShare := by
  unfold Dat.share; dsimp only [Mp3.dat3]; rfl
theorem share2_wneigh (c : Dev nD) : (Mp3.dat3 V c).share 4 = fullShare := by
  unfold Dat.share; dsimp only [Mp3.dat3]; rfl
theorem share2_bias (c : Dev nD) : (Mp3.dat3 V c).share 5 = fullShare := by
  unfold Dat.share; dsimp only [Mp3.dat3]; rfl
theorem share2_res (c : Dev nD) : (Mp3.dat3 V c).share 6 = fullShare := by
  unfold Dat.share; dsimp only [Mp3.dat3]; rfl

/-- Before the first point a window's array is as the region found it. -/
theorem arrAt2_zero (c : Dev nD) (w : Fin cfg3.W) : (Mp3.dat3 V c).arrAt w 0 = V c (Pipeline.arrRef spec3 w) :=
  (show (Mp3.dat3 V c).arrAt w 0 = (Mp3.dat3 V c).A w from rfl).trans (Mp3.A_eq3 V c w)

/-- One window at entry: its array's buffer at the window's share and the entry contents is the window's points-to. -/
theorem entry_win2 (c : Dev nD) (w : Fin cfg3.W) (q : PosShare TreeShare) (hq : (Mp3.dat3 V c).share w = q) :
    ((((c : Thread nD τ).loc (Pipeline.arrRef spec3 w)) ↦{q} V c (Pipeline.arrRef spec3 w)) : sProp 𝕄)
      ⊢ ((cfg3.win w).arr.view.loc (c : Thread nD τ) ↦[(cfg3.win w).arr.view.set]{(Mp3.dat3 V c).share w} (Mp3.dat3 V c).arrAt w 0) := by
  subst hq
  rw [arr_pt2, arrAt2_zero]

/-- One window at exit: its points-to at contents that the exit valuation gives its array is that array's buffer at
    the window's share and the exit valuation. -/
theorem exit_win2 (c : Dev nD) (V' : (b : Ref sig .tc) → Buf (Elt F) ((c : Thread nD τ).loc b)) (w : Fin cfg3.W)
    (q : PosShare TreeShare) (hq : (Mp3.dat3 V c).share w = q)
    (hF : (Mp3.dat3 V c).arrAt w cfg3.N = V' (Pipeline.arrRef spec3 w)) :
    ((cfg3.win w).arr.view.loc (c : Thread nD τ) ↦[(cfg3.win w).arr.view.set]{(Mp3.dat3 V c).share w} (Mp3.dat3 V c).arrAt w cfg3.N : sProp 𝕄)
      ⊢ (((c : Thread nD τ).loc (Pipeline.arrRef spec3 w)) ↦{q} V' (Pipeline.arrRef spec3 w)) := by
  subst hq
  rw [arr_pt2, hF]

/-- ENTRY of the second message-passing region (the embeddings halved between windows 1 and 2). -/
theorem arrays_of_unscopedBufs3 (c : Dev nD) :
    (unscopedBufs c (V c) : sProp 𝕄)
      ⊢ iprop((Mp3.dat3 V c).arrays ((Mp3.dat3 V c).arrAt · 0) ∗ Pipeline.unscopedRest spec3 c (V c)) := by
  rw [split2 c (V c)]
  refine sep_mono ?_ .rfl
  -- the six distinct buffers behind the seven windows; the windows one by one
  unfold Pipeline.arrBufs Dat.arrays
  rw [show Finset.univ.image (Pipeline.arrRef spec3) = {main_v30, main_v38, main_v40, main_v42, main_v44, main_v45} from by decide,
    bigSep_insert (by decide), bigSep_insert (by decide), bigSep_insert (by decide), bigSep_insert (by decide),
    bigSep_insert (by decide), bigSep_singleton, bigSep_W3]
  refine BIClass.sep_mono (entry_win2 V c 0 _ (share2_adj V c)) ?_
  -- the embeddings' full share is its two halves, at the same contents
  refine (BIClass.sep_mono (pointsTo_share (PosShare.mem_left_op_right fullShare)).1 .rfl).trans (sep_assoc.1.trans ?_)
  exact BIClass.sep_mono (entry_win2 V c 1 _ (share2_rows V c)) (BIClass.sep_mono (entry_win2 V c 2 _ (share2_whole V c))
    (BIClass.sep_mono (entry_win2 V c 3 _ (share2_wself V c)) (BIClass.sep_mono (entry_win2 V c 4 _ (share2_wneigh V c))
      (BIClass.sep_mono (entry_win2 V c 5 _ (share2_bias V c)) (entry_win2 V c 6 _ (share2_res V c))))))

/-- EXIT of the second message-passing region. -/
theorem unscopedBufs_of_arrays3 (c : Dev nD) (V' : (b : Ref sig .tc) → Buf (Elt F) ((c : Thread nD τ).loc b))
    (hF : ∀ w, (Mp3.dat3 V c).arrAt w cfg3.N = V' (Pipeline.arrRef spec3 w))
    (hrest : ∀ b, b ∉ Finset.univ.image (Pipeline.arrRef spec3) → V' b = V c b) :
    iprop((Mp3.dat3 V c).arrays ((Mp3.dat3 V c).arrAt · cfg3.N) ∗ Pipeline.unscopedRest spec3 c (V c))
      ⊢ (unscopedBufs c V' : sProp 𝕄) := by
  rw [split2 c V']
  refine sep_mono ?_ (Entails.of_eq ?_)
  · unfold Pipeline.arrBufs Dat.arrays
    rw [show Finset.univ.image (Pipeline.arrRef spec3) = {main_v30, main_v38, main_v40, main_v42, main_v44, main_v45} from by decide,
      bigSep_insert (by decide), bigSep_insert (by decide), bigSep_insert (by decide), bigSep_insert (by decide),
      bigSep_insert (by decide), bigSep_singleton, bigSep_W3]
    refine BIClass.sep_mono (exit_win2 V c V' 0 _ (share2_adj V c) (hF 0)) ?_
    -- both halves hold the embeddings at the one function `V'` gives them: they join
    refine BIBase.Entails.trans ?_ (sep_assoc.2.trans (BIClass.sep_mono (pointsTo_share (PosShare.mem_left_op_right fullShare)).2 .rfl))
    exact BIClass.sep_mono (exit_win2 V c V' 1 _ (share2_rows V c) (hF 1)) (BIClass.sep_mono (exit_win2 V c V' 2 _ (share2_whole V c) (hF 2))
      (BIClass.sep_mono (exit_win2 V c V' 3 _ (share2_wself V c) (hF 3)) (BIClass.sep_mono (exit_win2 V c V' 4 _ (share2_wneigh V c) (hF 4))
        (BIClass.sep_mono (exit_win2 V c V' 5 _ (share2_bias V c) (hF 5)) (exit_win2 V c V' 6 _ (share2_res V c) (hF 6))))))
  · unfold Pipeline.unscopedRest
    exact bigSep_congr fun b hb => by rw [hrest b (Finset.mem_sdiff.mp hb).2]

end Cert.KernelIdeal.Shared3

end
-- ==== Proof.KI.Segs.lean ====
/-
  The program as a chain of items on one core: a stretch of host operations (pooling and the membership matrix),
  the adjacency region, the projection region, a stretch slicing the first layer's weights, the first message-passing
  region, a stretch slicing the second layer's weights, the second message-passing region. Between two items the core
  holds every unscoped buffer whole at a known valuation; a region changes exactly its output array, which it leaves at
  what its write-backs fold to. Here: those valuations, every region's proof data at its entry valuation, each region as
  a segment entered from one valuation and left at the next, and the frame: the program runs to its end, faults
  nowhere and every argument array ends as launched; with it, that the result array ends at the last region's output.
-/
import proofs.«109248_j70342974374329_1_alg».proof.Proof.KI.Adj
import proofs.«109248_j70342974374329_1_alg».proof.Proof.KI.Proj
import proofs.«109248_j70342974374329_1_alg».proof.Proof.KI.Mp2
import proofs.«109248_j70342974374329_1_alg».proof.Proof.KI.Mp3
import proofs.«109248_j70342974374329_1_alg».proof.Proof.KI.Shared0
import proofs.«109248_j70342974374329_1_alg».proof.Proof.KI.Shared2
import proofs.«109248_j70342974374329_1_alg».proof.Proof.KI.Shared3
import proofs.«109248_j70342974374329_1_alg».proof.Proof.KI.RegionsVal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations between the items -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- After the first host stretch: the adjacency region's entry. -/
abbrev W1 : Dev nD → Valuation τ sig (Elt F) := fun c => V1 m c
/-- What the adjacency region leaves in its output array. -/
def o2 (c : Dev nD) : Buf (Elt F) ((c : Thread nD τ).loc main_v30) := (Adj.dat0 (atTc (W1 m)) c).arrAt 2 cfg0.N
/-- After the adjacency region: the projection region's entry. -/
def W2 (c : Dev nD) : Valuation τ sig (Elt F) := Function.update (W1 m c) main_v30 (o2 m c)
/-- What the projection region leaves in its output array. -/
def o3 (c : Dev nD) : Buf (Elt F) ((c : Thread nD τ).loc main_v31) := (Proj.dat1 (atTc (W2 m)) c).arrAt 6 cfg1.N
/-- After the projection region. -/
def W3 (c : Dev nD) : Valuation τ sig (Elt F) := Function.update (W2 m c) main_v31 (o3 m c)
/-- After the first layer's slices: the first message-passing region's entry. -/
def W4 (c : Dev nD) : Valuation τ sig (Elt F) := StableHlo.after hostOps2 (W3 m c)
/-- What the first message-passing region leaves in its output array. -/
def o5 (c : Dev nD) : Buf (Elt F) ((c : Thread nD τ).loc main_v38) := (Mp2.dat2 (atTc (W4 m)) c).arrAt 6 cfg2.N
/-- After the first message-passing region. -/
def W5 (c : Dev nD) : Valuation τ sig (Elt F) := Function.update (W4 m c) main_v38 (o5 m c)
/-- After the second layer's slices: the second message-passing region's entry. -/
def W6 (c : Dev nD) : Valuation τ sig (Elt F) := StableHlo.after hostOps3 (W5 m c)
/-- What the second message-passing region leaves in its output array: the program's result. -/
def o7 (c : Dev nD) : Buf (Elt F) ((c : Thread nD τ).loc main_v45) := (Mp3.dat3 (atTc (W6 m)) c).arrAt 6 cfg3.N
/-- After the second message-passing region: the end. -/
def W7 (c : Dev nD) : Valuation τ sig (Elt F) := Function.update (W6 m c) main_v45 (o7 m c)

/-- The contents the regions leave, as the conditional frame's unknowns: read off the valuations above. -/
def outs : Outs (F := F) := fun J r c =>
  match J with
  | 2 => W2 m c r
  | 3 => W3 m c r
  | 5 => W5 m c r
  | _ => W7 m c r

theorem W2_out (c : Dev nD) : W2 m c main_v30 = o2 m c := Function.update_self ..
theorem W3_out (c : Dev nD) : W3 m c main_v31 = o3 m c := Function.update_self ..
theorem W5_out (c : Dev nD) : W5 m c main_v38 = o5 m c := Function.update_self ..
theorem W7_out (c : Dev nD) : W7 m c main_v45 = o7 m c := Function.update_self ..

theorem W2_of (c : Dev nD) (r : Ref sig .tc) (h : r ≠ main_v30) : W2 m c r = W1 m c r := by
  simp only [W2, Function.update_of_ne (StableHlo.devRef_ne_of_ne h : (Proc.devRef .tc r : DevRef τ sig) ≠ Proc.devRef .tc main_v30)]
theorem W3_of (c : Dev nD) (r : Ref sig .tc) (h : r ≠ main_v31) : W3 m c r = W2 m c r := by
  simp only [W3, Function.update_of_ne (StableHlo.devRef_ne_of_ne h : (Proc.devRef .tc r : DevRef τ sig) ≠ Proc.devRef .tc main_v31)]
theorem W5_of (c : Dev nD) (r : Ref sig .tc) (h : r ≠ main_v38) : W5 m c r = W4 m c r := by
  simp only [W5, Function.update_of_ne (StableHlo.devRef_ne_of_ne h : (Proc.devRef .tc r : DevRef τ sig) ≠ Proc.devRef .tc main_v38)]
theorem W7_of (c : Dev nD) (r : Ref sig .tc) (h : r ≠ main_v45) : W7 m c r = W6 m c r := by
  simp only [W7, Function.update_of_ne (StableHlo.devRef_ne_of_ne h : (Proc.devRef .tc r : DevRef τ sig) ≠ Proc.devRef .tc main_v45)]

/-- The conditional frame's valuations at these unknowns are the valuations above. -/
theorem V2_eq (c : Dev nD) : V2 m (outs m) c = W2 m c := by
  show Function.update (V1 m c) (Proc.devRef .tc main_v30) (W2 m c main_v30) = W2 m c
  rw [W2_out]; rfl
theorem V3_eq (c : Dev nD) : V3 m (outs m) c = W3 m c := by
  show Function.update (V2 m (outs m) c) (Proc.devRef .tc main_v31) (W3 m c main_v31) = W3 m c
  rw [W3_out, V2_eq]; rfl
theorem V4_eq (c : Dev nD) : V4 m (outs m) c = W4 m c := by
  show StableHlo.after hostOps2 (V3 m (outs m) c) = W4 m c
  rw [V3_eq]; rfl
theorem V5_eq (c : Dev nD) : V5 m (outs m) c = W5 m c := by
  show Function.update (V4 m (outs m) c) (Proc.devRef .tc main_v38) (W5 m c main_v38) = W5 m c
  rw [W5_out, V4_eq]; rfl
theorem V6_eq (c : Dev nD) : V6 m (outs m) c = W6 m c := by
  show StableHlo.after hostOps3 (V5 m (outs m) c) = W6 m c
  rw [V5_eq]; rfl
theorem V7_eq (c : Dev nD) : V7 m (outs m) c = W7 m c := by
  show Function.update (V6 m (outs m) c) (Proc.devRef .tc main_v45) (W7 m c main_v45) = W7 m c
  rw [W7_out, V6_eq]; rfl

/-! ## The proof data family and what rides along -/

/-- Every region's proof data, each at its entry valuation: a literal match on the region's number. -/
def pdats : (p : Fin 4) → (c : Dev nD) → Dat τ (Elt F) Unit ℕ (UR sig nD τ) ℕ (Pipeline.pin (pcfgs (F := F)) adm p) c
  | ⟨0, _⟩ => fun c => Adj.dat0 (atTc (W1 m)) c
  | ⟨1, _⟩ => fun c => Proj.dat1 (atTc (W2 m)) c
  | ⟨2, _⟩ => fun c => Mp2.dat2 (atTc (W4 m)) c
  | ⟨3, _⟩ => fun c => Mp3.dat3 (atTc (W6 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The regions as segments -/

/-- What each window's array holds when the adjacency region ends, and that nothing else changed. -/
theorem hF0 (c : Dev nD) (w : Fin cfg0.W) : (Adj.dat0 (atTc (W1 m)) c).arrAt w cfg0.N = atTc (W2 m) c (Pipeline.arrRef spec0 w) :=
  match w with
  | ⟨0, _⟩ => ((Adj.dat0 (atTc (W1 m)) c).arrAt_in 0 rfl _).trans (W2_of m c main_v29 (by decide)).symm
  | ⟨1, _⟩ => ((Adj.dat0 (atTc (W1 m)) c).arrAt_in 1 rfl _).trans (W2_of m c main_v29 (by decide)).symm
  | ⟨2, _⟩ => (W2_out m c).symm
theorem hrest0 (c : Dev nD) : ∀ b, b ∉ Finset.univ.image (Pipeline.arrRef spec0) → atTc (W2 m) c b = atTc (W1 m) c b :=
  fun b hb => W2_of m c b fun h => hb (h ▸ Finset.mem_image.mpr ⟨2, Finset.mem_univ _, rfl⟩)

set_option maxHeartbeats 1000000 in
set_option backward.isDefEq.respectTransparency.types false in
/-- The adjacency region: entered from the first stretch's valuation, left with its output array at its write-backs'
    fold. The membership matrix is halved between its two windows at entry and made whole again at exit; the accumulator
    lives in the region's invariant; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Adj.body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Shared0.arrays_of_unscopedBufs0 (atTc (W1 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 := Adj.hin0 (atTc (W1 m)) c
    unfold Pipeline.ΦA at h0
    rw [show (pdats m 0 c).Φ 0 = (Adj.dat0 (atTc (W1 m)) c).Φ 0 from rfl]
    iintro ⟨Hp, -, Hr⟩
    iapply h0
    isplitl [Hr]; · iexact Hr
    iexact Hp
  hout c := by
    rw [Pipeline.ownSems0_none]
    refine (Adj.hout0 (atTc (W1 m)) c).trans ?_
    unfold Pipeline.ΦA
    iintro ⟨Hr, Hp⟩
    isplitl [Hp]; · iexact Hp
    isplitr; · iempintro
    iexact Hr
  hexit c := by
    have hjoin := Shared0.unscopedBufs_of_arrays0 (atTc (W1 m)) c (atTc (W2 m) c) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option maxHeartbeats 4000000 in
/-- What each window's array holds when the projection region ends, and that nothing else changed. -/
theorem hF1 (c : Dev nD) (w : Fin cfg1.W) : (Proj.dat1 (atTc (W2 m)) c).arrAt w cfg1.N = atTc (W3 m) c (Pipeline.arrRef spec1 w) :=
  match w with
  | ⟨0, _⟩ => ((Proj.dat1 (atTc (W2 m)) c).arrAt_in 0 rfl _).trans (W3_of m c main_v9 (by decide)).symm
  | ⟨1, _⟩ => ((Proj.dat1 (atTc (W2 m)) c).arrAt_in 1 rfl _).trans (W3_of m c main_arg2 (by decide)).symm
  | ⟨2, _⟩ => ((Proj.dat1 (atTc (W2 m)) c).arrAt_in 2 rfl _).trans (W3_of m c main_arg5 (by decide)).symm
  | ⟨3, _⟩ => ((Proj.dat1 (atTc (W2 m)) c).arrAt_in 3 rfl _).trans (W3_of m c main_arg6 (by decide)).symm
  | ⟨4, _⟩ => ((Proj.dat1 (atTc (W2 m)) c).arrAt_in 4 rfl _).trans (W3_of m c main_arg3 (by decide)).symm
  | ⟨5, _⟩ => ((Proj.dat1 (atTc (W2 m)) c).arrAt_in 5 rfl _).trans (W3_of m c main_arg4 (by decide)).symm
  | ⟨6, _⟩ => (W3_out m c).symm
theorem hrest1 (c : Dev nD) : ∀ b, b ∉ Finset.univ.image (Pipeline.arrRef spec1) → atTc (W3 m) c b = atTc (W2 m) c b :=
  fun b hb => W3_of m c b fun h => hb (h ▸ Finset.mem_image.mpr ⟨6, Finset.mem_univ _, rfl⟩)

set_option maxHeartbeats 1000000 in
set_option backward.isDefEq.respectTransparency.types false in
/-- The projection region: its seven arrays are distinct buffers, split out of the unscoped buffers at entry and put
    back at exit; the generator register goes into the region's invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation1 (atTc (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W2 m) c) (atTc (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option maxHeartbeats 4000000 in
/-- What each window's array holds when the first message-passing region ends, and that nothing else changed. -/
theorem hF2 (c : Dev nD) (w : Fin cfg2.W) : (Mp2.dat2 (atTc (W4 m)) c).arrAt w cfg2.N = atTc (W5 m) c (Pipeline.arrRef spec2 w) :=
  match w with
  | ⟨0, _⟩ => ((Mp2.dat2 (atTc (W4 m)) c).arrAt_in 0 rfl _).trans (W5_of m c main_v30 (by decide)).symm
  | ⟨1, _⟩ => ((Mp2.dat2 (atTc (W4 m)) c).arrAt_in 1 rfl _).trans (W5_of m c main_v31 (by decide)).symm
  | ⟨2, _⟩ => ((Mp2.dat2 (atTc (W4 m)) c).arrAt_in 2 rfl _).trans (W5_of m c main_v31 (by decide)).symm
  | ⟨3, _⟩ => ((Mp2.dat2 (atTc (W4 m)) c).arrAt_in 3 rfl _).trans (W5_of m c main_v33 (by decide)).symm
  | ⟨4, _⟩ => ((Mp2.dat2 (atTc (W4 m)) c).arrAt_in 4 rfl _).trans (W5_of m c main_v35 (by decide)).symm
  | ⟨5, _⟩ => ((Mp2.dat2 (atTc (W4 m)) c).arrAt_in 5 rfl _).trans (W5_of m c main_v37 (by decide)).symm
  | ⟨6, _⟩ => (W5_out m c).symm
theorem hrest2 (c : Dev nD) : ∀ b, b ∉ Finset.univ.image (Pipeline.arrRef spec2) → atTc (W5 m) c b = atTc (W4 m) c b :=
  fun b hb => W5_of m c b fun h => hb (h ▸ Finset.mem_image.mpr ⟨6, Finset.mem_univ _, rfl⟩)

set_option maxHeartbeats 1000000 in
set_option backward.isDefEq.respectTransparency.types false in
/-- The first message-passing region: the embeddings' array is halved between its two windows at entry and made whole
    again at exit; otherwise as the projection region. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Mp2.body_obligation2 (atTc (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (atTc (W4 m) c)
  hentry c := by
    rw [Pipeline.ownSems0_none]
    have hsplit := Shared2.arrays_of_unscopedBufs2 (atTc (W4 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Shared2.unscopedBufs_of_arrays2 (atTc (W4 m)) c (atTc (W5 m) c) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option maxHeartbeats 4000000 in
/-- What each window's array holds when the second message-passing region ends, and that nothing else changed. -/
theorem hF3 (c : Dev nD) (w : Fin cfg3.W) : (Mp3.dat3 (atTc (W6 m)) c).arrAt w cfg3.N = atTc (W7 m) c (Pipeline.arrRef spec3 w) :=
  match w with
  | ⟨0, _⟩ => ((Mp3.dat3 (atTc (W6 m)) c).arrAt_in 0 rfl _).trans (W7_of m c main_v30 (by decide)).symm
  | ⟨1, _⟩ => ((Mp3.dat3 (atTc (W6 m)) c).arrAt_in 1 rfl _).trans (W7_of m c main_v38 (by decide)).symm
  | ⟨2, _⟩ => ((Mp3.dat3 (atTc (W6 m)) c).arrAt_in 2 rfl _).trans (W7_of m c main_v38 (by decide)).symm
  | ⟨3, _⟩ => ((Mp3.dat3 (atTc (W6 m)) c).arrAt_in 3 rfl _).trans (W7_of m c main_v40 (by decide)).symm
  | ⟨4, _⟩ => ((Mp3.dat3 (atTc (W6 m)) c).arrAt_in 4 rfl _).trans (W7_of m c main_v42 (by decide)).symm
  | ⟨5, _⟩ => ((Mp3.dat3 (atTc (W6 m)) c).arrAt_in 5 rfl _).trans (W7_of m c main_v44 (by decide)).symm
  | ⟨6, _⟩ => (W7_out m c).symm
theorem hrest3 (c : Dev nD) : ∀ b, b ∉ Finset.univ.image (Pipeline.arrRef spec3) → atTc (W7 m) c b = atTc (W6 m) c b :=
  fun b hb => W7_of m c b fun h => hb (h ▸ Finset.mem_image.mpr ⟨6, Finset.mem_univ _, rfl⟩)

set_option maxHeartbeats 1000000 in
set_option backward.isDefEq.respectTransparency.types false in
/-- The second message-passing region: as the first, on the first layer's output. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (Mp3.body_obligation3 (atTc (W6 m)) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (atTc (W6 m) c)
  hentry c := by
    rw [Pipeline.ownSems0_none]
    have hsplit := Shared3.arrays_of_unscopedBufs3 (atTc (W6 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Shared3.unscopedBufs_of_arrays3 (atTc (W6 m)) c (atTc (W7 m) c) (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch and the frame -/

variable (ρ : Dev nD → PrngReg)

/-- The launch's ghost state: the pipelines' cells and their launch tokens, nothing else. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes what rides along. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, with the result: from any memory with zero counters every weakly fair execution of the program
    terminates, nothing faulting; the result array ends at the second message-passing region's output and every
    argument array as launched. -/
theorem run : θ_run defs (onTc (τ := τ) (main (F := F))) ⟨m, fun _ => 0, ρ⟩ (fun r => ∀ c : Dev nD,
      r.2.mem ((c.tc : Thread nD τ).loc main_v45) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1.trans (congrFun (V7_eq m c) _)).trans (W7_out m c), (h c).2⟩)
    (GenP.frame_cond_val m emb₁ () 𝒱₀ L lv (fun _ _ => rfl) ρ (outs m) (pdats m) 0 (fun _ => (BI.emp : sProp 𝕄))
      (initOf (Pipeline.cells cfgs cellOf_inj) (Pipeline.launchToks cfgs cellOf_inj)) (hu0 (F := F))
      (fun _ c => R c) (hE0 ρ) (fun c => by iintro ⟨-, HO⟩; iexact HO)
      (reg0 m) (fun c => .rfl) (fun c => by rw [V2_eq]; exact .rfl)
      (reg1 m) (fun c => by rw [V2_eq]; exact .rfl) (fun c => by rw [V3_eq]; exact .rfl)
      (reg2 m) (fun c => by rw [V4_eq]; exact .rfl) (fun c => by rw [V5_eq]; exact .rfl)
      (reg3 m) (fun c => by rw [V6_eq]; exact .rfl) (fun c => by rw [V7_eq]; exact .rfl))

/-- THE FRAME: the same run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run m ρ)

end Cert.KernelIdeal.Segs

end
-- ==== Proof.Val.Spec.lean ====
/-
  What the program computes, as functions of the argument arrays over the extended reals, index by index:
  the projection  ge0 = P·W_a2g + b_a2g + X·W_in + b_in ; the adjacency  A[i,j] = 0 if i = j, else 1 if the
  membership rows i and j share an atom (their product's entry is positive), else 0 ; a message-passing layer
  ge' = max(ge·W_self + (A·ge)·W_neigh + b, 0).
-/
import Idealize.ShloMosaic.PureOps.Ideal
import Idealize.ShloMosaic.Lib.ValueIdx

noncomputable section

namespace Cert.Spec

open Idealize.ShloMosaic Idealize.ShloMosaic.ValueIdx

/-- A matrix of extended reals over a literal shape. -/
abbrev T (r c : ℕ) : Type := (⟨2, ![r, c]⟩ : Shape).Idx → EReal
/-- A vector of extended reals over a literal shape. -/
abbrev T1 (n : ℕ) : Type := (⟨1, ![n]⟩ : Shape).Idx → EReal

/-- The overlap of membership rows `i` and `j`: the number of atoms the two groups share. -/
def overlapE (M : T 4096 16384) (i j : Fin 4096) : EReal := ∑ k : Fin 16384, M (ix2 i k) * M (ix2 j k)

/-- The adjacency entry: no self loop; an edge where the overlap is positive. -/
def adjE (M : T 4096 16384) (i j : Fin 4096) : EReal :=
  if i = j then 0 else if 0 < overlapE M i j then 1 else 0
def adjG (M : T 4096 16384) : T 4096 4096 := fun y => adjE M (y 0) (y 1)
theorem adjG_ix2 (M : T 4096 16384) (i j : Fin 4096) : adjG M (ix2 i j) = adjE M i j := rfl

/-- The projection's entry. -/
def projE (P : T 4096 256) (X : T 4096 128) (Wa : T 256 256) (ba : T1 256) (Wi : T 128 256) (bi : T1 256)
    (g : Fin 4096) (h : Fin 256) : EReal :=
  (((∑ a : Fin 256, P (ix2 g a) * Wa (ix2 a h)) + ba (ix1 h)) + ∑ f : Fin 128, X (ix2 g f) * Wi (ix2 f h)) + bi (ix1 h)
def projG (P : T 4096 256) (X : T 4096 128) (Wa : T 256 256) (ba : T1 256) (Wi : T 128 256) (bi : T1 256) : T 4096 256 :=
  fun y => projE P X Wa ba Wi bi (y 0) (y 1)
theorem projG_ix2 (P : T 4096 256) (X : T 4096 128) (Wa : T 256 256) (ba : T1 256) (Wi : T 128 256) (bi : T1 256)
    (g : Fin 4096) (h : Fin 256) : projG P X Wa ba Wi bi (ix2 g h) = projE P X Wa ba Wi bi g h := rfl

/-- The message a group receives from its neighbours, per hidden channel. -/
def msgE (A : T 4096 4096) (ge : T 4096 256) (g : Fin 4096) (k : Fin 256) : EReal := ∑ g' : Fin 4096, A (ix2 g g') * ge (ix2 g' k)

/-- A message-passing layer's entry. -/
def mpE (A : T 4096 4096) (ge : T 4096 256) (Ws Wn : T 256 256) (b : T1 256) (g : Fin 4096) (h : Fin 256) : EReal :=
  max (((∑ k : Fin 256, ge (ix2 g k) * Ws (ix2 k h)) + ∑ k : Fin 256, msgE A ge g k * Wn (ix2 k h)) + b (ix1 h)) 0
def mpG (A : T 4096 4096) (ge : T 4096 256) (Ws Wn : T 256 256) (b : T1 256) : T 4096 256 :=
  fun y => mpE A ge Ws Wn b (y 0) (y 1)
theorem mpG_ix2 (A : T 4096 4096) (ge : T 4096 256) (Ws Wn : T 256 256) (b : T1 256) (g : Fin 4096) (h : Fin 256) :
    mpG A ge Ws Wn b (ix2 g h) = mpE A ge Ws Wn b g h := rfl

end Cert.Spec

end
-- ==== Proof.Val.AdjVal.lean ====
/-
  What the adjacency region leaves in its output array, over the extended reals: entry (r, s) is 0 for r = s, else 1
  when membership rows r and s have a positive product (the four 4096-wide partial products a block's accumulator
  collects add up to the whole row product), else 0.
-/
import proofs.«109248_j70342974374329_1_alg».proof.Proof.KI.Adj
import proofs.«109248_j70342974374329_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AdjVal

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered, over the extended reals
variable (V : (c : Dev nD) → (b : Ref sig .tc) → Buf (Elt Ideal) ((c : Thread nD τ).loc b))

/-- The printed index maps over the grid: point t is (i, j, n) = (t / 32, (t / 4) % 8, t % 4). -/
theorem idx_facts : ∀ t : Fin cfg0.N,
    win0_0.index t (0 : Fin 2) = t.val / 32 ∧ win0_0.index t (1 : Fin 2) = t.val % 4
  ∧ win0_1.index t (0 : Fin 2) = (t.val / 4) % 8 ∧ win0_1.index t (1 : Fin 2) = t.val % 4
  ∧ win0_2.index t (0 : Fin 2) = t.val / 32 ∧ win0_2.index t (1 : Fin 2) = (t.val / 4) % 8
  ∧ ((grid0.coords t) 0).val = t.val / 32 ∧ ((grid0.coords t) 1).val = (t.val / 4) % 8 :=
  (by decide +kernel : ∀ t : Fin grid0.N, _)

/-! ## The three payloads, read at an index -/

theorem ofBits_one_f32 : Ideal.ofBits .f32 0x3F800000#32 = 1 := by
  simp [Ideal.ofBits, Ideal.ieee, -EReal.coe_mul]; norm_num

/-- The cleared accumulator is zero everywhere. -/
theorem pay1_apply (j : S512x512.Idx) : k0_pay1 (F := Ideal) j = 0 := by
  unfold k0_pay1
  rw [shapeCast_self]
  exact Ideal.ofBits_zero_f32

theorem lhs_DD_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_DD_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_DD_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_DD_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- The transposed block read at (k, q) is the block at (q, k). -/
theorem transpose_block_apply (b : FVec Ideal S512x4096 .bf16) (k : Fin 4096) (q : Fin 512) :
    transpose S4096x512 [1, 0] b transposes_S512x4096_p1_0_S4096x512 (ix2 k q) = b (ix2 q k) :=
  transpose_apply [1, 0] b transposes_S512x4096_p1_0_S4096x512 (ix2 k q) (ix2 q k) (fun a => by
    match a with
    | ⟨0, _⟩ => rfl
    | ⟨1, _⟩ => rfl)

/-- The block product A·Bᵀ added to the accumulator, entry by entry. -/
theorem pay2_apply (a b : Vec Ideal S512x4096 .bf16) (s : Vec Ideal S512x512 .f32) (p q : Fin 512) :
    k0_pay2 a b s (ix2 p q) = s (ix2 p q) + ∑ k : Fin 4096, a (ix2 p k) * b (ix2 q k) := by
  unfold k0_pay2
  simp only [shapeCast_self]
  rw [addf_apply]
  show s (ix2 p q) + FloatOps.matmul (F := Ideal) dot_S512x4096_S4096x512_S512x512_1_0_0_1_n_n none a
      (transpose S4096x512 [1, 0] b transposes_S512x4096_p1_0_S4096x512) (constant S512x512 .f32 0x00000000#32) (ix2 p q) = _
  rw [Ideal.matmul_constant_zero_apply, ← Equiv.sum_comp (ValueIdx.contrEquiv1 dot_S512x4096_S4096x512_S512x512_1_0_0_1_n_n 4096 rfl rfl).symm]
  congr 1
  refine Finset.sum_congr rfl fun k _ => ?_
  have hk := ValueIdx.contrEquiv1_symm_val dot_S512x4096_S4096x512_S512x512_1_0_0_1_n_n 4096 rfl rfl k
  have el : dot_S512x4096_S4096x512_S512x512_1_0_0_1_n_n.lhsIdx (ix2 p q) ((ValueIdx.contrEquiv1 dot_S512x4096_S4096x512_S512x512_1_0_0_1_n_n 4096 rfl rfl).symm k) = (ix2 p k : S512x4096.Idx) := funext fun a => Fin.ext (by
    match a with
    | ⟨0, _⟩ => exact lhs_DD_0 _ _
    | ⟨1, _⟩ => exact (lhs_DD_1 _ _).trans hk)
  have er : dot_S512x4096_S4096x512_S512x512_1_0_0_1_n_n.rhsIdx (ix2 p q) ((ValueIdx.contrEquiv1 dot_S512x4096_S4096x512_S512x512_1_0_0_1_n_n 4096 rfl rfl).symm k) = (ix2 k q : S4096x512.Idx) := funext fun a => Fin.ext (by
    match a with
    | ⟨0, _⟩ => exact (rhs_DD_0 _ _).trans hk
    | ⟨1, _⟩ => exact rhs_DD_1 _ _)
  rw [el, er, transpose_block_apply]

/-- A row number of the whole matrix as the body computes it in 32-bit words: no wrap-around. -/
theorem row_word (a p : ℕ) (ha : a < 8) (hp : p < 512) :
    IntOp.addi (Scalar.muli (BitVec.ofNat 32 a) 512#32) (BitVec.ofNat 32 p) = BitVec.ofNat 32 (512 * a + p) := by
  show BitVec.ofNat 32 a * 512#32 + BitVec.ofNat 32 p = _
  apply BitVec.eq_of_toNat_eq
  simp only [BitVec.toNat_add, BitVec.toNat_mul, BitVec.toNat_ofNat]
  omega

/-- Equality of two small words is equality of the numbers. -/
theorem cmpi_eq_ofNat (m n : ℕ) (hm : m < 2 ^ 32) (hn : n < 2 ^ 32) :
    IntOp.cmpi .eq (BitVec.ofNat 32 m) (BitVec.ofNat 32 n) = if m = n then 1#1 else 0#1 := by
  show BitVec.ofBool (BitVec.ofNat 32 m == BitVec.ofNat 32 n) = _
  by_cases h : m = n
  · subst h; simp
  · rw [if_neg h]
    have hne : (BitVec.ofNat 32 m == BitVec.ofNat 32 n) = false := by
      rw [beq_eq_false_iff_ne]
      intro e
      apply h
      have e' := congrArg BitVec.toNat e
      simp only [BitVec.toNat_ofNat] at e'
      rwa [Nat.mod_eq_of_lt hm, Nat.mod_eq_of_lt hn] at e'
    rw [hne]; rfl

/-- The stored block: zero on the whole matrix's diagonal, else one where the accumulator is positive. -/
theorem pay3_apply (i : grid0.Coords) (s : Vec Ideal S512x512 .f32) (p q : Fin 512) :
    k0_pay3 i s (ix2 p q)
      = if 512 * (i 0).val + p.val = 512 * (i 1).val + q.val then 0 else if 0 < s (ix2 p q) then 1 else 0 := by
  have hi0 : (i 0).val < 8 := (i 0).isLt
  have hi1 : (i 1).val < 8 := (i 1).isLt
  have h0 : iota .tc S512x512 32 [0] iota_S512x512_d0_w32 (ix2 p q) = BitVec.ofNat 32 p.val :=
    iota_single_apply .tc S512x512 32 0 _ (ix2 p q)
  have h1 : iota .tc S512x512 32 [1] iota_S512x512_d1_w32 (ix2 p q) = BitVec.ofNat 32 q.val :=
    iota_single_apply .tc S512x512 32 1 _ (ix2 p q)
  show Scalar.select
      (IntOp.cmpi .eq
        (IntOp.addi (Scalar.muli (BitVec.ofNat 32 (i 0).val) 512#32) (iota .tc S512x512 32 [0] iota_S512x512_d0_w32 (ix2 p q)))
        (IntOp.addi (Scalar.muli (BitVec.ofNat 32 (i 1).val) 512#32) (iota .tc S512x512 32 [1] iota_S512x512_d1_w32 (ix2 p q))))
      (Ideal.ofBits .f32 0x00000000#32)
      (Scalar.select (Ideal.cmp .ogt (s (ix2 p q)) (Ideal.ofBits .f32 0x00000000#32))
        (Ideal.ofBits .f32 0x3F800000#32) (Ideal.ofBits .f32 0x00000000#32)) = _
  rw [h0, h1, row_word _ _ hi0 p.isLt, row_word _ _ hi1 q.isLt,
    cmpi_eq_ofNat _ _ (by have := p.isLt; omega) (by have := q.isLt; omega), Ideal.ofBits_zero_f32, ofBits_one_f32]
  by_cases hd : 512 * (i 0).val + p.val = 512 * (i 1).val + q.val
  · rw [if_pos hd, if_pos hd]; exact select_one _ _
  · rw [if_neg hd, if_neg hd, select_zero]
    show Scalar.select (BitVec.ofBool (decide (0 < s (ix2 p q)))) (1 : EReal) 0 = _
    by_cases hs : 0 < s (ix2 p q)
    · rw [if_pos hs, decide_eq_true hs]; exact select_one _ _
    · rw [if_neg hs, decide_eq_false hs]; exact select_zero _ _

/-! ## The membership matrix by natural-number coordinates, and the blocks the body reads -/

/-- The membership matrix read at natural-number coordinates (zero outside the matrix). -/
def MN (M : Spec.T 4096 16384) (r k : ℕ) : EReal :=
  if h : r < 4096 ∧ k < 16384 then M (ix2 ⟨r, h.1⟩ ⟨k, h.2⟩) else 0

theorem MN_ix2 (M : Spec.T 4096 16384) (r : Fin 4096) (k : Fin 16384) : M (ix2 r k) = MN M r.val k.val := by
  unfold MN
  rw [dif_pos ⟨r.isLt, k.isLt⟩]

/-- Window 0's block at point t: rows 512 (t / 32) …, columns 4096 (t % 4) … of the matrix. -/
theorem blk0_apply (c : Dev nD) (t : Fin cfg0.N) (p : Fin 512) (k : Fin 4096) :
    Adj.iblk0 V c 0 t (ix2 p k) = MN (V c main_v29) (512 * (t.val / 32) + p.val) (4096 * (t.val % 4) + k.val) := by
  obtain ⟨e0, e1, -⟩ := idx_facts t
  have ht : t.val < 256 := lt_of_lt_of_eq t.isLt N_0
  have hp := p.isLt
  have hk := k.isLt
  show V c main_v29 (((cfg0.win 0).blk t).view.emb (ix2 p k)) = _
  unfold MN
  rw [dif_pos ⟨by omega, by omega⟩]
  refine congrArg (V c main_v29) (funext fun a => Fin.ext ?_)
  match a with
  | ⟨0, _⟩ => show win0_0.index t (0 : Fin 2) * 512 + 1 * p.val = 512 * (t.val / 32) + p.val; omega
  | ⟨1, _⟩ => show win0_0.index t (1 : Fin 2) * 4096 + 1 * k.val = 4096 * (t.val % 4) + k.val; omega

/-- Window 1's block at point t: rows 512 ((t / 4) % 8) …, the same columns. -/
theorem blk1_apply (c : Dev nD) (t : Fin cfg0.N) (q : Fin 512) (k : Fin 4096) :
    Adj.iblk0 V c 1 t (ix2 q k) = MN (V c main_v29) (512 * (t.val / 4 % 8) + q.val) (4096 * (t.val % 4) + k.val) := by
  obtain ⟨-, -, e2, e3, -⟩ := idx_facts t
  have ht : t.val < 256 := lt_of_lt_of_eq t.isLt N_0
  have hq := q.isLt
  have hk := k.isLt
  show V c main_v29 (((cfg0.win 1).blk t).view.emb (ix2 q k)) = _
  unfold MN
  rw [dif_pos ⟨by omega, by omega⟩]
  refine congrArg (V c main_v29) (funext fun a => Fin.ext ?_)
  match a with
  | ⟨0, _⟩ => show win0_1.index t (0 : Fin 2) * 512 + 1 * q.val = 512 * (t.val / 4 % 8) + q.val; omega
  | ⟨1, _⟩ => show win0_1.index t (1 : Fin 2) * 4096 + 1 * k.val = 4096 * (t.val % 4) + k.val; omega

/-! ## The accumulator over the four points of a block -/

/-- The product of rows r and s of the matrix over the n-th run of 4096 columns. -/
def part (M : Spec.T 4096 16384) (r s n : ℕ) : EReal :=
  ∑ k ∈ Finset.range 4096, MN M r (4096 * n + k) * MN M s (4096 * n + k)

/-- One point's step on the accumulator: the partial row product of its run of columns is added. -/
theorem pay2_blocks (c : Dev nD) (t : Fin cfg0.N) (s : Vec Ideal S512x512 .f32) (p q : Fin 512) :
    k0_pay2 (Adj.iblk0 V c 0 t) (Adj.iblk0 V c 1 t) s (ix2 p q)
      = s (ix2 p q) + part (V c main_v29) (512 * (t.val / 32) + p.val) (512 * (t.val / 4 % 8) + q.val) (t.val % 4) := by
  rw [pay2_apply]
  congr 1
  unfold part
  rw [← Fin.sum_univ_eq_sum_range (fun k => MN (V c main_v29) (512 * (t.val / 32) + p.val) (4096 * (t.val % 4) + k)
    * MN (V c main_v29) (512 * (t.val / 4 % 8) + q.val) (4096 * (t.val % 4) + k)) 4096]
  exact Finset.sum_congr rfl fun k _ => by rw [blk0_apply, blk1_apply]

/-- After the point with t % 4 = n the accumulator holds the partial row products of the runs 0 … n. -/
theorem acc_apply (c : Dev nD) : ∀ (n : ℕ) (t : Fin cfg0.N), t.val % 4 = n → ∀ p q : Fin 512,
    Adj.accAt V c t.val t.isLt (ix2 p q)
      = ∑ m ∈ Finset.range (n + 1), part (V c main_v29) (512 * (t.val / 32) + p.val) (512 * (t.val / 4 % 8) + q.val) m
  | 0, t, h, p, q => by
    rw [Adj.accAt_reset V c t h, pay2_blocks, pay1_apply, zero_add, h,
      Finset.sum_range_succ, Finset.sum_range_zero, zero_add]
  | n + 1, t, h, p, q => by
    have hne : ¬ t.val % 4 = 0 := by omega
    have hlt : t.val - 1 < cfg0.N := Nat.lt_of_le_of_lt (Nat.sub_le _ _) t.isLt
    have e1 : (t.val - 1) / 32 = t.val / 32 := by omega
    have e2 : (t.val - 1) / 4 % 8 = t.val / 4 % 8 := by omega
    have ih : Adj.accAt V c (t.val - 1) hlt (ix2 p q)
        = ∑ m ∈ Finset.range (n + 1), part (V c main_v29) (512 * ((t.val - 1) / 32) + p.val) (512 * ((t.val - 1) / 4 % 8) + q.val) m :=
      acc_apply c n ⟨t.val - 1, hlt⟩ (by show (t.val - 1) % 4 = n; omega) p q
    rw [e1, e2] at ih
    rw [Adj.accAt_step V c t hne, pay2_blocks, h, Finset.sum_range_succ _ (n + 1), ih]

theorem sum_range_four (P : ℕ → EReal) : ∑ m ∈ Finset.range 4, P m = P 0 + P 1 + P 2 + P 3 := by
  simp [Finset.sum_range_succ]

/-- The four partial products add up to the product over all 16384 columns. -/
theorem parts_total (M : Spec.T 4096 16384) (r s : ℕ) :
    ∑ m ∈ Finset.range 4, part M r s m = ∑ k ∈ Finset.range 16384, MN M r k * MN M s k := by
  rw [sum_range_four]
  unfold part
  rw [show (16384 : ℕ) = 4096 + 4096 + 4096 + 4096 from rfl, Finset.sum_range_add, Finset.sum_range_add, Finset.sum_range_add]
  refine congrArg₂ (· + ·) (congrArg₂ (· + ·) (congrArg₂ (· + ·) ?_ ?_) ?_) ?_ <;>
    exact Finset.sum_congr rfl fun k _ => by congr 2 <;> omega

/-- The specification's overlap, by natural-number coordinates. -/
theorem overlap_range (M : Spec.T 4096 16384) (r s : Fin 4096) :
    Spec.overlapE M r s = ∑ k ∈ Finset.range 16384, MN M r.val k * MN M s.val k := by
  unfold Spec.overlapE
  rw [← Fin.sum_univ_eq_sum_range (fun k => MN M r.val k * MN M s.val k) 16384]
  exact Finset.sum_congr rfl fun k _ => by rw [MN_ix2 M r k, MN_ix2 M s k]

/-! ## From the blocks to the array -/

/-- What the point t with t % 4 = 3 writes back is its block of the specification's adjacency. -/
theorem flushed_eq (c : Dev nD) (t : Fin cfg0.N) (hf : (cfg0.win 2).flush t = true) :
    (Adj.dat0 (F := Ideal) V c).flushed 2 t
      = ((cfg0.win 2).blk t).view.read (Elt Ideal) (Spec.adjG (V c main_v29)) := by
  have h3 : t.val % 4 = 3 := (flush0_2 t).1 hf
  have ht : t.val < 256 := lt_of_lt_of_eq t.isLt N_0
  obtain ⟨-, -, -, -, e4, e5, e6, e7⟩ := idx_facts t
  show (cfg0.win 2).cut (grid0.coords t) ((Adj.dat0 (F := Ideal) V c).after 2 t) = _
  rw [Adj.after0_2]
  funext j
  obtain ⟨p, q, rfl⟩ : ∃ (p q : Fin 512), j = ix2 p q := ⟨j 0, j 1, eq_ix2 j⟩
  have hp := p.isLt
  have hq := q.isLt
  show k0_pay3 (grid0.coords t) (Adj.accAt V c t.val t.isLt) (ix2 p q)
    = Spec.adjG (V c main_v29) (((cfg0.win 2).blk t).view.emb (ix2 p q))
  have hemb : ((cfg0.win 2).blk t).view.emb (ix2 p q)
      = ix2 (⟨512 * (t.val / 32) + p.val, by omega⟩ : Fin 4096) (⟨512 * (t.val / 4 % 8) + q.val, by omega⟩ : Fin 4096) := by
    funext a
    apply Fin.ext
    match a with
    | ⟨0, _⟩ => show win0_2.index t (0 : Fin 2) * 512 + 1 * p.val = 512 * (t.val / 32) + p.val; omega
    | ⟨1, _⟩ => show win0_2.index t (1 : Fin 2) * 512 + 1 * q.val = 512 * (t.val / 4 % 8) + q.val; omega
  rw [hemb, Spec.adjG_ix2, pay3_apply, acc_apply V c 3 t h3 p q, parts_total, e6, e7]
  unfold Spec.adjE
  rw [overlap_range]
  exact if_congr ⟨fun h => Fin.ext h, fun h => congrArg Fin.val h⟩ rfl rfl

/-- An index of the array is in point t's block iff each coordinate is in the block's range on its axis. -/
theorem mem_blk (t : Fin cfg0.N) (i : S4096x4096.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v30).slice (win0_2.rect t)).set ↔ _
  rw [View.set_slice_whole, Rect.mem_set_unit]
  exact Iff.rfl

/-- The adjacency array after the region is the specification's adjacency of the membership matrix it was entered with. -/
theorem adj_final (c : Dev nD) :
    (Adj.dat0 (F := Ideal) V c).arrAt 2 cfg0.N = Spec.adjG (V c main_v29) := by
  refine (Adj.dat0 (F := Ideal) V c).arrAt_eq_of_cover 2 (Spec.adjG (V c main_v29)) (fun t hf => flushed_eq V c t hf) ?_
  intro i
  have hi0 : (i 0).val < 4096 := (i 0).isLt
  have hi1 : (i 1).val < 4096 := (i 1).isLt
  have htn : 32 * ((i 0).val / 512) + 4 * ((i 1).val / 512) + 3 < cfg0.N := by
    rw [show cfg0.N = 256 from N_0]; omega
  obtain ⟨-, -, -, -, e4, e5, -⟩ := idx_facts ⟨32 * ((i 0).val / 512) + 4 * ((i 1).val / 512) + 3, htn⟩
  refine ⟨⟨32 * ((i 0).val / 512) + 4 * ((i 1).val / 512) + 3, htn⟩, (flush0_2 _).2 (by
    show (32 * ((i 0).val / 512) + 4 * ((i 1).val / 512) + 3) % 4 = 3; omega), ?_⟩
  rw [mem_blk]
  intro a
  match a with
  | ⟨0, _⟩ =>
    show win0_2.index ⟨32 * ((i 0).val / 512) + 4 * ((i 1).val / 512) + 3, htn⟩ (0 : Fin 2) * 512 ≤ (i 0).val
      ∧ (i 0).val < win0_2.index ⟨32 * ((i 0).val / 512) + 4 * ((i 1).val / 512) + 3, htn⟩ (0 : Fin 2) * 512 + 512
    rw [e4]
    show (32 * ((i 0).val / 512) + 4 * ((i 1).val / 512) + 3) / 32 * 512 ≤ (i 0).val
      ∧ (i 0).val < (32 * ((i 0).val / 512) + 4 * ((i 1).val / 512) + 3) / 32 * 512 + 512
    omega
  | ⟨1, _⟩ =>
    show win0_2.index ⟨32 * ((i 0).val / 512) + 4 * ((i 1).val / 512) + 3, htn⟩ (1 : Fin 2) * 512 ≤ (i 1).val
      ∧ (i 1).val < win0_2.index ⟨32 * ((i 0).val / 512) + 4 * ((i 1).val / 512) + 3, htn⟩ (1 : Fin 2) * 512 + 512
    rw [e5]
    show (32 * ((i 0).val / 512) + 4 * ((i 1).val / 512) + 3) / 4 % 8 * 512 ≤ (i 1).val
      ∧ (i 1).val < (32 * ((i 0).val / 512) + 4 * ((i 1).val / 512) + 3) / 4 % 8 * 512 + 512
    omega

end Cert.KernelIdeal.AdjVal

end
-- ==== Proof.Val.ProjVal.lean ====
/-
  What the projection region leaves in its output array, over the extended reals: row block by row block
  pooled·W_a2g + b_a2g + features·W_in + b_in, which is one function of the whole arrays.
  The stored value at an index of a block (the two products as sums over the contracted coordinate, each bias read at
  the column), the six blocks as parts of the arrays (the two row windows are rows 512 t … 512 t + 511 at point t, the
  weights and biases are whole), what a point writes back as a block of the specification's projection, and the cover
  of the array by the eight row blocks.
-/
import proofs.«109248_j70342974374329_1_alg».proof.Proof.KI.Proj
import proofs.«109248_j70342974374329_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjVal

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered, over the extended reals
variable (V : (c : Dev nD) → (b : Ref sig .tc) → Buf (Elt Ideal) ((c : Thread nD τ).loc b))

/-! ## The two products' operand indices, axis by axis -/

theorem lhs_a2g_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_a2g_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_a2g_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_a2g_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

theorem lhs_in_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem lhs_in_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
theorem rhs_in_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
theorem rhs_in_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl

/-! ## The two products at an index: the row of the left block against the column of the weights -/

/-- The pooled rows' block times W_a2g, into the zero splat, at `(p, q)`. -/
theorem mm_a2g_apply (l : FVec Ideal S512x256 .bf16) (r : FVec Ideal S256x256 .bf16) (p : Fin 512) (q : Fin 256) :
    matmul dot_S512x256_S256x256_S512x256_1_0_0_1_n_n none l r (constant (F := Ideal) S512x256 .f32 0x00000000#32) (ix2 p q)
      = ∑ a : Fin 256, l (ix2 p a) * r (ix2 a q) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p q) ((ValueIdx.contrEquiv1 dot_S512x256_S256x256_S512x256_1_0_0_1_n_n 256 rfl rfl).symm k) = ix2 p k := funext fun a => Fin.ext (by
    match a with
    | ⟨0, _⟩ => exact lhs_a2g_0 _ _
    | ⟨1, _⟩ => exact (lhs_a2g_1 _ _).trans hk)
  have er : dot_S512x256_S256x256_S512x256_1_0_0_1_n_n.rhsIdx (ix2 p q) ((ValueIdx.contrEquiv1 dot_S512x256_S256x256_S512x256_1_0_0_1_n_n 256 rfl rfl).symm k) = ix2 k q := funext fun a => Fin.ext (by
    match a with
    | ⟨0, _⟩ => exact (rhs_a2g_0 _ _).trans hk
    | ⟨1, _⟩ => exact rhs_a2g_1 _ _)
  rw [el, er]

/-- The feature rows' block times W_in, into the zero splat, at `(p, q)`. -/
theorem mm_in_apply (l : FVec Ideal S512x128 .bf16) (r : FVec Ideal S128x256 .bf16) (p : Fin 512) (q : Fin 256) :
    matmul dot_S512x128_S128x256_S512x256_1_0_0_1_n_n none l r (constant (F := Ideal) S512x256 .f32 0x00000000#32) (ix2 p q)
      = ∑ f : Fin 128, l (ix2 p f) * r (ix2 f q) := by
  simp only [matmul]
  rw [Ideal.matmul_constant_zero_apply, ← Equiv.sum_comp (ValueIdx.contrEquiv1 dot_S512x128_S128x256_S512x256_1_0_0_1_n_n 128 rfl rfl).symm]
  refine Finset.sum_congr rfl fun k _ => ?_
  have hk := ValueIdx.contrEquiv1_symm_val dot_S512x128_S128x256_S512x256_1_0_0_1_n_n 128 rfl rfl k
  have el : dot_S512x128_S128x256_S512x256_1_0_0_1_n_n.lhsIdx (ix2 p q) ((ValueIdx.contrEquiv1 dot_S512x128_S128x256_S512x256_1_0_0_1_n_n 128 rfl rfl).symm k) = ix2 p k := funext fun a => Fin.ext (by
    match a with
    | ⟨0, _⟩ => exact lhs_in_0 _ _
    | ⟨1, _⟩ => exact (lhs_in_1 _ _).trans hk)
  have er : dot_S512x128_S128x256_S512x256_1_0_0_1_n_n.rhsIdx (ix2 p q) ((ValueIdx.contrEquiv1 dot_S512x128_S128x256_S512x256_1_0_0_1_n_n 128 rfl rfl).symm k) = ix2 k q := funext fun a => Fin.ext (by
    match a with
    | ⟨0, _⟩ => exact (rhs_in_0 _ _).trans hk
    | ⟨1, _⟩ => exact rhs_in_1 _ _)
  rw [el, er]

/-- A bias vector cast to one row and broadcast over the block's 512 rows reads, at `(p, q)`, the bias at `q`. -/
theorem bias_apply (b : FVec Ideal S256 .f32) (p : Fin 512) (q : Fin 256) :
    broadcastTo S512x256 (shapeCast S1x256 b shapeCasts_S256_S1x256) broadcasts_S1x256_S512x256 (ix2 p q) = b (ix1 q) := by
  rw [broadcastTo_1b_ab_apply, shapeCast_a_1a_apply]

/-- The body's stored value at `(p, q)`, over the extended reals. -/
theorem pay_apply (x0 : Vec Ideal S512x256 .f32) (x1 : Vec Ideal S512x128 .f32) (x2 : Vec Ideal S256x256 .f32) (x3 : Vec Ideal S256 .f32)
    (x4 : Vec Ideal S128x256 .f32) (x5 : Vec Ideal S256 .f32) (p : Fin 512) (q : Fin 256) :
    k1_pay1 (F := Ideal) x0 x1 x2 x4 x3 x5 (ix2 p q)
      = (((∑ a : Fin 256, x0 (ix2 p a) * x2 (ix2 a q)) + x3 (ix1 q)) + ∑ f : Fin 128, x1 (ix2 p f) * x4 (ix2 f q)) + x5 (ix1 q) := by
  unfold k1_pay1
  simp only [addf_apply, bias_apply, mm_a2g_apply, mm_in_apply, truncf_apply, shapeCast_self]

/-! ## The output block after the body, at an index -/

theorem hz2 : (![0, 0] : Fin 2 → Nat) = fun _ => 0 := funext fun a => by fin_cases a <;> rfl
theorem hz1 : (![0] : Fin 1 → Nat) = fun _ => 0 := funext fun a => by fin_cases a <;> rfl

/-- The body loads its six blocks whole and stores one value whole: the output block is that value. -/
theorem out_apply (x0 : Vec Ideal S512x256 .f32) (x1 : Vec Ideal S512x128 .f32) (x2 : Vec Ideal S256x256 .f32) (x3 : Vec Ideal S256 .f32)
    (x4 : Vec Ideal S128x256 .f32) (x5 : Vec Ideal S256 .f32) (p : Fin 512) (q : Fin 256) :
    Proj.out1_6 (F := Ideal) x0 x1 x2 x3 x4 x5 (ix2 p q)
      = (((∑ a : Fin 256, x0 (ix2 p a) * x2 (ix2 a q)) + x3 (ix1 q)) + ∑ f : Fin 128, x1 (ix2 p f) * x4 (ix2 f q)) + x5 (ix1 q) := by
  unfold Proj.out1_6
  rw [View.canon_unit_zero hz2]
  simp only [View.ld_unit_zero (S := S512x256) hz2, View.ld_unit_zero (S := S512x128) hz2, View.ld_unit_zero (S := S256x256) hz2,
    View.ld_unit_zero (S := S128x256) hz2, View.ld_unit_zero (S := S256) hz1]
  exact pay_apply x0 x1 x2 x3 x4 x5 p q

/-- If the two row blocks are rows `512 n …` of the pooled embeddings and of the features, and the other four blocks are
    the weights and biases whole, the output block at `y` is the projection at row `512 n + y 0`, column `y 1`. -/
theorem out_eq_proj (P : Spec.T 4096 256) (X : Spec.T 4096 128) (Wa : Spec.T 256 256) (ba : Spec.T1 256) (Wi : Spec.T 128 256) (bi : Spec.T1 256)
    (x0 : Vec Ideal S512x256 .f32) (x1 : Vec Ideal S512x128 .f32) (x2 : Vec Ideal S256x256 .f32) (x3 : Vec Ideal S256 .f32)
    (x4 : Vec Ideal S128x256 .f32) (x5 : Vec Ideal S256 .f32) (n : ℕ)
    (h0 : ∀ (y : S512x256.Idx) (k : S4096x256.Idx), (k 0).val = 512 * n + (y 0).val → (k 1).val = (y 1).val → x0 y = P k)
    (h1 : ∀ (y : S512x128.Idx) (k : S4096x128.Idx), (k 0).val = 512 * n + (y 0).val → (k 1).val = (y 1).val → x1 y = X k)
    (h2 : x2 = Wa) (h3 : x3 = ba) (h4 : x4 = Wi) (h5 : x5 = bi)
    (y : S512x256.Idx) (k : S4096x256.Idx) (hk0 : (k 0).val = 512 * n + (y 0).val) (hk1 : (k 1).val = (y 1).val) :
    Proj.out1_6 (F := Ideal) x0 x1 x2 x3 x4 x5 y = Spec.projG P X Wa ba Wi bi k := by
  obtain ⟨p, q, rfl⟩ : ∃ (p : Fin 512) (q : Fin 256), y = ix2 p q := ⟨y 0, y 1, eq_ix2 y⟩
  obtain ⟨g, h, rfl⟩ : ∃ (g : Fin 4096) (h : Fin 256), k = ix2 g h := ⟨k 0, k 1, eq_ix2 k⟩
  obtain rfl : h = q := Fin.ext hk1
  have e0 : ∀ a : Fin 256, x0 (ix2 p a) = P (ix2 g a) := fun a => h0 (ix2 p a) (ix2 g a) hk0 rfl
  have e1 : ∀ f : Fin 128, x1 (ix2 p f) = X (ix2 g f) := fun f => h1 (ix2 p f) (ix2 g f) hk0 rfl
  subst h2 h3 h4 h5
  rw [out_apply, Spec.projG_ix2]
  unfold Spec.projE
  simp only [e0, e1]

/-! ## The blocks the body reads, as parts of the arrays -/

/-- The printed index maps, decided over the grid: the two row windows and the output move with the point; the weights
    and biases stay at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The pooled embeddings' block at point `t` is rows `512 t … 512 t + 511` of the array. -/
theorem iblk0_apply (c : Dev nD) (t : Fin cfg1.N) (y : S512x256.Idx) (k : S4096x256.Idx)
    (hk0 : (k 0).val = 512 * t.val + (y 0).val) (hk1 : (k 1).val = (y 1).val) :
    (Proj.iblk1 V c 0 t : Vec Ideal S512x256 .f32) y = (V c main_v9 : S4096x256.Idx → Elt Ideal .f32) k := by
  obtain ⟨e0, e1, -⟩ := idx_facts t
  unfold Proj.iblk1
  rw [View.read_apply]
  show V c main_v9 _ = V c main_v9 _
  congr 1
  funext a
  apply Fin.ext
  match a with
  | ⟨0, _⟩ => show win1_0.index t (0 : Fin 2) * 512 + 1 * (y 0).val = (k 0).val; rw [e0, hk0]; omega
  | ⟨1, _⟩ => show win1_0.index t (1 : Fin 2) * 256 + 1 * (y 1).val = (k 1).val; rw [e1, hk1]; omega

/-- The features' block at point `t` is rows `512 t … 512 t + 511` of the array. -/
theorem iblk1_apply (c : Dev nD) (t : Fin cfg1.N) (y : S512x128.Idx) (k : S4096x128.Idx)
    (hk0 : (k 0).val = 512 * t.val + (y 0).val) (hk1 : (k 1).val = (y 1).val) :
    (Proj.iblk1 V c 1 t : Vec Ideal S512x128 .f32) y = (V c main_arg2 : S4096x128.Idx → Elt Ideal .f32) k := by
  obtain ⟨-, -, e0, e1, -⟩ := idx_facts t
  unfold Proj.iblk1
  rw [View.read_apply]
  show V c main_arg2 _ = V c main_arg2 _
  congr 1
  funext a
  apply Fin.ext
  match a with
  | ⟨0, _⟩ => show win1_1.index t (0 : Fin 2) * 512 + 1 * (y 0).val = (k 0).val; rw [e0, hk0]; omega
  | ⟨1, _⟩ => show win1_1.index t (1 : Fin 2) * 128 + 1 * (y 1).val = (k 1).val; rw [e1, hk1]; omega

/-- W_a2g's block is the array, at every point. -/
theorem iblk2_eq (c : Dev nD) (t : Fin cfg1.N) :
    (Proj.iblk1 V c 2 t : Vec Ideal S256x256 .f32) = (V c main_arg5 : S256x256.Idx → Elt Ideal .f32) := by
  obtain ⟨-, -, -, -, e0, e1, -⟩ := idx_facts t
  funext y
  unfold Proj.iblk1
  rw [View.read_apply]
  show V c main_arg5 _ = V c main_arg5 _
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- b_a2g's block is the array, at every point. -/
theorem iblk3_eq (c : Dev nD) (t : Fin cfg1.N) :
    (Proj.iblk1 V c 3 t : Vec Ideal S256 .f32) = (V c main_arg6 : S256.Idx → Elt Ideal .f32) := by
  obtain ⟨-, -, -, -, -, -, e0, -⟩ := idx_facts t
  funext y
  unfold Proj.iblk1
  rw [View.read_apply]
  show V c main_arg6 _ = V c main_arg6 _
  congr 1
  funext a
  apply Fin.ext
  match a with
  | ⟨0, _⟩ => show win1_3.index t (0 : Fin 1) * 256 + 1 * (y 0).val = (y 0).val; rw [e0]; omega

/-- W_in's block is the array, at every point. -/
theorem iblk4_eq (c : Dev nD) (t : Fin cfg1.N) :
    (Proj.iblk1 V c 4 t : Vec Ideal S128x256 .f32) = (V c main_arg3 : S128x256.Idx → Elt Ideal .f32) := by
  obtain ⟨-, -, -, -, -, -, -, e0, e1, -⟩ := idx_facts t
  funext y
  unfold Proj.iblk1
  rw [View.read_apply]
  show V c main_arg3 _ = V c main_arg3 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 256 + 1 * (y 1).val = (y 1).val; rw [e1]; omega

/-- b_in's block is the array, at every point. -/
theorem iblk5_eq (c : Dev nD) (t : Fin cfg1.N) :
    (Proj.iblk1 V c 5 t : Vec Ideal S256 .f32) = (V c main_arg4 : S256.Idx → Elt Ideal .f32) := by
  obtain ⟨-, -, -, -, -, -, -, -, -, e0, -⟩ := idx_facts t
  funext y
  unfold Proj.iblk1
  rw [View.read_apply]
  show V c main_arg4 _ = V c main_arg4 _
  congr 1
  funext a
  apply Fin.ext
  match a with
  | ⟨0, _⟩ => show win1_5.index t (0 : Fin 1) * 256 + 1 * (y 0).val = (y 0).val; rw [e0]; omega

/-! ## From the blocks to the array -/

/-- What point `t` writes back is block `t` of the specification's projection of the arrays as the region finds them. -/
theorem flushed_eq (c : Dev nD) (t : Fin cfg1.N) :
    (Proj.dat1 (F := Ideal) V c).flushed 6 t
      = ((cfg1.win 6).blk t).view.read (Elt Ideal)
          (Spec.projG (V c main_v9) (V c main_arg2) (V c main_arg5) (V c main_arg6) (V c main_arg3) (V c main_arg4)) := by
  show (cfg1.win 6).cut (grid1.coords t) ((Proj.dat1 (F := Ideal) V c).after 6 t) = _
  rw [Proj.after1_6]
  obtain ⟨-, -, -, -, -, -, -, -, -, -, e0, e1⟩ := idx_facts t
  funext j
  rw [View.read_apply]
  show Proj.out1_6 (F := Ideal) (Proj.iblk1 V c 0 t) (Proj.iblk1 V c 1 t) (Proj.iblk1 V c 2 t) (Proj.iblk1 V c 3 t) (Proj.iblk1 V c 4 t)
      (Proj.iblk1 V c 5 t) j
    = Spec.projG (V c main_v9) (V c main_arg2) (V c main_arg5) (V c main_arg6) (V c main_arg3) (V c main_arg4)
      (((cfg1.win 6).blk t).view.emb j)
  refine out_eq_proj _ _ _ _ _ _ _ _ _ _ _ _ t.val (iblk0_apply V c t) (iblk1_apply V c t) (iblk2_eq V c t) (iblk3_eq V c t)
    (iblk4_eq V c t) (iblk5_eq V c t) j _ ?_ ?_
  · show win1_6.index t (0 : Fin 2) * 512 + 1 * (j 0).val = 512 * t.val + (j 0).val
    rw [e0]; omega
  · show win1_6.index t (1 : Fin 2) * 256 + 1 * (j 1).val = (j 1).val
    rw [e1]; omega

/-- An index of the array is in point `t`'s block iff each coordinate is in the block's range on its axis. -/
theorem mem_blk6 (t : Fin cfg1.N) (i : S4096x256.Idx) :
    i ∈ ((cfg1.win 6).blk t).view.set ↔ ∀ a : Fin 2, win1_6.index t a * S512x256.size a ≤ (i a).val
      ∧ (i a).val < win1_6.index t a * S512x256.size a + S512x256.size a := by
  show i ∈ ((View.whole main_v31).slice (win1_6.rect t)).set ↔ _
  rw [View.set_slice_whole, Rect.mem_set_unit]
  exact Iff.rfl

/-- Row `r` of the array is in the block of point `r / 512`: the eight row blocks tile the array. -/
theorem cover6 (i : S4096x256.Idx) :
    ∃ t : Fin cfg1.N, (cfg1.win 6).flush t = true ∧ i ∈ ((cfg1.win 6).blk t).view.set := by
  have hi0 : (i 0).val < 4096 := (i 0).isLt
  have hi1 : (i 1).val < 256 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, -, -, -, -, -, -, -, e0, e1⟩ := idx_facts t
  refine ⟨t, flush1_6 t, ?_⟩
  rw [mem_blk6]
  intro a
  match a with
  | ⟨0, _⟩ =>
    show win1_6.index t (0 : Fin 2) * 512 ≤ (i 0).val ∧ (i 0).val < win1_6.index t (0 : Fin 2) * 512 + 512
    rw [e0, ht]; omega
  | ⟨1, _⟩ =>
    show win1_6.index t (1 : Fin 2) * 256 ≤ (i 1).val ∧ (i 1).val < win1_6.index t (1 : Fin 2) * 256 + 256
    rw [e1]; omega

/-- The projected embeddings after the region are the specification's projection of the arrays it was entered with. -/
theorem proj_final (c : Dev nD) :
    (Proj.dat1 (F := Ideal) V c).arrAt 6 cfg1.N
      = Spec.projG (V c main_v9) (V c main_arg2) (V c main_arg5) (V c main_arg6) (V c main_arg3) (V c main_arg4) :=
  (Proj.dat1 (F := Ideal) V c).arrAt_eq_of_cover 6 _ (fun t _ => flushed_eq V c t) cover6

end Cert.KernelIdeal.ProjVal

end
-- ==== Proof.Val.Mp2Val.lean ====
/-
  What the first message-passing region leaves in its output array, over the extended reals: row block by row block
  max(rows·W_self + (adj_rows·embeddings)·W_neigh + b, 0), which is one function of the whole arrays.
  First the two products and the bias row read at an index, and with them the stored value at an entry of a block; then
  the seven windows' blocks as parts of their arrays (three move down by 512 rows per grid point, four are whole);
  then the 8 written blocks tile the 4096 rows, so the array ends as the specification's layer.
-/
import proofs.«109248_j70342974374329_1_alg».proof.Proof.KI.Mp2
import proofs.«109248_j70342974374329_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mp2Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The two products read at an index

A product into the zero accumulator is, at the extended reals, the sum over the one contracted axis of the operands'
products; the four coordinate facts of each product's operand indices say which entries those are. -/

/-- The product of the adjacency rows with the embeddings: the left operand's row is the output's row. -/
theorem lhsAgg_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- Its column is the contracted coordinate. -/
theorem lhsAgg_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
/-- The right operand's row is the contracted coordinate. -/
theorem rhsAgg_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
/-- Its column is the output's column. -/
theorem rhsAgg_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Rows of the adjacency times the embeddings, at `(p, q)`: the sum over the 4096 groups. -/
theorem matmulAgg_apply (l : FVec Ideal S512x4096 .bf16) (r : FVec Ideal S4096x256 .bf16) (p : Fin 512) (q : Fin 256) :
    matmul dot_S512x4096_S4096x256_S512x256_1_0_0_1_n_n none l r (constant (F := Ideal) S512x256 .f32 0x00000000#32) (ix2 p q)
      = ∑ g : Fin 4096, l (ix2 p g) * r (ix2 g q) := by
  simp only [matmul]
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact lhsAgg_0 _ _
    | ⟨1, _⟩ => exact (lhsAgg_1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (rhsAgg_0 _ _).trans hk
    | ⟨1, _⟩ => exact rhsAgg_1 _ _)
  rw [el, er]

/-- The product of a block of 512 rows with a 256 x 256 weight: the left operand's row is the output's row. -/
theorem lhsW_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
/-- Its column is the contracted coordinate. -/
theorem lhsW_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
/-- The weight's row is the contracted coordinate. -/
theorem rhsW_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
/-- Its column is the output's column. -/
theorem rhsW_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- A block of rows times a weight, at `(p, q)`: the sum over the 256 hidden channels. -/
theorem matmulW_apply (l : FVec Ideal S512x256 .bf16) (r : FVec Ideal S256x256 .bf16) (p : Fin 512) (q : Fin 256) :
    matmul dot_S512x256_S256x256_S512x256_1_0_0_1_n_n none l r (constant (F := Ideal) S512x256 .f32 0x00000000#32) (ix2 p q)
      = ∑ k : Fin 256, l (ix2 p k) * r (ix2 k q) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p q) ((ValueIdx.contrEquiv1 dot_S512x256_S256x256_S512x256_1_0_0_1_n_n 256 rfl rfl).symm k) = ix2 p k := funext fun a => Fin.ext (by
    match a with
    | ⟨0, _⟩ => exact lhsW_0 _ _
    | ⟨1, _⟩ => exact (lhsW_1 _ _).trans hk)
  have er : dot_S512x256_S256x256_S512x256_1_0_0_1_n_n.rhsIdx (ix2 p q) ((ValueIdx.contrEquiv1 dot_S512x256_S256x256_S512x256_1_0_0_1_n_n 256 rfl rfl).symm k) = ix2 k q := funext fun a => Fin.ext (by
    match a with
    | ⟨0, _⟩ => exact (rhsW_0 _ _).trans hk
    | ⟨1, _⟩ => exact rhsW_1 _ _)
  rw [el, er]

/-! ## The body's payload at an index -/

/-- The bias row `[256] → [1, 256] → [512, 256]` read at `(p, q)` is the bias at `q`. -/
theorem biasRow_apply (x : FVec Ideal S256 .f32) (p : Fin 512) (q : Fin 256) :
    broadcastTo S512x256 (shapeCast S1x256 x shapeCasts_S256_S1x256) broadcasts_S1x256_S512x256 (ix2 p q) = x (ix1 q) := by
  rw [broadcastTo_1b_ab_apply, shapeCast_a_1a_apply]

/-- The payload of the one store, at `(p, q)`: the row block times W_self, plus the aggregated neighbours times
    W_neigh, plus the bias, cut off below at zero. -/
theorem pay_apply (x0 : Vec Ideal S512x4096 .bf16) (xall : Vec Ideal S4096x256 .f32) (xrows : Vec Ideal S512x256 .f32)
    (ws wn : Vec Ideal S256x256 .f32) (b : Vec Ideal S256 .f32) (p : Fin 512) (q : Fin 256) :
    k2_pay1 x0 xall xrows ws wn b (ix2 p q)
      = max (((∑ k : Fin 256, xrows (ix2 p k) * ws (ix2 k q))
              + ∑ k : Fin 256, (∑ g : Fin 4096, x0 (ix2 p g) * xall (ix2 g k)) * wn (ix2 k q)) + b (ix1 q)) 0 := by
  unfold k2_pay1
  simp only [shapeCast_self]
  rw [maximumf_apply, addf_apply, addf_apply, broadcast_apply, matmulW_apply, matmulW_apply, biasRow_apply]
  simp only [truncf_apply, matmulAgg_apply]
  rw [show (FloatOps.ofBits FTy.f32 0x00000000#32 : Ideal .f32) = (0 : EReal) from Ideal.ofBits_zero_f32]

/-! ## From blocks to the array

At grid point `t` the adjacency window, the row window and the output window hold rows `512 t …` of their arrays;
the other four windows hold their arrays whole. -/

-- the TensorCore's buffer contents when the region is entered, over the extended reals
variable (V : (c : Dev nD) → (b : Ref sig .tc) → Buf (Elt Ideal) ((c : Thread nD τ).loc b))

/-- The zero offsets of a whole-buffer access, rank 2 and rank 1. -/
theorem hzz : (![0, 0] : Fin 2 → Nat) = fun _ => 0 := funext fun a => by fin_cases a <;> rfl
theorem hz : (![0] : Fin 1 → Nat) = fun _ => 0 := funext fun a => by fin_cases a; rfl

/-- The windows' block indices at each of the 8 grid points: the three moving windows are at block row `t`, every other
    block index is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row `p` of the block at point `t` is row `512 t + p` of the array. -/
def rowOf (t : Fin cfg2.N) (p : Fin 512) : Fin 4096 :=
  ⟨512 * t.val + p.val, by have := t.isLt; have hN : cfg2.N = 8 := N_2; have := p.isLt; omega⟩

/-- Where an entry of each window's block sits in its array. -/
theorem embAdj (t : Fin cfg2.N) (p : Fin 512) (g : Fin 4096) :
    ((cfg2.win 0).blk t).view.emb (ix2 p g) = ix2 (rowOf t p) g := by
  obtain ⟨e0, e1, -⟩ := idx_facts t
  funext a; apply Fin.ext
  match a with
  | ⟨0, _⟩ => show win2_0.index t (0 : Fin 2) * 512 + 1 * p.val = 512 * t.val + p.val; omega
  | ⟨1, _⟩ => show win2_0.index t (1 : Fin 2) * 4096 + 1 * g.val = g.val; omega

theorem embRows (t : Fin cfg2.N) (p : Fin 512) (k : Fin 256) :
    ((cfg2.win 1).blk t).view.emb (ix2 p k) = ix2 (rowOf t p) k := by
  obtain ⟨-, -, e0, e1, -⟩ := idx_facts t
  funext a; apply Fin.ext
  match a with
  | ⟨0, _⟩ => show win2_1.index t (0 : Fin 2) * 512 + 1 * p.val = 512 * t.val + p.val; omega
  | ⟨1, _⟩ => show win2_1.index t (1 : Fin 2) * 256 + 1 * k.val = k.val; omega

theorem embOut (t : Fin cfg2.N) (p : Fin 512) (q : Fin 256) :
    ((cfg2.win 6).blk t).view.emb (ix2 p q) = ix2 (rowOf t p) q := by
  obtain ⟨-, -, -, -, -, -, -, -, -, -, -, e0, e1⟩ := idx_facts t
  funext a; apply Fin.ext
  match a with
  | ⟨0, _⟩ => show win2_6.index t (0 : Fin 2) * 512 + 1 * p.val = 512 * t.val + p.val; omega
  | ⟨1, _⟩ => show win2_6.index t (1 : Fin 2) * 256 + 1 * q.val = q.val; omega

theorem embAll (t : Fin cfg2.N) (j : S4096x256.Idx) : ((cfg2.win 2).blk t).view.emb j = j := by
  obtain ⟨-, -, -, -, e0, e1, -⟩ := idx_facts t
  funext a; apply Fin.ext
  match a with
  | ⟨0, _⟩ => show win2_2.index t (0 : Fin 2) * 4096 + 1 * (j 0).val = (j 0).val; omega
  | ⟨1, _⟩ => show win2_2.index t (1 : Fin 2) * 256 + 1 * (j 1).val = (j 1).val; omega

theorem embWs (t : Fin cfg2.N) (j : S256x256.Idx) : ((cfg2.win 3).blk t).view.emb j = j := by
  obtain ⟨-, -, -, -, -, -, e0, e1, -⟩ := idx_facts t
  funext a; apply Fin.ext
  match a with
  | ⟨0, _⟩ => show win2_3.index t (0 : Fin 2) * 256 + 1 * (j 0).val = (j 0).val; omega
  | ⟨1, _⟩ => show win2_3.index t (1 : Fin 2) * 256 + 1 * (j 1).val = (j 1).val; omega

theorem embWn (t : Fin cfg2.N) (j : S256x256.Idx) : ((cfg2.win 4).blk t).view.emb j = j := by
  obtain ⟨-, -, -, -, -, -, -, -, e0, e1, -⟩ := idx_facts t
  funext a; apply Fin.ext
  match a with
  | ⟨0, _⟩ => show win2_4.index t (0 : Fin 2) * 256 + 1 * (j 0).val = (j 0).val; omega
  | ⟨1, _⟩ => show win2_4.index t (1 : Fin 2) * 256 + 1 * (j 1).val = (j 1).val; omega

theorem embBias (t : Fin cfg2.N) (j : S256.Idx) : ((cfg2.win 5).blk t).view.emb j = j := by
  obtain ⟨-, -, -, -, -, -, -, -, -, -, e0, -⟩ := idx_facts t
  funext a; apply Fin.ext
  match a with
  | ⟨0, _⟩ => show win2_5.index t (0 : Fin 1) * 256 + 1 * (j 0).val = (j 0).val; omega

/-- The layer's result as one function of the arrays the region was entered with. -/
abbrev G (c : Dev nD) : Spec.T 4096 256 :=
  Spec.mpG (V c (Pipeline.arrRef spec2 0)) (V c (Pipeline.arrRef spec2 1)) (V c (Pipeline.arrRef spec2 3))
    (V c (Pipeline.arrRef spec2 4)) (V c (Pipeline.arrRef spec2 5))

/-- The adjacency window's block at `t` is rows `512 t …` of the adjacency. -/
theorem blkAdj_apply (c : Dev nD) (t : Fin cfg2.N) (p : Fin 512) (g : Fin 4096) :
    (Mp2.iblk2 V c 0 t : Vec Ideal S512x4096 .bf16) (ix2 p g)
      = (V c (Pipeline.arrRef spec2 0) : Spec.T 4096 4096) (ix2 (rowOf t p) g) := by
  unfold Mp2.iblk2
  rw [View.read_apply]
  show V c (Pipeline.arrRef spec2 0) (((cfg2.win 0).blk t).view.emb (ix2 p g)) = _
  rw [embAdj]

/-- The row window's block at `t` is rows `512 t …` of the embeddings. -/
theorem blkRows_apply (c : Dev nD) (t : Fin cfg2.N) (p : Fin 512) (k : Fin 256) :
    (Mp2.iblk2 V c 1 t : Vec Ideal S512x256 .f32) (ix2 p k)
      = (V c (Pipeline.arrRef spec2 1) : Spec.T 4096 256) (ix2 (rowOf t p) k) := by
  unfold Mp2.iblk2
  rw [View.read_apply]
  show V c (Pipeline.arrRef spec2 1) (((cfg2.win 1).blk t).view.emb (ix2 p k)) = _
  rw [embRows]

/-- The third window holds the embeddings whole (the same array as the row window's). -/
theorem blkAll_apply (c : Dev nD) (t : Fin cfg2.N) (j : S4096x256.Idx) :
    (Mp2.iblk2 V c 2 t : Vec Ideal S4096x256 .f32) j = (V c (Pipeline.arrRef spec2 1) : Spec.T 4096 256) j := by
  unfold Mp2.iblk2
  rw [View.read_apply]
  show V c (Pipeline.arrRef spec2 2) (((cfg2.win 2).blk t).view.emb j) = _
  rw [embAll]

/-- The weights and the bias whole. -/
theorem blkWs_apply (c : Dev nD) (t : Fin cfg2.N) (j : S256x256.Idx) :
    (Mp2.iblk2 V c 3 t : Vec Ideal S256x256 .f32) j = (V c (Pipeline.arrRef spec2 3) : Spec.T 256 256) j := by
  unfold Mp2.iblk2
  rw [View.read_apply]
  show V c (Pipeline.arrRef spec2 3) (((cfg2.win 3).blk t).view.emb j) = _
  rw [embWs]

theorem blkWn_apply (c : Dev nD) (t : Fin cfg2.N) (j : S256x256.Idx) :
    (Mp2.iblk2 V c 4 t : Vec Ideal S256x256 .f32) j = (V c (Pipeline.arrRef spec2 4) : Spec.T 256 256) j := by
  unfold Mp2.iblk2
  rw [View.read_apply]
  show V c (Pipeline.arrRef spec2 4) (((cfg2.win 4).blk t).view.emb j) = _
  rw [embWn]

theorem blkBias_apply (c : Dev nD) (t : Fin cfg2.N) (j : S256.Idx) :
    (Mp2.iblk2 V c 5 t : Vec Ideal S256 .f32) j = (V c (Pipeline.arrRef spec2 5) : Spec.T1 256) j := by
  unfold Mp2.iblk2
  rw [View.read_apply]
  show V c (Pipeline.arrRef spec2 5) (((cfg2.win 5).blk t).view.emb j) = _
  rw [embBias]

/-- The body's output block at point `t`, entry by entry, is the block of `G` the output window names. -/
theorem out_apply (c : Dev nD) (t : Fin cfg2.N) (j : S512x256.Idx) :
    Mp2.out2_6 (Mp2.iblk2 V c 0 t) (Mp2.iblk2 V c 1 t) (Mp2.iblk2 V c 2 t) (Mp2.iblk2 V c 3 t) (Mp2.iblk2 V c 4 t) (Mp2.iblk2 V c 5 t) j
      = ((cfg2.win 6).blk t).view.read (Elt Ideal) (G V c) j := by
  obtain ⟨p, q, rfl⟩ : ∃ (p : Fin 512) (q : Fin 256), j = ix2 p q := ⟨j 0, j 1, eq_ix2 j⟩
  unfold Mp2.out2_6
  rw [View.canon_unit_zero hzz]
  simp only [View.ld_unit_zero (S := S512x4096) hzz, View.ld_unit_zero (S := S512x256) hzz, View.ld_unit_zero (S := S4096x256) hzz,
    View.ld_unit_zero (S := S256x256) hzz, View.ld_unit_zero (S := S256) hz]
  refine (pay_apply _ _ _ _ _ _ p q).trans ?_
  rw [View.read_apply]
  show _ = G V c (((cfg2.win 6).blk t).view.emb (ix2 p q))
  rw [embOut]
  show _ = Spec.mpE _ _ _ _ _ (rowOf t p) q
  unfold Spec.mpE Spec.msgE
  simp only [blkAdj_apply, blkRows_apply, blkAll_apply, blkWs_apply, blkWn_apply, blkBias_apply]

/-- What point `t` writes back is block `t` of `G`. -/
theorem flushed_eq (c : Dev nD) (t : Fin cfg2.N) :
    (Mp2.dat2 (F := Ideal) V c).flushed 6 t = ((cfg2.win 6).blk t).view.read (Elt Ideal) (G V c) := by
  show (cfg2.win 6).cut (grid2.coords t) ((Mp2.dat2 (F := Ideal) V c).after 6 t) = _
  rw [Mp2.after2_6]
  exact funext (out_apply V c t)

/-- An index of the output array is in point `t`'s block iff each coordinate is in the block's range on its axis. -/
theorem mem_blk (t : Fin cfg2.N) (i : S4096x256.Idx) :
    i ∈ ((cfg2.win 6).blk t).view.set ↔ ∀ a : Fin 2, win2_6.index t a * S512x256.size a ≤ (i a).val ∧ (i a).val < win2_6.index t a * S512x256.size a + S512x256.size a := by
  show i ∈ ((View.whole (Pipeline.arrRef spec2 6)).slice (win2_6.rect t)).set ↔ _
  rw [View.set_slice_whole, Rect.mem_set_unit]
  exact Iff.rfl

/-- Every row is in the block of the point `row / 512`. -/
theorem cover (i : S4096x256.Idx) : ∃ t : Fin cfg2.N, (cfg2.win 6).flush t = true ∧ i ∈ ((cfg2.win 6).blk t).view.set := by
  have hN : cfg2.N = 8 := N_2
  have hi0 : (i 0).val < 4096 := (i 0).isLt
  have hi1 : (i 1).val < 256 := (i 1).isLt
  refine ⟨⟨(i 0).val / 512, by omega⟩, flush2_6 _, ?_⟩
  rw [mem_blk]
  obtain ⟨-, -, -, -, -, -, -, -, -, -, -, e0, e1⟩ := idx_facts ⟨(i 0).val / 512, by omega⟩
  intro a
  match a with
  | ⟨0, _⟩ => show win2_6.index _ (0 : Fin 2) * 512 ≤ (i 0).val ∧ (i 0).val < win2_6.index _ (0 : Fin 2) * 512 + 512; rw [e0]; show (i 0).val / 512 * 512 ≤ (i 0).val ∧ (i 0).val < (i 0).val / 512 * 512 + 512; omega
  | ⟨1, _⟩ => show win2_6.index _ (1 : Fin 2) * 256 ≤ (i 1).val ∧ (i 1).val < win2_6.index _ (1 : Fin 2) * 256 + 256; rw [e1]; omega

/-- The embeddings after the layer are the specification's layer of the arrays the region was entered with. -/
theorem mp2_final (c : Dev nD) :
    (Mp2.dat2 (F := Ideal) V c).arrAt 6 cfg2.N
      = Spec.mpG (V c main_v30) (V c main_v31) (V c main_v33) (V c main_v35) (V c main_v37) :=
  (Mp2.dat2 (F := Ideal) V c).arrAt_eq_of_cover 6 (G V c) (fun t _ => flushed_eq V c t) cover

end Cert.KernelIdeal.Mp2Val

end
-- ==== Proof.Val.Mp3Val.lean ====
/-
  What the second message-passing region leaves in its output array, over the extended reals: row block by row block
  max(rows·W_self + (adj_rows·embeddings)·W_neigh + b, 0), which is one function of the whole arrays.
  First the two products and the bias row read at an index, and with them the stored value at an entry of a block; then
  the seven windows' blocks as parts of their arrays (three move down by 512 rows per grid point, four are whole);
  then the 8 written blocks tile the 4096 rows, so the array ends as the specification's layer.
-/
import proofs.«109248_j70342974374329_1_alg».proof.Proof.KI.Mp3
import proofs.«109248_j70342974374329_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mp3Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The two products read at an index

A product into the zero accumulator is, at the extended reals, the sum over the one contracted axis of the operands'
products; the four coordinate facts of each product's operand indices say which entries those are. -/

/-- The product of the adjacency rows with the embeddings: the left operand's row is the output's row. -/
theorem lhsAgg_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- Its column is the contracted coordinate. -/
theorem lhsAgg_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
/-- The right operand's row is the contracted coordinate. -/
theorem rhsAgg_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
/-- Its column is the output's column. -/
theorem rhsAgg_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Rows of the adjacency times the embeddings, at `(p, q)`: the sum over the 4096 groups. -/
theorem matmulAgg_apply (l : FVec Ideal S512x4096 .bf16) (r : FVec Ideal S4096x256 .bf16) (p : Fin 512) (q : Fin 256) :
    matmul dot_S512x4096_S4096x256_S512x256_1_0_0_1_n_n none l r (constant (F := Ideal) S512x256 .f32 0x00000000#32) (ix2 p q)
      = ∑ g : Fin 4096, l (ix2 p g) * r (ix2 g q) := by
  simp only [matmul]
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact lhsAgg_0 _ _
    | ⟨1, _⟩ => exact (lhsAgg_1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (rhsAgg_0 _ _).trans hk
    | ⟨1, _⟩ => exact rhsAgg_1 _ _)
  rw [el, er]

/-- The product of a block of 512 rows with a 256 x 256 weight: the left operand's row is the output's row. -/
theorem lhsW_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
/-- Its column is the contracted coordinate. -/
theorem lhsW_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
/-- The weight's row is the contracted coordinate. -/
theorem rhsW_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
/-- Its column is the output's column. -/
theorem rhsW_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- A block of rows times a weight, at `(p, q)`: the sum over the 256 hidden channels. -/
theorem matmulW_apply (l : FVec Ideal S512x256 .bf16) (r : FVec Ideal S256x256 .bf16) (p : Fin 512) (q : Fin 256) :
    matmul dot_S512x256_S256x256_S512x256_1_0_0_1_n_n none l r (constant (F := Ideal) S512x256 .f32 0x00000000#32) (ix2 p q)
      = ∑ k : Fin 256, l (ix2 p k) * r (ix2 k q) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p q) ((ValueIdx.contrEquiv1 dot_S512x256_S256x256_S512x256_1_0_0_1_n_n 256 rfl rfl).symm k) = ix2 p k := funext fun a => Fin.ext (by
    match a with
    | ⟨0, _⟩ => exact lhsW_0 _ _
    | ⟨1, _⟩ => exact (lhsW_1 _ _).trans hk)
  have er : dot_S512x256_S256x256_S512x256_1_0_0_1_n_n.rhsIdx (ix2 p q) ((ValueIdx.contrEquiv1 dot_S512x256_S256x256_S512x256_1_0_0_1_n_n 256 rfl rfl).symm k) = ix2 k q := funext fun a => Fin.ext (by
    match a with
    | ⟨0, _⟩ => exact (rhsW_0 _ _).trans hk
    | ⟨1, _⟩ => exact rhsW_1 _ _)
  rw [el, er]

/-! ## The body's payload at an index -/

/-- The bias row `[256] → [1, 256] → [512, 256]` read at `(p, q)` is the bias at `q`. -/
theorem biasRow_apply (x : FVec Ideal S256 .f32) (p : Fin 512) (q : Fin 256) :
    broadcastTo S512x256 (shapeCast S1x256 x shapeCasts_S256_S1x256) broadcasts_S1x256_S512x256 (ix2 p q) = x (ix1 q) := by
  rw [broadcastTo_1b_ab_apply, shapeCast_a_1a_apply]

/-- The payload of the one store, at `(p, q)`: the row block times W_self, plus the aggregated neighbours times
    W_neigh, plus the bias, cut off below at zero. -/
theorem pay_apply (x0 : Vec Ideal S512x4096 .bf16) (xall : Vec Ideal S4096x256 .f32) (xrows : Vec Ideal S512x256 .f32)
    (ws wn : Vec Ideal S256x256 .f32) (b : Vec Ideal S256 .f32) (p : Fin 512) (q : Fin 256) :
    k3_pay1 x0 xall xrows ws wn b (ix2 p q)
      = max (((∑ k : Fin 256, xrows (ix2 p k) * ws (ix2 k q))
              + ∑ k : Fin 256, (∑ g : Fin 4096, x0 (ix2 p g) * xall (ix2 g k)) * wn (ix2 k q)) + b (ix1 q)) 0 := by
  unfold k3_pay1
  simp only [shapeCast_self]
  rw [maximumf_apply, addf_apply, addf_apply, broadcast_apply, matmulW_apply, matmulW_apply, biasRow_apply]
  simp only [truncf_apply, matmulAgg_apply]
  rw [show (FloatOps.ofBits FTy.f32 0x00000000#32 : Ideal .f32) = (0 : EReal) from Ideal.ofBits_zero_f32]

/-! ## From blocks to the array

At grid point `t` the adjacency window, the row window and the output window hold rows `512 t …` of their arrays;
the other four windows hold their arrays whole. -/

-- the TensorCore's buffer contents when the region is entered, over the extended reals
variable (V : (c : Dev nD) → (b : Ref sig .tc) → Buf (Elt Ideal) ((c : Thread nD τ).loc b))

/-- The zero offsets of a whole-buffer access, rank 2 and rank 1. -/
theorem hzz : (![0, 0] : Fin 2 → Nat) = fun _ => 0 := funext fun a => by fin_cases a <;> rfl
theorem hz : (![0] : Fin 1 → Nat) = fun _ => 0 := funext fun a => by fin_cases a; rfl

/-- The windows' block indices at each of the 8 grid points: the three moving windows are at block row `t`, every other
    block index is zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row `p` of the block at point `t` is row `512 t + p` of the array. -/
def rowOf (t : Fin cfg3.N) (p : Fin 512) : Fin 4096 :=
  ⟨512 * t.val + p.val, by have := t.isLt; have hN : cfg3.N = 8 := N_3; have := p.isLt; omega⟩

/-- Where an entry of each window's block sits in its array. -/
theorem embAdj (t : Fin cfg3.N) (p : Fin 512) (g : Fin 4096) :
    ((cfg3.win 0).blk t).view.emb (ix2 p g) = ix2 (rowOf t p) g := by
  obtain ⟨e0, e1, -⟩ := idx_facts t
  funext a; apply Fin.ext
  match a with
  | ⟨0, _⟩ => show win3_0.index t (0 : Fin 2) * 512 + 1 * p.val = 512 * t.val + p.val; omega
  | ⟨1, _⟩ => show win3_0.index t (1 : Fin 2) * 4096 + 1 * g.val = g.val; omega

theorem embRows (t : Fin cfg3.N) (p : Fin 512) (k : Fin 256) :
    ((cfg3.win 1).blk t).view.emb (ix2 p k) = ix2 (rowOf t p) k := by
  obtain ⟨-, -, e0, e1, -⟩ := idx_facts t
  funext a; apply Fin.ext
  match a with
  | ⟨0, _⟩ => show win3_1.index t (0 : Fin 2) * 512 + 1 * p.val = 512 * t.val + p.val; omega
  | ⟨1, _⟩ => show win3_1.index t (1 : Fin 2) * 256 + 1 * k.val = k.val; omega

theorem embOut (t : Fin cfg3.N) (p : Fin 512) (q : Fin 256) :
    ((cfg3.win 6).blk t).view.emb (ix2 p q) = ix2 (rowOf t p) q := by
  obtain ⟨-, -, -, -, -, -, -, -, -, -, -, e0, e1⟩ := idx_facts t
  funext a; apply Fin.ext
  match a with
  | ⟨0, _⟩ => show win3_6.index t (0 : Fin 2) * 512 + 1 * p.val = 512 * t.val + p.val; omega
  | ⟨1, _⟩ => show win3_6.index t (1 : Fin 2) * 256 + 1 * q.val = q.val; omega

theorem embAll (t : Fin cfg3.N) (j : S4096x256.Idx) : ((cfg3.win 2).blk t).view.emb j = j := by
  obtain ⟨-, -, -, -, e0, e1, -⟩ := idx_facts t
  funext a; apply Fin.ext
  match a with
  | ⟨0, _⟩ => show win3_2.index t (0 : Fin 2) * 4096 + 1 * (j 0).val = (j 0).val; omega
  | ⟨1, _⟩ => show win3_2.index t (1 : Fin 2) * 256 + 1 * (j 1).val = (j 1).val; omega

theorem embWs (t : Fin cfg3.N) (j : S256x256.Idx) : ((cfg3.win 3).blk t).view.emb j = j := by
  obtain ⟨-, -, -, -, -, -, e0, e1, -⟩ := idx_facts t
  funext a; apply Fin.ext
  match a with
  | ⟨0, _⟩ => show win3_3.index t (0 : Fin 2) * 256 + 1 * (j 0).val = (j 0).val; omega
  | ⟨1, _⟩ => show win3_3.index t (1 : Fin 2) * 256 + 1 * (j 1).val = (j 1).val; omega

theorem embWn (t : Fin cfg3.N) (j : S256x256.Idx) : ((cfg3.win 4).blk t).view.emb j = j := by
  obtain ⟨-, -, -, -, -, -, -, -, e0, e1, -⟩ := idx_facts t
  funext a; apply Fin.ext
  match a with
  | ⟨0, _⟩ => show win3_4.index t (0 : Fin 2) * 256 + 1 * (j 0).val = (j 0).val; omega
  | ⟨1, _⟩ => show win3_4.index t (1 : Fin 2) * 256 + 1 * (j 1).val = (j 1).val; omega

theorem embBias (t : Fin cfg3.N) (j : S256.Idx) : ((cfg3.win 5).blk t).view.emb j = j := by
  obtain ⟨-, -, -, -, -, -, -, -, -, -, e0, -⟩ := idx_facts t
  funext a; apply Fin.ext
  match a with
  | ⟨0, _⟩ => show win3_5.index t (0 : Fin 1) * 256 + 1 * (j 0).val = (j 0).val; omega

/-- The layer's result as one function of the arrays the region was entered with. -/
abbrev G (c : Dev nD) : Spec.T 4096 256 :=
  Spec.mpG (V c (Pipeline.arrRef spec3 0)) (V c (Pipeline.arrRef spec3 1)) (V c (Pipeline.arrRef spec3 3))
    (V c (Pipeline.arrRef spec3 4)) (V c (Pipeline.arrRef spec3 5))

/-- The adjacency window's block at `t` is rows `512 t …` of the adjacency. -/
theorem blkAdj_apply (c : Dev nD) (t : Fin cfg3.N) (p : Fin 512) (g : Fin 4096) :
    (Mp3.iblk3 V c 0 t : Vec Ideal S512x4096 .bf16) (ix2 p g)
      = (V c (Pipeline.arrRef spec3 0) : Spec.T 4096 4096) (ix2 (rowOf t p) g) := by
  unfold Mp3.iblk3
  rw [View.read_apply]
  show V c (Pipeline.arrRef spec3 0) (((cfg3.win 0).blk t).view.emb (ix2 p g)) = _
  rw [embAdj]

/-- The row window's block at `t` is rows `512 t …` of the embeddings. -/
theorem blkRows_apply (c : Dev nD) (t : Fin cfg3.N) (p : Fin 512) (k : Fin 256) :
    (Mp3.iblk3 V c 1 t : Vec Ideal S512x256 .f32) (ix2 p k)
      = (V c (Pipeline.arrRef spec3 1) : Spec.T 4096 256) (ix2 (rowOf t p) k) := by
  unfold Mp3.iblk3
  rw [View.read_apply]
  show V c (Pipeline.arrRef spec3 1) (((cfg3.win 1).blk t).view.emb (ix2 p k)) = _
  rw [embRows]

/-- The third window holds the embeddings whole (the same array as the row window's). -/
theorem blkAll_apply (c : Dev nD) (t : Fin cfg3.N) (j : S4096x256.Idx) :
    (Mp3.iblk3 V c 2 t : Vec Ideal S4096x256 .f32) j = (V c (Pipeline.arrRef spec3 1) : Spec.T 4096 256) j := by
  unfold Mp3.iblk3
  rw [View.read_apply]
  show V c (Pipeline.arrRef spec3 2) (((cfg3.win 2).blk t).view.emb j) = _
  rw [embAll]

/-- The weights and the bias whole. -/
theorem blkWs_apply (c : Dev nD) (t : Fin cfg3.N) (j : S256x256.Idx) :
    (Mp3.iblk3 V c 3 t : Vec Ideal S256x256 .f32) j = (V c (Pipeline.arrRef spec3 3) : Spec.T 256 256) j := by
  unfold Mp3.iblk3
  rw [View.read_apply]
  show V c (Pipeline.arrRef spec3 3) (((cfg3.win 3).blk t).view.emb j) = _
  rw [embWs]

theorem blkWn_apply (c : Dev nD) (t : Fin cfg3.N) (j : S256x256.Idx) :
    (Mp3.iblk3 V c 4 t : Vec Ideal S256x256 .f32) j = (V c (Pipeline.arrRef spec3 4) : Spec.T 256 256) j := by
  unfold Mp3.iblk3
  rw [View.read_apply]
  show V c (Pipeline.arrRef spec3 4) (((cfg3.win 4).blk t).view.emb j) = _
  rw [embWn]

theorem blkBias_apply (c : Dev nD) (t : Fin cfg3.N) (j : S256.Idx) :
    (Mp3.iblk3 V c 5 t : Vec Ideal S256 .f32) j = (V c (Pipeline.arrRef spec3 5) : Spec.T1 256) j := by
  unfold Mp3.iblk3
  rw [View.read_apply]
  show V c (Pipeline.arrRef spec3 5) (((cfg3.win 5).blk t).view.emb j) = _
  rw [embBias]

/-- The body's output block at point `t`, entry by entry, is the block of `G` the output window names. -/
theorem out_apply (c : Dev nD) (t : Fin cfg3.N) (j : S512x256.Idx) :
    Mp3.out3_6 (Mp3.iblk3 V c 0 t) (Mp3.iblk3 V c 1 t) (Mp3.iblk3 V c 2 t) (Mp3.iblk3 V c 3 t) (Mp3.iblk3 V c 4 t) (Mp3.iblk3 V c 5 t) j
      = ((cfg3.win 6).blk t).view.read (Elt Ideal) (G V c) j := by
  obtain ⟨p, q, rfl⟩ : ∃ (p : Fin 512) (q : Fin 256), j = ix2 p q := ⟨j 0, j 1, eq_ix2 j⟩
  unfold Mp3.out3_6
  rw [View.canon_unit_zero hzz]
  simp only [View.ld_unit_zero (S := S512x4096) hzz, View.ld_unit_zero (S := S512x256) hzz, View.ld_unit_zero (S := S4096x256) hzz,
    View.ld_unit_zero (S := S256x256) hzz, View.ld_unit_zero (S := S256) hz]
  refine (pay_apply _ _ _ _ _ _ p q).trans ?_
  rw [View.read_apply]
  show _ = G V c (((cfg3.win 6).blk t).view.emb (ix2 p q))
  rw [embOut]
  show _ = Spec.mpE _ _ _ _ _ (rowOf t p) q
  unfold Spec.mpE Spec.msgE
  simp only [blkAdj_apply, blkRows_apply, blkAll_apply, blkWs_apply, blkWn_apply, blkBias_apply]

/-- What point `t` writes back is block `t` of `G`. -/
theorem flushed_eq (c : Dev nD) (t : Fin cfg3.N) :
    (Mp3.dat3 (F := Ideal) V c).flushed 6 t = ((cfg3.win 6).blk t).view.read (Elt Ideal) (G V c) := by
  show (cfg3.win 6).cut (grid3.coords t) ((Mp3.dat3 (F := Ideal) V c).after 6 t) = _
  rw [Mp3.after3_6]
  exact funext (out_apply V c t)

/-- An index of the output array is in point `t`'s block iff each coordinate is in the block's range on its axis. -/
theorem mem_blk (t : Fin cfg3.N) (i : S4096x256.Idx) :
    i ∈ ((cfg3.win 6).blk t).view.set ↔ ∀ a : Fin 2, win3_6.index t a * S512x256.size a ≤ (i a).val ∧ (i a).val < win3_6.index t a * S512x256.size a + S512x256.size a := by
  show i ∈ ((View.whole (Pipeline.arrRef spec3 6)).slice (win3_6.rect t)).set ↔ _
  rw [View.set_slice_whole, Rect.mem_set_unit]
  exact Iff.rfl

/-- Every row is in the block of the point `row / 512`. -/
theorem cover (i : S4096x256.Idx) : ∃ t : Fin cfg3.N, (cfg3.win 6).flush t = true ∧ i ∈ ((cfg3.win 6).blk t).view.set := by
  have hN : cfg3.N = 8 := N_3
  have hi0 : (i 0).val < 4096 := (i 0).isLt
  have hi1 : (i 1).val < 256 := (i 1).isLt
  refine ⟨⟨(i 0).val / 512, by omega⟩, flush3_6 _, ?_⟩
  rw [mem_blk]
  obtain ⟨-, -, -, -, -, -, -, -, -, -, -, e0, e1⟩ := idx_facts ⟨(i 0).val / 512, by omega⟩
  intro a
  match a with
  | ⟨0, _⟩ => show win3_6.index _ (0 : Fin 2) * 512 ≤ (i 0).val ∧ (i 0).val < win3_6.index _ (0 : Fin 2) * 512 + 512; rw [e0]; show (i 0).val / 512 * 512 ≤ (i 0).val ∧ (i 0).val < (i 0).val / 512 * 512 + 512; omega
  | ⟨1, _⟩ => show win3_6.index _ (1 : Fin 2) * 256 ≤ (i 1).val ∧ (i 1).val < win3_6.index _ (1 : Fin 2) * 256 + 256; rw [e1]; omega

/-- The embeddings after the layer are the specification's layer of the arrays the region was entered with. -/
theorem mp3_final (c : Dev nD) :
    (Mp3.dat3 (F := Ideal) V c).arrAt 6 cfg3.N
      = Spec.mpG (V c main_v30) (V c main_v38) (V c main_v40) (V c main_v42) (V c main_v44) :=
  (Mp3.dat3 (F := Ideal) V c).arrAt_eq_of_cover 6 (G V c) (fun t _ => flushed_eq V c t) cover

end Cert.KernelIdeal.Mp3Val

end
-- ==== Proof.Val.HostEq.lean ====
/-
  The host operations the two programs share. Both pool the atom embeddings by the same gather, sum and division, build
  the membership matrix by the same scatter, and slice each layer's weights and bias out of the stacked arguments by the
  same slices and reshapes. So the arrays the kernel's regions are entered with are the reference's own stages of the
  same arguments — at any float instance; the kernel's narrowing of the membership matrix to bf16 is kept as it is.
-/
import proofs.«109248_j70342974374329_1_alg».proof.Proof.Gen.KernelIdeal.Regions
import proofs.«109248_j70342974374329_1_alg».proof.Proof.RefRead
import Idealize.ShloMosaic.Lib.StableHlo.Run

noncomputable section

namespace Cert.KernelIdeal.HostEq

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The pooled embeddings the projection region reads are the reference's pooled stage of the same arguments. -/
theorem pooled_eq (m : (ℓ : Loc nD τ sig) → Buf (Elt F) ℓ) (c : Dev nD) :
    V1 m c main_v9 = Cert.ReferenceIdeal.ReadP.val_main_v9 (m ((c.tc : Thread nD τ).loc main_arg0)) (m ((c.tc : Thread nD τ).loc main_arg1)) := by
  show StableHlo.after hostOps0 (fun b => m (c, b)) (Proc.devRef .tc main_v9) = _
  after_results_simp
  rfl

set_option maxHeartbeats 4000000 in
/-- The membership matrix the adjacency region reads is the reference's scatter stage of the same argument, narrowed. -/
theorem member_eq (m : (ℓ : Loc nD τ sig) → Buf (Elt F) ℓ) (c : Dev nD) :
    V1 m c main_v29 = truncf .bf16 (Cert.ReferenceIdeal.ReadP.val_main_v37 (m ((c.tc : Thread nD τ).loc main_arg1))) bitsLt_bf16_f32 := by
  show StableHlo.after hostOps0 (fun b => m (c, b)) (Proc.devRef .tc main_v29) = _
  after_results_simp
  rfl

/-- The first layer's slices, after any valuation: the reference's stages of the stacked arguments. -/
theorem wself0_eq (W : Valuation τ sig (Elt F)) :
    StableHlo.after hostOps2 W (Proc.devRef .tc main_v33) = Cert.ReferenceIdeal.ReadP.val_main_v54 (W (Proc.devRef .tc main_arg7)) := by
  after_results
  rfl
theorem wneigh0_eq (W : Valuation τ sig (Elt F)) :
    StableHlo.after hostOps2 W (Proc.devRef .tc main_v35) = Cert.ReferenceIdeal.ReadP.val_main_v57 (W (Proc.devRef .tc main_arg8)) := by
  after_results
  rfl
theorem bias0_eq (W : Valuation τ sig (Elt F)) :
    StableHlo.after hostOps2 W (Proc.devRef .tc main_v37) = Cert.ReferenceIdeal.ReadP.val_main_v61 (W (Proc.devRef .tc main_arg9)) := by
  after_results
  rfl

/-- The second layer's slices. -/
theorem wself1_eq (W : Valuation τ sig (Elt F)) :
    StableHlo.after hostOps3 W (Proc.devRef .tc main_v40) = Cert.ReferenceIdeal.ReadP.val_main_v68 (W (Proc.devRef .tc main_arg7)) := by
  after_results
  rfl
theorem wneigh1_eq (W : Valuation τ sig (Elt F)) :
    StableHlo.after hostOps3 W (Proc.devRef .tc main_v42) = Cert.ReferenceIdeal.ReadP.val_main_v71 (W (Proc.devRef .tc main_arg8)) := by
  after_results
  rfl
theorem bias1_eq (W : Valuation τ sig (Elt F)) :
    StableHlo.after hostOps3 W (Proc.devRef .tc main_v44) = Cert.ReferenceIdeal.ReadP.val_main_v75 (W (Proc.devRef .tc main_arg9)) := by
  after_results
  rfl

end Cert.KernelIdeal.HostEq

end
-- ==== Proof.Val.KernelVal.lean ====
/-
  The kernel's result as one function of the arguments, over the extended reals. Reading the chain of valuations back:
  the result is the second layer of the specification applied to the adjacency of the membership matrix, the first
  layer's output and the second layer's sliced weights; the first layer's output is the first layer applied to the same
  adjacency, the projected embeddings and the first layer's sliced weights; the projected embeddings are the projection
  of the pooled embeddings and the arguments; and the pooled embeddings, the membership matrix and the slices are the
  reference's own stages of the arguments (narrowing the membership matrix to bf16 changes nothing over the reals).
-/
import proofs.«109248_j70342974374329_1_alg».proof.Proof.KI.Segs
import proofs.«109248_j70342974374329_1_alg».proof.Proof.Val.AdjVal
import proofs.«109248_j70342974374329_1_alg».proof.Proof.Val.ProjVal
import proofs.«109248_j70342974374329_1_alg».proof.Proof.Val.Mp2Val
import proofs.«109248_j70342974374329_1_alg».proof.Proof.Val.Mp3Val
import proofs.«109248_j70342974374329_1_alg».proof.Proof.Val.HostEq

set_option maxRecDepth 16384

noncomputable section

namespace Cert.KernelIdeal.KernelVal

open Cert.KernelIdeal Cert.KernelIdeal.Gen Cert.KernelIdeal.Segs
open Idealize.ShloMosaic Idealize.ShloMosaic.TcCoe Idealize.SL.Sem

variable (m : (ℓ : Loc nD τ sig) → Buf (Elt Ideal) ℓ) (c : Dev nD)

/-! ## No item before a region writes an argument -/

theorem W1_arg (r : Ref sig .tc) (h : r ∉ hostOps0_W) : W1 m c r = m ((c.tc : Thread nD τ).loc r) := V1_of m c r h
theorem W2_arg (r : Ref sig .tc) (h0 : r ∉ hostOps0_W) (h : r ≠ main_v30) : W2 m c r = m ((c.tc : Thread nD τ).loc r) :=
  (W2_of m c r h).trans (W1_arg m c r h0)
theorem W3_arg (r : Ref sig .tc) (h0 : r ∉ hostOps0_W) (h : r ≠ main_v30) (h' : r ≠ main_v31) : W3 m c r = m ((c.tc : Thread nD τ).loc r) :=
  (W3_of m c r h').trans (W2_arg m c r h0 h)
theorem W4_of (r : Ref sig .tc) (h : r ∉ hostOps2_W) : W4 m c r = W3 m c r := by
  have e := V4_of m (outs m) c r h
  rwa [V4_eq, V3_eq] at e
theorem W5_arg (r : Ref sig .tc) (h0 : r ∉ hostOps0_W) (h : r ≠ main_v30) (h' : r ≠ main_v31) (h2 : r ∉ hostOps2_W) (h5 : r ≠ main_v38) :
    W5 m c r = m ((c.tc : Thread nD τ).loc r) :=
  (W5_of m c r h5).trans ((W4_of m c r h2).trans (W3_arg m c r h0 h h'))
theorem W6_of (r : Ref sig .tc) (h : r ∉ hostOps3_W) : W6 m c r = W5 m c r := by
  have e := V6_of m (outs m) c r h
  rwa [V6_eq, V5_eq] at e

/-! ## The regions' outputs -/

/-- The adjacency array: the specification's adjacency of the reference's membership stage. -/
theorem o2_eq : o2 m c = Spec.adjG (Cert.ReferenceIdeal.ReadP.val_main_v37 (F := Ideal) (m ((c.tc : Thread nD τ).loc main_arg1))) := by
  have e := AdjVal.adj_final (atTc (W1 m)) c
  dsimp only [atTc] at e
  unfold o2
  rw [e]
  refine congrArg Spec.adjG (funext fun i => ?_)
  exact (congrFun (HostEq.member_eq (F := Ideal) m c) i).trans (ValueIdx.truncf_apply _ _ i)

/-- The projected embeddings: the specification's projection of the reference's pooled stage and the arguments. -/
theorem o3_eq : o3 m c = Spec.projG (Cert.ReferenceIdeal.ReadP.val_main_v9 (F := Ideal) (m ((c.tc : Thread nD τ).loc main_arg0)) (m ((c.tc : Thread nD τ).loc main_arg1)))
    (m ((c.tc : Thread nD τ).loc main_arg2)) (m ((c.tc : Thread nD τ).loc main_arg5)) (m ((c.tc : Thread nD τ).loc main_arg6))
    (m ((c.tc : Thread nD τ).loc main_arg3)) (m ((c.tc : Thread nD τ).loc main_arg4)) := by
  have e := ProjVal.proj_final (atTc (W2 m)) c
  dsimp only [atTc] at e
  unfold o3
  rw [e, (W2_of m c main_v9 (by decide)).trans (HostEq.pooled_eq m c),
    W2_arg m c main_arg2 (by decide) (by decide), W2_arg m c main_arg5 (by decide) (by decide),
    W2_arg m c main_arg6 (by decide) (by decide), W2_arg m c main_arg3 (by decide) (by decide),
    W2_arg m c main_arg4 (by decide) (by decide)]

/-- The first layer's output. -/
theorem o5_eq : o5 m c = Spec.mpG (o2 m c) (o3 m c)
    (Cert.ReferenceIdeal.ReadP.val_main_v54 (F := Ideal) (m ((c.tc : Thread nD τ).loc main_arg7)))
    (Cert.ReferenceIdeal.ReadP.val_main_v57 (F := Ideal) (m ((c.tc : Thread nD τ).loc main_arg8)))
    (Cert.ReferenceIdeal.ReadP.val_main_v61 (F := Ideal) (m ((c.tc : Thread nD τ).loc main_arg9))) := by
  have e := Mp2Val.mp2_final (atTc (W4 m)) c
  dsimp only [atTc] at e
  unfold o5
  rw [e,
    (W4_of m c main_v30 (by decide)).trans ((W3_of m c main_v30 (by decide)).trans (W2_out m c)),
    (W4_of m c main_v31 (by decide)).trans (W3_out m c),
    show W4 m c main_v33 = _ from (HostEq.wself0_eq (W3 m c)).trans (congrArg _ (W3_arg m c main_arg7 (by decide) (by decide) (by decide))),
    show W4 m c main_v35 = _ from (HostEq.wneigh0_eq (W3 m c)).trans (congrArg _ (W3_arg m c main_arg8 (by decide) (by decide) (by decide))),
    show W4 m c main_v37 = _ from (HostEq.bias0_eq (W3 m c)).trans (congrArg _ (W3_arg m c main_arg9 (by decide) (by decide) (by decide)))]

/-- The second layer's output: the program's result. -/
theorem o7_eq : o7 m c = Spec.mpG (o2 m c) (o5 m c)
    (Cert.ReferenceIdeal.ReadP.val_main_v68 (F := Ideal) (m ((c.tc : Thread nD τ).loc main_arg7)))
    (Cert.ReferenceIdeal.ReadP.val_main_v71 (F := Ideal) (m ((c.tc : Thread nD τ).loc main_arg8)))
    (Cert.ReferenceIdeal.ReadP.val_main_v75 (F := Ideal) (m ((c.tc : Thread nD τ).loc main_arg9))) := by
  have e := Mp3Val.mp3_final (atTc (W6 m)) c
  dsimp only [atTc] at e
  unfold o7
  rw [e,
    (W6_of m c main_v30 (by decide)).trans ((W5_of m c main_v30 (by decide)).trans ((W4_of m c main_v30 (by decide)).trans ((W3_of m c main_v30 (by decide)).trans (W2_out m c)))),
    (W6_of m c main_v38 (by decide)).trans (W5_out m c),
    show W6 m c main_v40 = _ from (HostEq.wself1_eq (W5 m c)).trans (congrArg _ (W5_arg m c main_arg7 (by decide) (by decide) (by decide) (by decide) (by decide))),
    show W6 m c main_v42 = _ from (HostEq.wneigh1_eq (W5 m c)).trans (congrArg _ (W5_arg m c main_arg8 (by decide) (by decide) (by decide) (by decide) (by decide))),
    show W6 m c main_v44 = _ from (HostEq.bias1_eq (W5 m c)).trans (congrArg _ (W5_arg m c main_arg9 (by decide) (by decide) (by decide) (by decide) (by decide)))]

end Cert.KernelIdeal.KernelVal

end
-- ==== Proof.Val.Ref.lean ====
/-
  The reference program's run read back as one function of the argument arrays: its adjacency, its projection and its two
  message-passing layers are the specification's functions of the argument arrays, index by index.
-/
import proofs.«109248_j70342974374329_1_alg».proof.Proof.RefRead
import proofs.«109248_j70342974374329_1_alg».proof.Proof.Val.Spec

noncomputable section

namespace Cert.ReferenceIdeal.RefValue

open Cert.ReferenceIdeal Idealize.ShloMosaic Idealize.ShloMosaic.ValueIdx Idealize.ShloMosaic.StableHlo

/-- The reference's adjacency matrix: the specification's adjacency of the scattered membership matrix. -/
abbrev refAdj (x1 : (⟨S4096x16, .i32⟩ : BufTy).Contents (Elt Ideal)) : Spec.T 4096 4096 :=
  Spec.adjG (ReadP.val_main_v37 (F := Ideal) x1)

/-- The reference's projected embeddings: the specification's projection of the pooled means and the group features. -/
abbrev refGe0 (x0 : (⟨S16384x256, .f32⟩ : BufTy).Contents (Elt Ideal)) (x1 : (⟨S4096x16, .i32⟩ : BufTy).Contents (Elt Ideal)) (x2 : (⟨S4096x128, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) : Spec.T 4096 256 :=
  Spec.projG (ReadP.val_main_v9 (F := Ideal) x0 x1) x2 x5 x6 x3 x4

/-! ### The composed index functions at a coordinate pair -/

theorem lidx10_ix2 (g : Fin 4096) (h : Fin 256) (k : Fin 256) : ReadP.lidx_main_v10 (ix2 g h) k = ix2 g k :=
  funext fun a => Fin.ext (by match a with | ⟨0, _⟩ => rfl | ⟨1, _⟩ => rfl)
theorem ridx10_ix2 (g : Fin 4096) (h : Fin 256) (k : Fin 256) : ReadP.ridx_main_v10 (ix2 g h) k = ix2 k h :=
  funext fun a => Fin.ext (by match a with | ⟨0, _⟩ => rfl | ⟨1, _⟩ => rfl)
theorem lidx14_ix2 (g : Fin 4096) (h : Fin 256) (k : Fin 128) : ReadP.lidx_main_v14 (ix2 g h) k = ix2 g k :=
  funext fun a => Fin.ext (by match a with | ⟨0, _⟩ => rfl | ⟨1, _⟩ => rfl)
theorem ridx14_ix2 (g : Fin 4096) (h : Fin 256) (k : Fin 128) : ReadP.ridx_main_v14 (ix2 g h) k = ix2 k h :=
  funext fun a => Fin.ext (by match a with | ⟨0, _⟩ => rfl | ⟨1, _⟩ => rfl)
theorem idx11_12_ix2 (g : Fin 4096) (h : Fin 256) : ReadP.idx_main_v11 (ReadP.idx_main_v12 (ix2 g h)) = ix1 h :=
  funext fun a => Fin.ext (by match a with | ⟨0, _⟩ => rfl)
theorem idx16_17_ix2 (g : Fin 4096) (h : Fin 256) : ReadP.idx_main_v16 (ReadP.idx_main_v17 (ix2 g h)) = ix1 h :=
  funext fun a => Fin.ext (by match a with | ⟨0, _⟩ => rfl)

theorem lidx39_ix2 (g : Fin 4096) (h : Fin 4096) (k : Fin 16384) : ReadP.lidx_main_v39 (ix2 g h) k = ix2 g k :=
  funext fun a => Fin.ext (by match a with | ⟨0, _⟩ => rfl | ⟨1, _⟩ => rfl)
theorem ridx39_ix2 (g : Fin 4096) (h : Fin 4096) (k : Fin 16384) : ReadP.ridx_main_v39 (ix2 g h) k = ix2 k h :=
  funext fun a => Fin.ext (by match a with | ⟨0, _⟩ => rfl | ⟨1, _⟩ => rfl)
theorem idx38_ix2 (k : Fin 16384) (s : Fin 4096) : ReadP.idx_main_v38 (ix2 k s) = ix2 s k :=
  funext fun a => Fin.ext (by match a with | ⟨0, _⟩ => rfl | ⟨1, _⟩ => rfl)

theorem lidx52_ix2 (g : Fin 4096) (h : Fin 256) (k : Fin 4096) : ReadP.lidx_main_v52 (ix2 g h) k = ix2 g k :=
  funext fun a => Fin.ext (by match a with | ⟨0, _⟩ => rfl | ⟨1, _⟩ => rfl)
theorem ridx52_ix2 (g : Fin 4096) (h : Fin 256) (k : Fin 4096) : ReadP.ridx_main_v52 (ix2 g h) k = ix2 k h :=
  funext fun a => Fin.ext (by match a with | ⟨0, _⟩ => rfl | ⟨1, _⟩ => rfl)
theorem lidx55_ix2 (g : Fin 4096) (h : Fin 256) (k : Fin 256) : ReadP.lidx_main_v55 (ix2 g h) k = ix2 g k :=
  funext fun a => Fin.ext (by match a with | ⟨0, _⟩ => rfl | ⟨1, _⟩ => rfl)
theorem ridx55_ix2 (g : Fin 4096) (h : Fin 256) (k : Fin 256) : ReadP.ridx_main_v55 (ix2 g h) k = ix2 k h :=
  funext fun a => Fin.ext (by match a with | ⟨0, _⟩ => rfl | ⟨1, _⟩ => rfl)
theorem lidx58_ix2 (g : Fin 4096) (h : Fin 256) (k : Fin 256) : ReadP.lidx_main_v58 (ix2 g h) k = ix2 g k :=
  funext fun a => Fin.ext (by match a with | ⟨0, _⟩ => rfl | ⟨1, _⟩ => rfl)
theorem ridx58_ix2 (g : Fin 4096) (h : Fin 256) (k : Fin 256) : ReadP.ridx_main_v58 (ix2 g h) k = ix2 k h :=
  funext fun a => Fin.ext (by match a with | ⟨0, _⟩ => rfl | ⟨1, _⟩ => rfl)
theorem idx62_63_ix2 (g : Fin 4096) (h : Fin 256) : ReadP.idx_main_v62 (ReadP.idx_main_v63 (ix2 g h)) = ix1 h :=
  funext fun a => Fin.ext (by match a with | ⟨0, _⟩ => rfl)

theorem lidx66_ix2 (g : Fin 4096) (h : Fin 256) (k : Fin 4096) : ReadP.lidx_main_v66 (ix2 g h) k = ix2 g k :=
  funext fun a => Fin.ext (by match a with | ⟨0, _⟩ => rfl | ⟨1, _⟩ => rfl)
theorem ridx66_ix2 (g : Fin 4096) (h : Fin 256) (k : Fin 4096) : ReadP.ridx_main_v66 (ix2 g h) k = ix2 k h :=
  funext fun a => Fin.ext (by match a with | ⟨0, _⟩ => rfl | ⟨1, _⟩ => rfl)
theorem lidx69_ix2 (g : Fin 4096) (h : Fin 256) (k : Fin 256) : ReadP.lidx_main_v69 (ix2 g h) k = ix2 g k :=
  funext fun a => Fin.ext (by match a with | ⟨0, _⟩ => rfl | ⟨1, _⟩ => rfl)
theorem ridx69_ix2 (g : Fin 4096) (h : Fin 256) (k : Fin 256) : ReadP.ridx_main_v69 (ix2 g h) k = ix2 k h :=
  funext fun a => Fin.ext (by match a with | ⟨0, _⟩ => rfl | ⟨1, _⟩ => rfl)
theorem lidx72_ix2 (g : Fin 4096) (h : Fin 256) (k : Fin 256) : ReadP.lidx_main_v72 (ix2 g h) k = ix2 g k :=
  funext fun a => Fin.ext (by match a with | ⟨0, _⟩ => rfl | ⟨1, _⟩ => rfl)
theorem ridx72_ix2 (g : Fin 4096) (h : Fin 256) (k : Fin 256) : ReadP.ridx_main_v72 (ix2 g h) k = ix2 k h :=
  funext fun a => Fin.ext (by match a with | ⟨0, _⟩ => rfl | ⟨1, _⟩ => rfl)
theorem idx76_77_ix2 (g : Fin 4096) (h : Fin 256) : ReadP.idx_main_v76 (ReadP.idx_main_v77 (ix2 g h)) = ix1 h :=
  funext fun a => Fin.ext (by match a with | ⟨0, _⟩ => rfl)

/-! ### The adjacency entry on the extended reals -/

/-- The word of 1.0 reads as the extended real one. -/
theorem ofBits_one_f32 : Ideal.ofBits .f32 0x3F800000#32 = 1 := by
  simp [Ideal.ofBits, Ideal.ieee, -EReal.coe_mul]; norm_num

/-- A one-bit word converted to a float is its natural number. -/
theorem uitofp_bit (b : BitVec 1) : FloatOps.uitofp (F := Ideal) .f32 b = ((b.toNat : ℝ) : EReal) := rfl

/-- The bit of a proposition, converted: one where it holds, zero where it does not. -/
theorem uitofp_ofBool (p : Bool) : FloatOps.uitofp (F := Ideal) .f32 (BitVec.ofBool p) = if p then 1 else 0 := by
  cases p <;> simp [uitofp_bit]

/-- Row and column numbers below 4096 are equal as 32-bit words exactly when they are equal. -/
theorem eye_bit (r s : Fin 4096) :
    IntOp.cmpi .eq (IntOp.addi (BitVec.ofNat 32 r.val) 0#32) (BitVec.ofNat 32 s.val) = BitVec.ofBool (decide (r = s)) := by
  have hr : r.val < 4096 := r.isLt
  have hs : s.val < 4096 := s.isLt
  simp only [IntOp.cmpi, IntOp.addi, BitVec.add_zero]
  congr 1
  by_cases h : r = s
  · subst h; simp
  · have : ¬ (BitVec.ofNat 32 r.val = BitVec.ofNat 32 s.val) := by
      intro e
      have := congrArg BitVec.toNat e
      rw [BitVec.toNat_ofNat, BitVec.toNat_ofNat, Nat.mod_eq_of_lt (by omega), Nat.mod_eq_of_lt (by omega)] at this
      exact h (Fin.ext this)
    simp [h, this]

/-- "Greater than" on the extended reals, as the bit of the strict order. -/
theorem cmp_ogt (x y : EReal) : Ideal.cmp .ogt x y = BitVec.ofBool (decide (y < x)) := rfl

/-- No self loop, and an edge exactly where the overlap is positive: the product of the two indicators is the case split. -/
theorem adj_scalar (ov : EReal) (r s : Fin 4096) :
    (if decide (0 < ov) then (1 : EReal) else 0) * (1 - (if decide (r = s) then (1 : EReal) else 0)) =
      if r = s then 0 else if 0 < ov then 1 else 0 := by
  have e11 : (1 : EReal) - 1 = 0 := by
    rw [← EReal.coe_one, ← EReal.coe_sub, sub_self, EReal.coe_zero]
  by_cases h : r = s <;> by_cases g : 0 < ov <;> simp [h, g, e11]

/-! ### The stages -/

/-- The adjacency stage: (overlap > 0) · (1 − identity) is the specification's case split, entry by entry. -/
theorem ref_adj (x1 : (⟨S4096x16, .i32⟩ : BufTy).Contents (Elt Ideal)) :
    ReadP.val_main_v51 (F := Ideal) x1 = refAdj x1 := by
  funext i
  obtain ⟨r, s, rfl⟩ : ∃ (r : Fin 4096) (s : Fin 4096), i = ix2 r s := ⟨i 0, i 1, eq_ix2 i⟩
  rw [ReadP.val_main_v51_apply, ReadP.val_main_v42_apply, ReadP.val_main_v41_apply, ReadP.val_main_v39_apply,
    ReadP.val_main_v40_apply, ReadP.val_main_cst_8_apply, ReadP.val_main_v50_apply, ReadP.val_main_v49_apply,
    ReadP.val_main_cst_10_apply, ReadP.val_main_v48_apply, ReadP.val_main_v47_apply, ReadP.val_main_v46_apply,
    ReadP.val_main_v43_apply, ReadP.val_main_v45_apply, ReadP.val_main_c_9_apply, ReadP.val_main_v44_apply]
  simp only [ReadP.val_main_v38_apply, lidx39_ix2, ridx39_ix2, idx38_ix2]
  show FloatOps.mulf (FloatOps.uitofp (F := Ideal) .f32 (FloatOps.cmpf (F := Ideal) .ogt
        (∑ k : Fin 16384, ReadP.val_main_v37 (F := Ideal) x1 (ix2 r k) * ReadP.val_main_v37 (F := Ideal) x1 (ix2 s k))
        (FloatOps.ofBits .f32 0x00000000#32)))
      (FloatOps.subf (FloatOps.ofBits .f32 0x3F800000#32)
        (FloatOps.uitofp (F := Ideal) .f32 (IntOp.cmpi .eq (IntOp.addi (BitVec.ofNat 32 r.val) 0#32) (BitVec.ofNat 32 s.val)))) = _
  rw [eye_bit, Ideal.cmpf_def, cmp_ogt, uitofp_ofBool, uitofp_ofBool, Ideal.ofBits_def, Ideal.ofBits_def, Ideal.ofBits_zero_f32,
    ofBits_one_f32, Ideal.mulf_def, Ideal.subf_def]
  show (if decide (0 < Spec.overlapE (ReadP.val_main_v37 (F := Ideal) x1) r s) then (1 : EReal) else 0) *
      (1 - (if decide (r = s) then (1 : EReal) else 0)) = _
  rw [adj_scalar]
  rfl

/-- The projection stage. -/
theorem ref_ge0 (x0 : (⟨S16384x256, .f32⟩ : BufTy).Contents (Elt Ideal)) (x1 : (⟨S4096x16, .i32⟩ : BufTy).Contents (Elt Ideal)) (x2 : (⟨S4096x128, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    ReadP.val_main_v18 (F := Ideal) x0 x1 x2 x3 x4 x5 x6 = refGe0 x0 x1 x2 x3 x4 x5 x6 := by
  funext i
  obtain ⟨g, h, rfl⟩ : ∃ (g : Fin 4096) (h : Fin 256), i = ix2 g h := ⟨i 0, i 1, eq_ix2 i⟩
  rw [ReadP.val_main_v18_apply, ReadP.val_main_v15_apply, ReadP.val_main_v13_apply, ReadP.val_main_v10_apply,
    ReadP.val_main_v12_apply, ReadP.val_main_v11_apply, ReadP.val_main_v14_apply, ReadP.val_main_v17_apply,
    ReadP.val_main_v16_apply]
  simp only [lidx10_ix2, ridx10_ix2, lidx14_ix2, ridx14_ix2, idx11_12_ix2, idx16_17_ix2, Ideal.addf_def,
    Spec.projG_ix2, Spec.projE]

/-- The first message-passing layer, over whatever the adjacency and the embeddings are. -/
theorem ref_layer1 (x0 : (⟨S16384x256, .f32⟩ : BufTy).Contents (Elt Ideal)) (x1 : (⟨S4096x16, .i32⟩ : BufTy).Contents (Elt Ideal)) (x2 : (⟨S4096x128, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 x8 : (⟨S2x256x256, .f32⟩ : BufTy).Contents (Elt Ideal)) (x9 : (⟨S2x256, .f32⟩ : BufTy).Contents (Elt Ideal)) :
    ReadP.val_main_v65 (F := Ideal) x0 x1 x2 x3 x4 x5 x6 x7 x8 x9 =
      Spec.mpG (ReadP.val_main_v51 (F := Ideal) x1) (ReadP.val_main_v18 (F := Ideal) x0 x1 x2 x3 x4 x5 x6)
        (ReadP.val_main_v54 (F := Ideal) x7) (ReadP.val_main_v57 (F := Ideal) x8) (ReadP.val_main_v61 (F := Ideal) x9) := by
  funext i
  obtain ⟨g, h, rfl⟩ : ∃ (g : Fin 4096) (h : Fin 256), i = ix2 g h := ⟨i 0, i 1, eq_ix2 i⟩
  rw [ReadP.val_main_v65_apply, ReadP.val_main_v64_apply, ReadP.val_main_v59_apply, ReadP.val_main_v55_apply,
    ReadP.val_main_v58_apply, ReadP.val_main_v63_apply, ReadP.val_main_v62_apply, ReadP.val_main_call0_v0_apply,
    ReadP.val_main_call0_cst_apply]
  simp only [ReadP.val_main_v52_apply, lidx55_ix2, ridx55_ix2, lidx58_ix2, ridx58_ix2, lidx52_ix2, ridx52_ix2,
    idx62_63_ix2, Ideal.addf_def, Ideal.maximumf_def, Ideal.ofBits_def, Ideal.ofBits_zero_f32,
    Spec.mpG_ix2, Spec.mpE, Spec.msgE]

/-- The second message-passing layer. -/
theorem ref_layer2 (x0 : (⟨S16384x256, .f32⟩ : BufTy).Contents (Elt Ideal)) (x1 : (⟨S4096x16, .i32⟩ : BufTy).Contents (Elt Ideal)) (x2 : (⟨S4096x128, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 x8 : (⟨S2x256x256, .f32⟩ : BufTy).Contents (Elt Ideal)) (x9 : (⟨S2x256, .f32⟩ : BufTy).Contents (Elt Ideal)) :
    ReadP.val_main_v79 (F := Ideal) x0 x1 x2 x3 x4 x5 x6 x7 x8 x9 =
      Spec.mpG (ReadP.val_main_v51 (F := Ideal) x1) (ReadP.val_main_v65 (F := Ideal) x0 x1 x2 x3 x4 x5 x6 x7 x8 x9)
        (ReadP.val_main_v68 (F := Ideal) x7) (ReadP.val_main_v71 (F := Ideal) x8) (ReadP.val_main_v75 (F := Ideal) x9) := by
  funext i
  obtain ⟨g, h, rfl⟩ : ∃ (g : Fin 4096) (h : Fin 256), i = ix2 g h := ⟨i 0, i 1, eq_ix2 i⟩
  rw [ReadP.val_main_v79_apply, ReadP.val_main_v78_apply, ReadP.val_main_v73_apply, ReadP.val_main_v69_apply,
    ReadP.val_main_v72_apply, ReadP.val_main_v77_apply, ReadP.val_main_v76_apply, ReadP.val_main_call1_v0_apply,
    ReadP.val_main_call1_cst_apply]
  simp only [ReadP.val_main_v66_apply, lidx69_ix2, ridx69_ix2, lidx72_ix2, ridx72_ix2, lidx66_ix2, ridx66_ix2,
    idx76_77_ix2, Ideal.addf_def, Ideal.maximumf_def, Ideal.ofBits_def, Ideal.ofBits_zero_f32,
    Spec.mpG_ix2, Spec.mpE, Spec.msgE]

/-- The reference's result is the specification's composition: two layers over the adjacency and the projection. -/
theorem ref_result (x0 : (⟨S16384x256, .f32⟩ : BufTy).Contents (Elt Ideal)) (x1 : (⟨S4096x16, .i32⟩ : BufTy).Contents (Elt Ideal)) (x2 : (⟨S4096x128, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 x8 : (⟨S2x256x256, .f32⟩ : BufTy).Contents (Elt Ideal)) (x9 : (⟨S2x256, .f32⟩ : BufTy).Contents (Elt Ideal)) :
    ReadP.val_main_v79 (F := Ideal) x0 x1 x2 x3 x4 x5 x6 x7 x8 x9 =
      Spec.mpG (refAdj x1)
        (Spec.mpG (refAdj x1) (refGe0 x0 x1 x2 x3 x4 x5 x6)
          (ReadP.val_main_v54 (F := Ideal) x7) (ReadP.val_main_v57 (F := Ideal) x8) (ReadP.val_main_v61 (F := Ideal) x9))
        (ReadP.val_main_v68 (F := Ideal) x7) (ReadP.val_main_v71 (F := Ideal) x8) (ReadP.val_main_v75 (F := Ideal) x9) := by
  rw [ref_layer2, ref_layer1, ref_adj, ref_ge0]

/-- The run's result array is that function of the arguments' launch contents. -/
theorem res_eq (m : (ℓ : Loc nD τ sig) → Buf (Elt Ideal) ℓ) (c : Dev nD) :
    ValueP.res_main_v79 (F := Ideal) m c =
      ReadP.val_main_v79 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) :=
  ReadP.val_main_v79_eq (F := Ideal) m c

end Cert.ReferenceIdeal.RefValue

end
-- ==== Proof.lean ====
/-
  The certificate's proof. The kernel's program runs as a chain of host stretches and four kernel regions, each region
  entered from a known valuation of the core's buffers and left with its output array at what its write-backs fold to:
  that gives the kernel's two frame claims (at the word level and over the extended reals) and, over the extended reals,
  the result array as the specification's composition — the projection of the pooled embeddings, the adjacency of the
  membership matrix, two message-passing layers. The reference's run gives its frame claim and its result, which is the
  same composition of the same stages of the same arguments. No rewrite was applied by the idealization, so there is
  nothing to preserve.
-/
import proofs.«109248_j70342974374329_1_alg».proof.Defs
import proofs.«109248_j70342974374329_1_alg».proof.Proof.Gen.Kernel
import proofs.«109248_j70342974374329_1_alg».proof.Proof.Gen.KernelIdeal
import proofs.«109248_j70342974374329_1_alg».proof.Proof.Gen.ReferenceIdeal
import proofs.«109248_j70342974374329_1_alg».proof.Proof.Gen.Pre_finite_inputs
import proofs.«109248_j70342974374329_1_alg».proof.Proof.K.Segs
import proofs.«109248_j70342974374329_1_alg».proof.Proof.KI.Segs
import proofs.«109248_j70342974374329_1_alg».proof.Proof.Val.KernelVal
import proofs.«109248_j70342974374329_1_alg».proof.Proof.Val.Ref
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Segs.frame m ρ

theorem frame_ki : @Cert.frame_KernelIdeal Cert.KernelIdeal.Gen.facts Cert.Pre_finite_inputs.Gen.facts :=
  fun m ρ _ => Cert.KernelIdeal.Segs.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs run from memories agreeing on the arguments end with one result: the kernel's regions compute the
    specification's composition of the shared host stages, and so does the reference. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Segs.o7 (F := Ideal) m c, Cert.KernelIdeal.Segs.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  show _ = Cert.KernelIdeal.Segs.o7 (F := Ideal) m c
  rw [Cert.ReferenceIdeal.RefValue.res_eq, Cert.ReferenceIdeal.RefValue.ref_result, h0, h1, h2, h3, h4, h5, h6, h7, h8, h9,
    Cert.KernelIdeal.KernelVal.o7_eq, Cert.KernelIdeal.KernelVal.o5_eq, Cert.KernelIdeal.KernelVal.o3_eq, Cert.KernelIdeal.KernelVal.o2_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
